-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x4x1280 : Shape := ⟨3, ![2048, 4, 1280]⟩
abbrev S2048x40 : Shape := ⟨2, ![2048, 40]⟩
abbrev S3840x1280 : Shape := ⟨2, ![3840, 1280]⟩
abbrev S3840 : Shape := ⟨1, ![3840]⟩
abbrev S1280x1280 : Shape := ⟨2, ![1280, 1280]⟩
abbrev S1280 : Shape := ⟨1, ![1280]⟩
abbrev S_ : Shape := ⟨0, ![]⟩

class Facts : Prop where
  bcast_S_S2048x4x1280 : S_.BroadcastsInDim S2048x4x1280 (![] : Fin 0 → Fin S2048x4x1280.rank)
  reducesTo_S2048x4x1280_S_d0_1_2 : S2048x4x1280.ReducesTo [0, 1, 2] S_
  h_S_ : 0 < S_.numel
  bcast_S_S2048x40 : S_.BroadcastsInDim S2048x40 (![] : Fin 0 → Fin S2048x40.rank)
  reducesTo_S2048x40_S_d0_1 : S2048x40.ReducesTo [0, 1] S_
  bcast_S_S3840x1280 : S_.BroadcastsInDim S3840x1280 (![] : Fin 0 → Fin S3840x1280.rank)
  reducesTo_S3840x1280_S_d0_1 : S3840x1280.ReducesTo [0, 1] S_
  bcast_S_S3840 : S_.BroadcastsInDim S3840 (![] : Fin 0 → Fin S3840.rank)
  reducesTo_S3840_S_d0 : S3840.ReducesTo [0] S_
  bcast_S_S1280x1280 : S_.BroadcastsInDim S1280x1280 (![] : Fin 0 → Fin S1280x1280.rank)
  reducesTo_S1280x1280_S_d0_1 : S1280x1280.ReducesTo [0, 1] S_
  bcast_S_S1280 : S_.BroadcastsInDim S1280 (![] : Fin 0 → Fin S1280.rank)
  reducesTo_S1280_S_d0 : S1280.ReducesTo [0] S_

variable [Facts]

def fn_part1 {F : FTy → Type} [FloatOps F] (main_arg4 : FVec F S1280x1280 .f32) (main_arg5 : FVec F S1280 .f32) (main_v13 : IVec S_ 1) (main_v16 : IVec S3840 1) : IVec S_ 1 :=
  let main_c_5 : IVec S_ 1 := constantI S_ 1 1#1
  let main_v17 : IVec S_ 1 := (fun x v => Host.reduce IntOp.andi x v reducesTo_S3840_S_d0 h_S_) main_v16 main_c_5
  let main_v18 : IVec S_ 1 := andi main_v13 main_v17
  let main_v19 : FVec F S1280x1280 .f32 := Host.absf main_arg4
  let main_cst_6 : FVec F S_ .f32 := constant S_ .f32 0x7F800000#32
  let main_v20 : FVec F S1280x1280 .f32 := broadcastInDim S1280x1280 ![] bcast_S_S1280x1280 main_cst_6
  let main_v21 : IVec S1280x1280 1 := cmpf .olt main_v19 main_v20
  let main_c_7 : IVec S_ 1 := constantI S_ 1 1#1
  let main_v22 : IVec S_ 1 := (fun x v => Host.reduce IntOp.andi x v reducesTo_S1280x1280_S_d0_1 h_S_) main_v21 main_c_7
  let main_v23 : IVec S_ 1 := andi main_v18 main_v22
  let main_v24 : FVec F S1280 .f32 := Host.absf main_arg5
  let main_cst_8 : FVec F S_ .f32 := constant S_ .f32 0x7F800000#32
  let main_v25 : FVec F S1280 .f32 := broadcastInDim S1280 ![] bcast_S_S1280 main_cst_8
  let main_v26 : IVec S1280 1 := cmpf .olt main_v24 main_v25
  let main_c_9 : IVec S_ 1 := constantI S_ 1 1#1
  let main_v27 : IVec S_ 1 := (fun x v => Host.reduce IntOp.andi x v reducesTo_S1280_S_d0 h_S_) main_v26 main_c_9
  let main_v28 : IVec S_ 1 := andi main_v23 main_v27
  main_v28

def fn {F : FTy → Type} [FloatOps F] (main_arg0 : FVec F S2048x4x1280 .f32) (main_arg1 : FVec F S2048x40 .f32) (main_arg2 : FVec F S3840x1280 .f32) (main_arg3 : FVec F S3840 .f32) (main_arg4 : FVec F S1280x1280 .f32) (main_arg5 : FVec F S1280 .f32) : IVec S_ 1 :=
  let main_v0 : FVec F S2048x4x1280 .f32 := Host.absf main_arg0
  let main_cst : FVec F S_ .f32 := constant S_ .f32 0x7F800000#32
  let main_v1 : FVec F S2048x4x1280 .f32 := broadcastInDim S2048x4x1280 ![] bcast_S_S2048x4x1280 main_cst
  let main_v2 : IVec S2048x4x1280 1 := cmpf .olt main_v0 main_v1
  let main_c : IVec S_ 1 := constantI S_ 1 1#1
  let main_v3 : IVec S_ 1 := (fun x v => Host.reduce IntOp.andi x v reducesTo_S2048x4x1280_S_d0_1_2 h_S_) main_v2 main_c
  let main_v4 : FVec F S2048x40 .f32 := Host.absf main_arg1
  let main_cst_0 : FVec F S_ .f32 := constant S_ .f32 0x7F800000#32
  let main_v5 : FVec F S2048x40 .f32 := broadcastInDim S2048x40 ![] bcast_S_S2048x40 main_cst_0
  let main_v6 : IVec S2048x40 1 := cmpf .olt main_v4 main_v5
  let main_c_1 : IVec S_ 1 := constantI S_ 1 1#1
  let main_v7 : IVec S_ 1 := (fun x v => Host.reduce IntOp.andi x v reducesTo_S2048x40_S_d0_1 h_S_) main_v6 main_c_1
  let main_v8 : IVec S_ 1 := andi main_v3 main_v7
  let main_v9 : FVec F S3840x1280 .f32 := Host.absf main_arg2
  let main_cst_2 : FVec F S_ .f32 := constant S_ .f32 0x7F800000#32
  let main_v10 : FVec F S3840x1280 .f32 := broadcastInDim S3840x1280 ![] bcast_S_S3840x1280 main_cst_2
  let main_v11 : IVec S3840x1280 1 := cmpf .olt main_v9 main_v10
  let main_c_3 : IVec S_ 1 := constantI S_ 1 1#1
  let main_v12 : IVec S_ 1 := (fun x v => Host.reduce IntOp.andi x v reducesTo_S3840x1280_S_d0_1 h_S_) main_v11 main_c_3
  let main_v13 : IVec S_ 1 := andi main_v8 main_v12
  let main_v14 : FVec F S3840 .f32 := Host.absf main_arg3
  let main_cst_4 : FVec F S_ .f32 := constant S_ .f32 0x7F800000#32
  let main_v15 : FVec F S3840 .f32 := broadcastInDim S3840 ![] bcast_S_S3840 main_cst_4
  let main_v16 : IVec S3840 1 := cmpf .olt main_v14 main_v15
  fn_part1 (F := F) main_arg4 main_arg5 main_v13 main_v16
-- ==== Kernel.lean ====
abbrev S2048x4x1280 : Shape := ⟨3, ![2048, 4, 1280]⟩
abbrev S2048x40 : Shape := ⟨2, ![2048, 40]⟩
abbrev S3840x1280 : Shape := ⟨2, ![3840, 1280]⟩
abbrev S3840 : Shape := ⟨1, ![3840]⟩
abbrev S1280x1280 : Shape := ⟨2, ![1280, 1280]⟩
abbrev S1280 : Shape := ⟨1, ![1280]⟩
abbrev S8192x1280 : Shape := ⟨2, ![8192, 1280]⟩
abbrev S1280x3840 : Shape := ⟨2, ![1280, 3840]⟩
abbrev S1x3840 : Shape := ⟨2, ![1, 3840]⟩
abbrev S8192x3840 : Shape := ⟨2, ![8192, 3840]⟩
abbrev S512x1280 : Shape := ⟨2, ![512, 1280]⟩
abbrev S512x3840 : Shape := ⟨2, ![512, 3840]⟩
abbrev S2048x4x16x80 : Shape := ⟨4, ![2048, 4, 16, 80]⟩
abbrev S4x16x2048x80 : Shape := ⟨4, ![4, 16, 2048, 80]⟩
abbrev S64x2048x80 : Shape := ⟨3, ![64, 2048, 80]⟩
abbrev S2048x80 : Shape := ⟨2, ![2048, 80]⟩
abbrev S2x256x80 : Shape := ⟨3, ![2, 256, 80]⟩
abbrev S2x2048x80 : Shape := ⟨3, ![2, 2048, 80]⟩
abbrev S256x80 : Shape := ⟨2, ![256, 80]⟩
abbrev S1x2048x80 : Shape := ⟨3, ![1, 2048, 80]⟩
abbrev S1x256x80 : Shape := ⟨3, ![1, 256, 80]⟩
abbrev S2x256x2048 : Shape := ⟨3, ![2, 256, 2048]⟩
abbrev S2x256 : Shape := ⟨2, ![2, 256]⟩
abbrev S2x256x1 : Shape := ⟨3, ![2, 256, 1]⟩
abbrev S1x1280 : Shape := ⟨2, ![1, 1280]⟩

abbrev nBuf : Space → Nat
  | .hbm => 37
  | .vmem => 27
  | .smem => 0
  | _ => 0

abbrev bufTy : (tb : Table) → Fin (tcTables nBuf tb) → BufTy
  | .hbm, ⟨0, _⟩ => ⟨S2048x4x1280, .f32⟩
  | .hbm, ⟨1, _⟩ => ⟨S2048x40, .f32⟩
  | .hbm, ⟨2, _⟩ => ⟨S3840x1280, .f32⟩
  | .hbm, ⟨3, _⟩ => ⟨S3840, .f32⟩
  | .hbm, ⟨4, _⟩ => ⟨S1280x1280, .f32⟩
  | .hbm, ⟨5, _⟩ => ⟨S1280, .f32⟩
  | .hbm, ⟨6, _⟩ => ⟨S8192x1280, .f32⟩
  | .hbm, ⟨7, _⟩ => ⟨S1280x3840, .f32⟩
  | .hbm, ⟨8, _⟩ => ⟨S1280x3840, .bf16⟩
  | .hbm, ⟨9, _⟩ => ⟨S1x3840, .f32⟩
  | .hbm, ⟨10, _⟩ => ⟨S8192x3840, .bf16⟩
  | .hbm, ⟨11, _⟩ => ⟨S8192x1280, .bf16⟩
  | .hbm, ⟨12, _⟩ => ⟨S8192x1280, .bf16⟩
  | .hbm, ⟨13, _⟩ => ⟨S8192x1280, .bf16⟩
  | .hbm, ⟨14, _⟩ => ⟨S2048x4x16x80, .bf16⟩
  | .hbm, ⟨15, _⟩ => ⟨S4x16x2048x80, .bf16⟩
  | .hbm, ⟨16, _⟩ => ⟨S64x2048x80, .bf16⟩
  | .hbm, ⟨17, _⟩ => ⟨S2048x4x16x80, .bf16⟩
  | .hbm, ⟨18, _⟩ => ⟨S4x16x2048x80, .bf16⟩
  | .hbm, ⟨19, _⟩ => ⟨S64x2048x80, .bf16⟩
  | .hbm, ⟨20, _⟩ => ⟨S2048x4x16x80, .bf16⟩
  | .hbm, ⟨21, _⟩ => ⟨S4x16x2048x80, .bf16⟩
  | .hbm, ⟨22, _⟩ => ⟨S64x2048x80, .bf16⟩
  | .hbm, ⟨23, _⟩ => ⟨S2048x40, .f32⟩
  | .hbm, ⟨24, _⟩ => ⟨S2048x40, .f32⟩
  | .hbm, ⟨25, _⟩ => ⟨S2048x80, .f32⟩
  | .hbm, ⟨26, _⟩ => ⟨S2048x40, .f32⟩
  | .hbm, ⟨27, _⟩ => ⟨S2048x80, .f32⟩
  | .hbm, ⟨28, _⟩ => ⟨S64x2048x80, .bf16⟩
  | .hbm, ⟨29, _⟩ => ⟨S4x16x2048x80, .bf16⟩
  | .hbm, ⟨30, _⟩ => ⟨S2048x4x16x80, .bf16⟩
  | .hbm, ⟨31, _⟩ => ⟨S8192x1280, .bf16⟩
  | .hbm, ⟨32, _⟩ => ⟨S1280x1280, .f32⟩
  | .hbm, ⟨33, _⟩ => ⟨S1280x1280, .bf16⟩
  | .hbm, ⟨34, _⟩ => ⟨S1x1280, .f32⟩
  | .hbm, ⟨35, _⟩ => ⟨S8192x1280, .f32⟩
  | .hbm, ⟨36, _⟩ => ⟨S2048x4x1280, .f32⟩
  | .local _ .vmem, ⟨0, _⟩ => ⟨S512x1280, .f32⟩
  | .local _ .vmem, ⟨1, _⟩ => ⟨S512x1280, .f32⟩
  | .local _ .vmem, ⟨2, _⟩ => ⟨S1280x3840, .bf16⟩
  | .local _ .vmem, ⟨3, _⟩ => ⟨S1x3840, .f32⟩
  | .local _ .vmem, ⟨4, _⟩ => ⟨S512x3840, .bf16⟩
  | .local _ .vmem, ⟨5, _⟩ => ⟨S512x3840, .bf16⟩
  | .local _ .vmem, ⟨6, _⟩ => ⟨S2x256x80, .bf16⟩
  | .local _ .vmem, ⟨7, _⟩ => ⟨S2x256x80, .bf16⟩
  | .local _ .vmem, ⟨8, _⟩ => ⟨S2x2048x80, .bf16⟩
  | .local _ .vmem, ⟨9, _⟩ => ⟨S2x2048x80, .bf16⟩
  | .local _ .vmem, ⟨10, _⟩ => ⟨S2x2048x80, .bf16⟩
  | .local _ .vmem, ⟨11, _⟩ => ⟨S2x2048x80, .bf16⟩
  | .local _ .vmem, ⟨12, _⟩ => ⟨S256x80, .f32⟩
  | .local _ .vmem, ⟨13, _⟩ => ⟨S256x80, .f32⟩
  | .local _ .vmem, ⟨14, _⟩ => ⟨S256x80, .f32⟩
  | .local _ .vmem, ⟨15, _⟩ => ⟨S256x80, .f32⟩
  | .local _ .vmem, ⟨16, _⟩ => ⟨S2048x80, .f32⟩
  | .local _ .vmem, ⟨17, _⟩ => ⟨S2048x80, .f32⟩
  | .local _ .vmem, ⟨18, _⟩ => ⟨S2x256x80, .bf16⟩
  | .local _ .vmem, ⟨19, _⟩ => ⟨S2x256x80, .bf16⟩
  | .local _ .vmem, ⟨20, _⟩ => ⟨S2x2048x80, .bf16⟩
  | .local _ .vmem, ⟨21, _⟩ => ⟨S512x1280, .bf16⟩
  | .local _ .vmem, ⟨22, _⟩ => ⟨S512x1280, .bf16⟩
  | .local _ .vmem, ⟨23, _⟩ => ⟨S1280x1280, .bf16⟩
  | .local _ .vmem, ⟨24, _⟩ => ⟨S1x1280, .f32⟩
  | .local _ .vmem, ⟨25, _⟩ => ⟨S512x1280, .f32⟩
  | .local _ .vmem, ⟨26, _⟩ => ⟨S512x1280, .f32⟩
  | _, _ => ⟨S2048x4x1280, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg7_1 : Ref sig .tc := ⟨.vmem, 19, rfl⟩
abbrev cc1_scratch0 : Ref sig .tc := ⟨.vmem, 20, rfl⟩
abbrev cc2_stg0_0 : Ref sig .tc := ⟨.vmem, 21, rfl⟩
abbrev cc2_stg0_1 : Ref sig .tc := ⟨.vmem, 22, rfl⟩
abbrev cc2_stg1_0 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg3_1 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15
abbrev cc1_sem5_0 : DmaSem sig := 16
abbrev cc1_sem6_0 : DmaSem sig := 17
abbrev cc1_sem7_0 : DmaSem sig := 18
abbrev cc1_sem7_1 : DmaSem sig := 19
abbrev cc2_sem0_0 : DmaSem sig := 20
abbrev cc2_sem0_1 : DmaSem sig := 21
abbrev cc2_sem1_0 : DmaSem sig := 22
abbrev cc2_sem2_0 : DmaSem sig := 23
abbrev cc2_sem3_0 : DmaSem sig := 24
abbrev cc2_sem3_1 : DmaSem sig := 25

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1280 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1280x3840 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x3840 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x3840 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![32, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S2x256x80 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S2x2048x80 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S2x2048x80 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S256x80 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S256x80 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![false, true]

abbrev stage1_5 : Fin 1 → Memref sig .tc .vmem S2048x80 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S2048x80 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 2 → Memref sig .tc .vmem S2x256x80 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x1280 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1280x1280 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x1280 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S512x1280 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  shapeCasts_S2048x4x1280_S8192x1280 : S2048x4x1280.ShapeCasts S8192x1280
  transposes_S3840x1280_S1280x3840_1_0 : S3840x1280.Transposes [1, 0] S1280x3840
  bitsLt_bf16_f32 : FTy.bits .bf16 < FTy.bits .f32
  shapeCasts_S3840_S1x3840 : S3840.ShapeCasts S1x3840
  inb_S512x1280_S512x1280_0_0 : ∀ a, (![0, 0] : Fin 2 → Nat) a + S512x1280.size a ≤ S512x1280.size a
  h_S512x1280 : 0 < S512x1280.numel
  shapeCasts_S512x1280_S512x1280 : S512x1280.ShapeCasts S512x1280
  inb_S1280x3840_S1280x3840_0_0 : ∀ a, (![0, 0] : Fin 2 → Nat) a + S1280x3840.size a ≤ S1280x3840.size a
  h_S1280x3840 : 0 < S1280x3840.numel
  shapeCasts_S1280x3840_S1280x3840 : S1280x3840.ShapeCasts S1280x3840
  inb_S1x3840_S1x3840_0_0 : ∀ a, (![0, 0] : Fin 2 → Nat) a + S1x3840.size a ≤ S1x3840.size a
  h_S1x3840 : 0 < S1x3840.numel
  shapeCasts_S1x3840_S1x3840 : S1x3840.ShapeCasts S1x3840
  broadcasts_S1x3840_S512x3840 : S1x3840.Broadcasts S512x3840
  inb_S512x3840_S512x3840_0_0 : ∀ a, (![0, 0] : Fin 2 → Nat) a + S512x3840.size a ≤ S512x3840.size a
  h_S512x3840 : 0 < S512x3840.numel
  packedbf16_S512x3840_S512x3840_0_0 : (Rect.unit (s := S512x3840) ![0, 0] S512x3840.size inb_S512x3840_S512x3840_0_0).PackedRows (EltTy.packing .bf16)
  slices_S8192x3840_S8192x1280_0_0 : S8192x3840.Slices ![0, 0] S8192x1280
  slices_S8192x3840_S8192x1280_0_1280 : S8192x3840.Slices ![0, 1280] S8192x1280
  slices_S8192x3840_S8192x1280_0_2560 : S8192x3840.Slices ![0, 2560] S8192x1280
  shapeCasts_S8192x1280_S2048x4x16x80 : S8192x1280.ShapeCasts S2048x4x16x80
  transposes_S2048x4x16x80_S4x16x2048x80_1_2_0_3 : S2048x4x16x80.Transposes [1, 2, 0, 3] S4x16x2048x80
  shapeCasts_S4x16x2048x80_S64x2048x80 : S4x16x2048x80.ShapeCasts S64x2048x80
  concatenates_S2048x40_S2048x40_S2048x80_d1 : Shape.Concatenates [S2048x40, S2048x40] S2048x80 1
  inb_S2x2048x80_S2x2048x80_0_0_0 : ∀ a, (![0, 0, 0] : Fin 3 → Nat) a + S2x2048x80.size a ≤ S2x2048x80.size a
  h_S2x2048x80 : 0 < S2x2048x80.numel
  shapeCasts_S2x2048x80_S2x2048x80 : S2x2048x80.ShapeCasts S2x2048x80
  inb_S2048x80_S2048x80_0_0 : ∀ a, (![0, 0] : Fin 2 → Nat) a + S2048x80.size a ≤ S2048x80.size a
  h_S2048x80 : 0 < S2048x80.numel
  shapeCasts_S2048x80_S2048x80 : S2048x80.ShapeCasts S2048x80
  shapeCasts_S2048x80_S1x2048x80 : S2048x80.ShapeCasts S1x2048x80
  broadcasts_S1x2048x80_S2x2048x80 : S1x2048x80.Broadcasts S2x2048x80
  rotates_S2x2048x80_d2 : S2x2048x80.Rotates 2 none
  packedbf16_S2x2048x80_S2x2048x80_0_0_0 : (Rect.unit (s := S2x2048x80) ![0, 0, 0] S2x2048x80.size inb_S2x2048x80_S2x2048x80_0_0_0).PackedRows (EltTy.packing .bf16)
  inb_S2x256x80_S2x256x80_0_0_0 : ∀ a, (![0, 0, 0] : Fin 3 → Nat) a + S2x256x80.size a ≤ S2x256x80.size a
  h_S2x256x80 : 0 < S2x256x80.numel
  shapeCasts_S2x256x80_S2x256x80 : S2x256x80.ShapeCasts S2x256x80
  inb_S256x80_S256x80_0_0 : ∀ a, (![0, 0] : Fin 2 → Nat) a + S256x80.size a ≤ S256x80.size a
  h_S256x80 : 0 < S256x80.numel
  shapeCasts_S256x80_S256x80 : S256x80.ShapeCasts S256x80
  shapeCasts_S256x80_S1x256x80 : S256x80.ShapeCasts S1x256x80
  broadcasts_S1x256x80_S2x256x80 : S1x256x80.Broadcasts S2x256x80
  rotates_S2x256x80_d2 : S2x256x80.Rotates 2 none
  reduces_S2x256x2048_S2x256 : S2x256x2048.Reduces [2] S2x256
  shapeCasts_S2x256_S2x256x1 : S2x256.ShapeCasts S2x256x1
  broadcasts_S2x256x1_S2x256x2048 : S2x256x1.Broadcasts S2x256x2048
  packedbf16_S2x256x80_S2x256x80_0_0_0 : (Rect.unit (s := S2x256x80) ![0, 0, 0] S2x256x80.size inb_S2x256x80_S2x256x80_0_0_0).PackedRows (EltTy.packing .bf16)
  shapeCasts_S64x2048x80_S4x16x2048x80 : S64x2048x80.ShapeCasts S4x16x2048x80
  transposes_S4x16x2048x80_S2048x4x16x80_2_0_1_3 : S4x16x2048x80.Transposes [2, 0, 1, 3] S2048x4x16x80
  shapeCasts_S2048x4x16x80_S8192x1280 : S2048x4x16x80.ShapeCasts S8192x1280
  transposes_S1280x1280_S1280x1280_1_0 : S1280x1280.Transposes [1, 0] S1280x1280
  shapeCasts_S1280_S1x1280 : S1280.ShapeCasts S1x1280
  inb_S1280x1280_S1280x1280_0_0 : ∀ a, (![0, 0] : Fin 2 → Nat) a + S1280x1280.size a ≤ S1280x1280.size a
  h_S1280x1280 : 0 < S1280x1280.numel
  shapeCasts_S1280x1280_S1280x1280 : S1280x1280.ShapeCasts S1280x1280
  inb_S1x1280_S1x1280_0_0 : ∀ a, (![0, 0] : Fin 2 → Nat) a + S1x1280.size a ≤ S1x1280.size a
  h_S1x1280 : 0 < S1x1280.numel
  shapeCasts_S1x1280_S1x1280 : S1x1280.ShapeCasts S1x1280
  broadcasts_S1x1280_S512x1280 : S1x1280.Broadcasts S512x1280
  shapeCasts_S8192x1280_S2048x4x1280 : S8192x1280.ShapeCasts S2048x4x1280
  dot_S512x1280_S1280x3840_S512x3840_1_0_0_1_n_n_wf : DotDims.WF S512x1280 S1280x3840 S512x3840 [1] [0] [0] [1] [] []
  dot_S2x256x80_S2x2048x80_S2x256x2048_2_2_1_1_0_0_wf : DotDims.WF S2x256x80 S2x2048x80 S2x256x2048 [2] [2] [1] [1] [0] [0]
  dot_S2x256x2048_S2x2048x80_S2x256x80_2_1_1_2_0_0_wf : DotDims.WF S2x256x2048 S2x2048x80 S2x256x80 [2] [1] [1] [2] [0] [0]
  dot_S512x1280_S1280x1280_S512x1280_1_0_0_1_n_n_wf : DotDims.WF S512x1280 S1280x1280 S512x1280 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1280.size a ≤ S8192x1280.size a
  hwx0_0 : ∀ i : grid0.Coords, EltTy.bits .f32 = 32 ∨ (Rect.block (s := S8192x1280) S512x1280.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1280x3840.size a ≤ S1280x3840.size a
  hwx0_1 : ∀ i : grid0.Coords, EltTy.bits .bf16 = 32 ∨ (Rect.block (s := S1280x3840) S1280x3840.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x3840.size a ≤ S1x3840.size a
  hwx0_2 : ∀ i : grid0.Coords, EltTy.bits .f32 = 32 ∨ (Rect.block (s := S1x3840) S1x3840.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x3840.size a ≤ S8192x3840.size a
  hwx0_3 : ∀ i : grid0.Coords, EltTy.bits .bf16 = 32 ∨ (Rect.block (s := S8192x3840) S512x3840.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2x256x80.size a ≤ S64x2048x80.size a
  hwx1_0 : ∀ i : grid1.Coords, EltTy.bits .bf16 = 32 ∨ (Rect.block (s := S64x2048x80) S2x256x80.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2x2048x80.size a ≤ S64x2048x80.size a
  hwx1_1 : ∀ i : grid1.Coords, EltTy.bits .bf16 = 32 ∨ (Rect.block (s := S64x2048x80) S2x2048x80.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2x2048x80.size a ≤ S64x2048x80.size a
  hwx1_2 : ∀ i : grid1.Coords, EltTy.bits .bf16 = 32 ∨ (Rect.block (s := S64x2048x80) S2x2048x80.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S256x80.size a ≤ S2048x80.size a
  hwx1_3 : ∀ i : grid1.Coords, EltTy.bits .f32 = 32 ∨ (Rect.block (s := S2048x80) S256x80.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S256x80.size a ≤ S2048x80.size a
  hwx1_4 : ∀ i : grid1.Coords, EltTy.bits .f32 = 32 ∨ (Rect.block (s := S2048x80) S256x80.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S2048x80.size a ≤ S2048x80.size a
  hwx1_5 : ∀ i : grid1.Coords, EltTy.bits .f32 = 32 ∨ (Rect.block (s := S2048x80) S2048x80.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S2048x80.size a ≤ S2048x80.size a
  hwx1_6 : ∀ i : grid1.Coords, EltTy.bits .f32 = 32 ∨ (Rect.block (s := S2048x80) S2048x80.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S2x256x80.size a ≤ S64x2048x80.size a
  hwx1_7 : ∀ i : grid1.Coords, EltTy.bits .bf16 = 32 ∨ (Rect.block (s := S64x2048x80) S2x256x80.size (cc1_transform_7 i) (hinb1_7 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x1280.size a ≤ S8192x1280.size a
  hwx2_0 : ∀ i : grid2.Coords, EltTy.bits .bf16 = 32 ∨ (Rect.block (s := S8192x1280) S512x1280.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1280x1280.size a ≤ S1280x1280.size a
  hwx2_1 : ∀ i : grid2.Coords, EltTy.bits .bf16 = 32 ∨ (Rect.block (s := S1280x1280) S1280x1280.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1280.size a ≤ S1x1280.size a
  hwx2_2 : ∀ i : grid2.Coords, EltTy.bits .f32 = 32 ∨ (Rect.block (s := S1x1280) S1x1280.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S512x1280.size a ≤ S8192x1280.size a
  hwx2_3 : ∀ i : grid2.Coords, EltTy.bits .f32 = 32 ∨ (Rect.block (s := S8192x1280) S512x1280.size (cc2_transform_3 i) (hinb2_3 i)).WholeWords (EltTy.packing .f32)

variable [Facts₀]

def dot_S512x1280_S1280x3840_S512x3840_1_0_0_1_n_n : DotDims S512x1280 S1280x3840 S512x3840 where
  lhsContracting := [1]
  rhsContracting := [0]
  lhsNonContracting := [0]
  rhsNonContracting := [1]
  lhsBatch := []
  rhsBatch := []
  wf := dot_S512x1280_S1280x3840_S512x3840_1_0_0_1_n_n_wf
def dot_S2x256x80_S2x2048x80_S2x256x2048_2_2_1_1_0_0 : DotDims S2x256x80 S2x2048x80 S2x256x2048 where
  lhsContracting := [2]
  rhsContracting := [2]
  lhsNonContracting := [1]
  rhsNonContracting := [1]
  lhsBatch := [0]
  rhsBatch := [0]
  wf := dot_S2x256x80_S2x2048x80_S2x256x2048_2_2_1_1_0_0_wf
def dot_S2x256x2048_S2x2048x80_S2x256x80_2_1_1_2_0_0 : DotDims S2x256x2048 S2x2048x80 S2x256x80 where
  lhsContracting := [2]
  rhsContracting := [1]
  lhsNonContracting := [1]
  rhsNonContracting := [2]
  lhsBatch := [0]
  rhsBatch := [0]
  wf := dot_S2x256x2048_S2x2048x80_S2x256x80_2_1_1_2_0_0_wf
def dot_S512x1280_S1280x1280_S512x1280_1_0_0_1_n_n : DotDims S512x1280 S1280x1280 S512x1280 where
  lhsContracting := [1]
  rhsContracting := [0]
  lhsNonContracting := [0]
  rhsNonContracting := [1]
  lhsBatch := []
  rhsBatch := []
  wf := dot_S512x1280_S1280x1280_S512x1280_1_0_0_1_n_n_wf

abbrev win0_0 : Pipeline.Window sig grid0 :=
  Pipeline.Window.ofSpec (Memref.whole main_v0) S512x1280.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1280x3840.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x3840.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S512x3840.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v10) S2x256x80.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v13) S2x2048x80.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v16) S2x2048x80.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v19) S256x80.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v21) S256x80.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v19) S2048x80.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v21) S2048x80.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v22) S2x256x80.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v25) S512x1280.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v27) S1280x1280.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v28) S1x1280.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v29) S512x1280.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S2048x4x1280 : Shape := ⟨3, ![2048, 4, 1280]⟩
abbrev S2048x40 : Shape := ⟨2, ![2048, 40]⟩
abbrev S3840x1280 : Shape := ⟨2, ![3840, 1280]⟩
abbrev S3840 : Shape := ⟨1, ![3840]⟩
abbrev S1280x1280 : Shape := ⟨2, ![1280, 1280]⟩
abbrev S1280 : Shape := ⟨1, ![1280]⟩
abbrev S2048x4x3840 : Shape := ⟨3, ![2048, 4, 3840]⟩
abbrev S1x1x3840 : Shape := ⟨3, ![1, 1, 3840]⟩
abbrev S2048x4x3x16x80 : Shape := ⟨5, ![2048, 4, 3, 16, 80]⟩
abbrev S3x4x2048x16x80 : Shape := ⟨5, ![3, 4, 2048, 16, 80]⟩
abbrev S1x4x2048x16x80 : Shape := ⟨5, ![1, 4, 2048, 16, 80]⟩
abbrev S4x2048x16x80 : Shape := ⟨4, ![4, 2048, 16, 80]⟩
abbrev S1x2048x1x40 : Shape := ⟨4, ![1, 2048, 1, 40]⟩
abbrev S1x2048x2x40 : Shape := ⟨4, ![1, 2048, 2, 40]⟩
abbrev S2048x80 : Shape := ⟨2, ![2048, 80]⟩
abbrev S1x2048x1x80 : Shape := ⟨4, ![1, 2048, 1, 80]⟩
abbrev S4x2048x16x40 : Shape := ⟨4, ![4, 2048, 16, 40]⟩
abbrev S4x16x2048x80 : Shape := ⟨4, ![4, 16, 2048, 80]⟩
abbrev S4x16x2048x2048 : Shape := ⟨4, ![4, 16, 2048, 2048]⟩
abbrev S_ : Shape := ⟨0, ![]⟩
abbrev S4x16x2048 : Shape := ⟨3, ![4, 16, 2048]⟩
abbrev S4x16x2048x1 : Shape := ⟨4, ![4, 16, 2048, 1]⟩
abbrev S2048x4x16x80 : Shape := ⟨4, ![2048, 4, 16, 80]⟩
abbrev S1x1x1280 : Shape := ⟨3, ![1, 1, 1280]⟩

abbrev nBuf : Space → Nat
  | .hbm => 74
  | .vmem => 0
  | .smem => 0
  | _ => 0

abbrev bufTy : (tb : Table) → Fin (tcTables nBuf tb) → BufTy
  | .hbm, ⟨0, _⟩ => ⟨S2048x4x1280, .f32⟩
  | .hbm, ⟨1, _⟩ => ⟨S2048x40, .f32⟩
  | .hbm, ⟨2, _⟩ => ⟨S3840x1280, .f32⟩
  | .hbm, ⟨3, _⟩ => ⟨S3840, .f32⟩
  | .hbm, ⟨4, _⟩ => ⟨S1280x1280, .f32⟩
  | .hbm, ⟨5, _⟩ => ⟨S1280, .f32⟩
  | .hbm, ⟨6, _⟩ => ⟨S2048x4x3840, .f32⟩
  | .hbm, ⟨7, _⟩ => ⟨S1x1x3840, .f32⟩
  | .hbm, ⟨8, _⟩ => ⟨S2048x4x3840, .f32⟩
  | .hbm, ⟨9, _⟩ => ⟨S2048x4x3840, .f32⟩
  | .hbm, ⟨10, _⟩ => ⟨S2048x4x3x16x80, .f32⟩
  | .hbm, ⟨11, _⟩ => ⟨S3x4x2048x16x80, .f32⟩
  | .hbm, ⟨12, _⟩ => ⟨S1x4x2048x16x80, .f32⟩
  | .hbm, ⟨13, _⟩ => ⟨S4x2048x16x80, .f32⟩
  | .hbm, ⟨14, _⟩ => ⟨S1x4x2048x16x80, .f32⟩
  | .hbm, ⟨15, _⟩ => ⟨S4x2048x16x80, .f32⟩
  | .hbm, ⟨16, _⟩ => ⟨S1x4x2048x16x80, .f32⟩
  | .hbm, ⟨17, _⟩ => ⟨S4x2048x16x80, .f32⟩
  | .hbm, ⟨18, _⟩ => ⟨S2048x40, .f32⟩
  | .hbm, ⟨19, _⟩ => ⟨S1x2048x1x40, .f32⟩
  | .hbm, ⟨20, _⟩ => ⟨S1x2048x2x40, .f32⟩
  | .hbm, ⟨21, _⟩ => ⟨S2048x80, .f32⟩
  | .hbm, ⟨22, _⟩ => ⟨S1x2048x1x80, .f32⟩
  | .hbm, ⟨23, _⟩ => ⟨S2048x40, .f32⟩
  | .hbm, ⟨24, _⟩ => ⟨S1x2048x1x40, .f32⟩
  | .hbm, ⟨25, _⟩ => ⟨S1x2048x2x40, .f32⟩
  | .hbm, ⟨26, _⟩ => ⟨S2048x80, .f32⟩
  | .hbm, ⟨27, _⟩ => ⟨S1x2048x1x80, .f32⟩
  | .hbm, ⟨28, _⟩ => ⟨S4x2048x16x80, .f32⟩
  | .hbm, ⟨29, _⟩ => ⟨S4x2048x16x80, .f32⟩
  | .hbm, ⟨30, _⟩ => ⟨S4x2048x16x40, .f32⟩
  | .hbm, ⟨31, _⟩ => ⟨S4x2048x16x40, .f32⟩
  | .hbm, ⟨32, _⟩ => ⟨S4x2048x16x40, .f32⟩
  | .hbm, ⟨33, _⟩ => ⟨S4x2048x16x80, .f32⟩
  | .hbm, ⟨34, _⟩ => ⟨S4x2048x16x80, .f32⟩
  | .hbm, ⟨35, _⟩ => ⟨S4x2048x16x80, .f32⟩
  | .hbm, ⟨36, _⟩ => ⟨S4x2048x16x80, .f32⟩
  | .hbm, ⟨37, _⟩ => ⟨S4x2048x16x80, .f32⟩
  | .hbm, ⟨38, _⟩ => ⟨S4x2048x16x80, .f32⟩
  | .hbm, ⟨39, _⟩ => ⟨S4x2048x16x40, .f32⟩
  | .hbm, ⟨40, _⟩ => ⟨S4x2048x16x40, .f32⟩
  | .hbm, ⟨41, _⟩ => ⟨S4x2048x16x40, .f32⟩
  | .hbm, ⟨42, _⟩ => ⟨S4x2048x16x80, .f32⟩
  | .hbm, ⟨43, _⟩ => ⟨S4x2048x16x80, .f32⟩
  | .hbm, ⟨44, _⟩ => ⟨S4x2048x16x80, .f32⟩
  | .hbm, ⟨45, _⟩ => ⟨S4x2048x16x80, .f32⟩
  | .hbm, ⟨46, _⟩ => ⟨S4x16x2048x80, .f32⟩
  | .hbm, ⟨47, _⟩ => ⟨S4x16x2048x80, .f32⟩
  | .hbm, ⟨48, _⟩ => ⟨S4x16x2048x80, .f32⟩
  | .hbm, ⟨49, _⟩ => ⟨S4x16x2048x2048, .f32⟩
  | .hbm, ⟨50, _⟩ => ⟨S_, .f32⟩
  | .hbm, ⟨51, _⟩ => ⟨S4x16x2048x2048, .f32⟩
  | .hbm, ⟨52, _⟩ => ⟨S4x16x2048x2048, .f32⟩
  | .hbm, ⟨53, _⟩ => ⟨S_, .f32⟩
  | .hbm, ⟨54, _⟩ => ⟨S4x16x2048, .f32⟩
  | .hbm, ⟨55, _⟩ => ⟨S_, .f32⟩
  | .hbm, ⟨56, _⟩ => ⟨S4x16x2048, .f32⟩
  | .hbm, ⟨57, _⟩ => ⟨S4x16x2048, .f32⟩
  | .hbm, ⟨58, _⟩ => ⟨S4x16x2048x1, .f32⟩
  | .hbm, ⟨59, _⟩ => ⟨S4x16x2048x2048, .f32⟩
  | .hbm, ⟨60, _⟩ => ⟨S4x16x2048x2048, .f32⟩
  | .hbm, ⟨61, _⟩ => ⟨S4x16x2048x2048, .f32⟩
  | .hbm, ⟨62, _⟩ => ⟨S_, .f32⟩
  | .hbm, ⟨63, _⟩ => ⟨S4x16x2048, .f32⟩
  | .hbm, ⟨64, _⟩ => ⟨S4x16x2048x1, .f32⟩
  | .hbm, ⟨65, _⟩ => ⟨S4x16x2048x2048, .f32⟩
  | .hbm, ⟨66, _⟩ => ⟨S4x16x2048x2048, .f32⟩
  | .hbm, ⟨67, _⟩ => ⟨S4x16x2048x80, .f32⟩
  | .hbm, ⟨68, _⟩ => ⟨S2048x4x16x80, .f32⟩
  | .hbm, ⟨69, _⟩ => ⟨S2048x4x1280, .f32⟩
  | .hbm, ⟨70, _⟩ => ⟨S2048x4x1280, .f32⟩
  | .hbm, ⟨71, _⟩ => ⟨S1x1x1280, .f32⟩
  | .hbm, ⟨72, _⟩ => ⟨S2048x4x1280, .f32⟩
  | .hbm, ⟨73, _⟩ => ⟨S2048x4x1280, .f32⟩
  | _, _ => ⟨S2048x4x1280, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_cst : Ref sig .tc := ⟨.hbm, 50, rfl⟩
abbrev main_v44 : Ref sig .tc := ⟨.hbm, 51, rfl⟩
abbrev main_v45 : Ref sig .tc := ⟨.hbm, 52, rfl⟩
abbrev main_cst_0 : Ref sig .tc := ⟨.hbm, 53, rfl⟩
abbrev main_v46 : Ref sig .tc := ⟨.hbm, 54, rfl⟩
abbrev main_cst_1 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_cst_2 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩

abbrev nD : Nat := 1
abbrev τ : Topo := Topo.v7x

variable {F : FTy → Type} [FloatOps F]

class Facts₀ : Prop where
  bcast_S3840_S1x1x3840_2 : S3840.BroadcastsInDim S1x1x3840 (![2] : Fin 1 → Fin S1x1x3840.rank)
  bcast_S1x1x3840_S2048x4x3840_0_1_2 : S1x1x3840.BroadcastsInDim S2048x4x3840 (![0, 1, 2] : Fin 3 → Fin S2048x4x3840.rank)
  shapeCasts_S2048x4x3840_S2048x4x3x16x80 : S2048x4x3840.ShapeCasts S2048x4x3x16x80
  transposes_S2048x4x3x16x80_S3x4x2048x16x80_2_1_0_3_4 : S2048x4x3x16x80.Transposes [2, 1, 0, 3, 4] S3x4x2048x16x80
  slices_S3x4x2048x16x80_S1x4x2048x16x80_0_0_0_0_0 : S3x4x2048x16x80.Slices ![0, 0, 0, 0, 0] S1x4x2048x16x80
  shapeCasts_S1x4x2048x16x80_S4x2048x16x80 : S1x4x2048x16x80.ShapeCasts S4x2048x16x80
  slices_S3x4x2048x16x80_S1x4x2048x16x80_1_0_0_0_0 : S3x4x2048x16x80.Slices ![1, 0, 0, 0, 0] S1x4x2048x16x80
  slices_S3x4x2048x16x80_S1x4x2048x16x80_2_0_0_0_0 : S3x4x2048x16x80.Slices ![2, 0, 0, 0, 0] S1x4x2048x16x80
  shapeCasts_S2048x40_S1x2048x1x40 : S2048x40.ShapeCasts S1x2048x1x40
  bcast_S1x2048x1x40_S1x2048x2x40_0_1_2_3 : S1x2048x1x40.BroadcastsInDim S1x2048x2x40 (![0, 1, 2, 3] : Fin 4 → Fin S1x2048x2x40.rank)
  shapeCasts_S1x2048x2x40_S2048x80 : S1x2048x2x40.ShapeCasts S2048x80
  bcast_S2048x80_S1x2048x1x80_1_3 : S2048x80.BroadcastsInDim S1x2048x1x80 (![1, 3] : Fin 2 → Fin S1x2048x1x80.rank)
  bcast_S1x2048x1x80_S4x2048x16x80_0_1_2_3 : S1x2048x1x80.BroadcastsInDim S4x2048x16x80 (![0, 1, 2, 3] : Fin 4 → Fin S4x2048x16x80.rank)
  slices_S4x2048x16x80_S4x2048x16x40_0_0_0_40 : S4x2048x16x80.Slices ![0, 0, 0, 40] S4x2048x16x40
  slices_S4x2048x16x80_S4x2048x16x40_0_0_0_0 : S4x2048x16x80.Slices ![0, 0, 0, 0] S4x2048x16x40
  concatenates_S4x2048x16x40_S4x2048x16x40_S4x2048x16x80_d3 : Shape.Concatenates [S4x2048x16x40, S4x2048x16x40] S4x2048x16x80 3
  transposes_S4x2048x16x80_S4x16x2048x80_0_2_1_3 : S4x2048x16x80.Transposes [0, 2, 1, 3] S4x16x2048x80
  bcast_S_S4x16x2048x2048 : S_.BroadcastsInDim S4x16x2048x2048 (![] : Fin 0 → Fin S4x16x2048x2048.rank)
  reducesTo_S4x16x2048x2048_S4x16x2048_d3 : S4x16x2048x2048.ReducesTo [3] S4x16x2048
  h_S_ : 0 < S_.numel
  bcast_S_S4x16x2048 : S_.BroadcastsInDim S4x16x2048 (![] : Fin 0 → Fin S4x16x2048.rank)
  bcast_S4x16x2048_S4x16x2048x1_0_1_2 : S4x16x2048.BroadcastsInDim S4x16x2048x1 (![0, 1, 2] : Fin 3 → Fin S4x16x2048x1.rank)
  bcast_S4x16x2048x1_S4x16x2048x2048_0_1_2_3 : S4x16x2048x1.BroadcastsInDim S4x16x2048x2048 (![0, 1, 2, 3] : Fin 4 → Fin S4x16x2048x2048.rank)
  transposes_S4x16x2048x80_S2048x4x16x80_2_0_1_3 : S4x16x2048x80.Transposes [2, 0, 1, 3] S2048x4x16x80
  shapeCasts_S2048x4x16x80_S2048x4x1280 : S2048x4x16x80.ShapeCasts S2048x4x1280
  bcast_S1280_S1x1x1280_2 : S1280.BroadcastsInDim S1x1x1280 (![2] : Fin 1 → Fin S1x1x1280.rank)
  bcast_S1x1x1280_S2048x4x1280_0_1_2 : S1x1x1280.BroadcastsInDim S2048x4x1280 (![0, 1, 2] : Fin 3 → Fin S2048x4x1280.rank)
  dot_S2048x4x1280_S3840x1280_S2048x4x3840_2_1_01_0_n_n_wf : DotDims.WF S2048x4x1280 S3840x1280 S2048x4x3840 [2] [1] [0, 1] [0] [] []
  dot_S4x16x2048x80_S4x16x2048x80_S4x16x2048x2048_3_3_2_2_01_01_wf : DotDims.WF S4x16x2048x80 S4x16x2048x80 S4x16x2048x2048 [3] [3] [2] [2] [0, 1] [0, 1]
  dot_S4x16x2048x2048_S4x16x2048x80_S4x16x2048x80_3_2_2_3_01_01_wf : DotDims.WF S4x16x2048x2048 S4x16x2048x80 S4x16x2048x80 [3] [2] [2] [3] [0, 1] [0, 1]
  dot_S2048x4x1280_S1280x1280_S2048x4x1280_2_1_01_0_n_n_wf : DotDims.WF S2048x4x1280 S1280x1280 S2048x4x1280 [2] [1] [0, 1] [0] [] []

variable [Facts₀]

def dot_S2048x4x1280_S3840x1280_S2048x4x3840_2_1_01_0_n_n : DotDims S2048x4x1280 S3840x1280 S2048x4x3840 where
  lhsContracting := [2]
  rhsContracting := [1]
  lhsNonContracting := [0, 1]
  rhsNonContracting := [0]
  lhsBatch := []
  rhsBatch := []
  wf := dot_S2048x4x1280_S3840x1280_S2048x4x3840_2_1_01_0_n_n_wf
def dot_S4x16x2048x80_S4x16x2048x80_S4x16x2048x2048_3_3_2_2_01_01 : DotDims S4x16x2048x80 S4x16x2048x80 S4x16x2048x2048 where
  lhsContracting := [3]
  rhsContracting := [3]
  lhsNonContracting := [2]
  rhsNonContracting := [2]
  lhsBatch := [0, 1]
  rhsBatch := [0, 1]
  wf := dot_S4x16x2048x80_S4x16x2048x80_S4x16x2048x2048_3_3_2_2_01_01_wf
def dot_S4x16x2048x2048_S4x16x2048x80_S4x16x2048x80_3_2_2_3_01_01 : DotDims S4x16x2048x2048 S4x16x2048x80 S4x16x2048x80 where
  lhsContracting := [3]
  rhsContracting := [2]
  lhsNonContracting := [2]
  rhsNonContracting := [3]
  lhsBatch := [0, 1]
  rhsBatch := [0, 1]
  wf := dot_S4x16x2048x2048_S4x16x2048x80_S4x16x2048x80_3_2_2_3_01_01_wf
def dot_S2048x4x1280_S1280x1280_S2048x4x1280_2_1_01_0_n_n : DotDims S2048x4x1280 S1280x1280 S2048x4x1280 where
  lhsContracting := [2]
  rhsContracting := [1]
  lhsNonContracting := [0, 1]
  rhsNonContracting := [0]
  lhsBatch := []
  rhsBatch := []
  wf := dot_S2048x4x1280_S1280x1280_S2048x4x1280_2_1_01_0_n_n_wf

class Facts : Prop extends Facts₀ where

variable [Facts]
-- ==== Proof.K.Reg0.lean ====
/-
  The class-A half of pallas region 0 (the matmul-plus-bias kernel `cc0__matmul_bias_kernel`), at any float
  interpretation `F` and at a PARAMETER `V`: the TensorCore's buffer contents when the region is entered.

  The kernel body loads its three input windows' staging buffers whole (the row block of the left factor, the
  right factor, the bias row), loads its output window's staging buffer once (a value it never uses), and stores
  one payload over the whole output buffer. So what the body leaves in the output buffer is the canonical contents
  of that one covering store, a closed function of the three input blocks; and an input buffer holds its window's
  block at every point, fetched there or not (where a window is not fetched its block index has not moved).
  From these two facts: the pipeline's proof data and the body obligation at every grid point.
-/
import proofs.«402768_j2499670966342_3_alg».proof.Proof.Gen.Kernel.Launch
import proofs.«402768_j2499670966342_3_alg».proof.Proof.Gen.Kernel.Skeleton
import proofs.«402768_j2499670966342_3_alg».proof.Proof.Gen.Kernel.Points
import Idealize.ShloMosaic.Lib.Pipeline.FrameBody
import Idealize.ShloMosaic.Lib.Ring
import Idealize.ShloMosaic.Lib.Tactic

-- membership in a rectangle of long extents: the structural recursion goes once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0 (the left factor's row block, fetched at every point): its current staging buffer holds its
    block at every point, for ANY proof data whose array is `V`'s (`hA`) and whose body leaves the block in place
    (`hafter`); the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1 (the right factor, fetched at the first point only): the same. Where it is not fetched, its
    block index (constant over the grid) has not moved, and the buffer still holds the block. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2 (the bias row, fetched at the first point only): the same. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer through its whole rectangle -/

abbrev r0_0 : Rect S512x1280 := Rect.unit (s := S512x1280) ![0, 0] S512x1280.size inb_S512x1280_S512x1280_0_0
abbrev r0_1 : Rect S1280x3840 := Rect.unit (s := S1280x3840) ![0, 0] S1280x3840.size inb_S1280x3840_S1280x3840_0_0
abbrev r0_2 : Rect S1x3840 := Rect.unit (s := S1x3840) ![0, 0] S1x3840.size inb_S1x3840_S1x3840_0_0
abbrev r0_3 : Rect S512x3840 := Rect.unit (s := S512x3840) ![0, 0] S512x3840.size inb_S512x3840_S512x3840_0_0

/-! ## What the body leaves in the output window's buffer -/

/-- Window 3's staging buffer after the body, from the three input blocks: its one store as a piece, the payload
    the kernel's matmul-plus-bias of what the three loads read. The payload stays an opaque term here. -/
def out0_3 (x0 : Vec F S512x1280 .f32) (x1 : Vec F S1280x3840 .bf16) (x2 : Vec F S1x3840 .f32) : Vec F S512x3840 .bf16 :=
  View.canon [⟨r0_3, k0_pay1 (View.ld x0 r0_0) (View.ld x1 r0_1) (View.ld x2 r0_2)⟩]

/-- The one store's rectangle is the whole buffer, so it covers it. -/
theorem cover0_3 (p0 : Vec F S512x3840 .bf16) (y : S512x3840.Idx) :
    ∃ pc ∈ ([⟨r0_3, p0⟩] : List (View.Piece (Elt F) S512x3840 .bf16)), y ∈ pc.1.set :=
  View.cover_of_tiled [⟨r0_3, p0⟩] S512x3840.size (by rfl) y

/-! ## The body's triple -/

set_option maxHeartbeats 1000000 in
/-- The kernel body on whole staging memrefs, the inputs' at read contents `x0 x1 x2` and the output's at anything,
    runs to the continuation holding the inputs' as they were and the output's at `out0_3` of the inputs': the three
    loads read the inputs whole, the load of the output buffer reads whatever is there and its value is dropped, and
    the one store over the whole output rectangle leaves the canonical contents of a covering write. -/
theorem sound_kernel0 (c : Dev nD) (E : Set ℕ) (i : grid0.Coords)
    (arg1 : Memref sig .tc .vmem S512x1280 .f32) (harg1 : arg1.IsWhole) (arg2 : Memref sig .tc .vmem S1280x3840 .bf16) (harg2 : arg2.IsWhole)
    (arg3 : Memref sig .tc .vmem S1x3840 .f32) (harg3 : arg3.IsWhole) (arg4 : Memref sig .tc .vmem S512x3840 .bf16) (harg4 : arg4.IsWhole)
    (x0 : Vec F S512x1280 .f32) (x1 : Vec F S1280x3840 .bf16) (x2 : Vec F S1x3840 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__matmul_bias_kernel i arg1 harg1 arg2 harg2 arg3 harg3 arg4 harg4) K := by
  simp only [cc0__matmul_bias_kernel_eq_skeleton]; unfold cc0__matmul_bias_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of pipeline 0 on core `c`: the arrays as the region finds them (`V`); after the body at point
    `t` each input's buffer at its block and the output's at `out0_3` of the three input blocks; the invariant the
    scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the region-entry contents (the definition projected; `V` is never unfolded). -/
theorem A_eq0 (c : Dev nD) (w : Fin cfg0.W) : (dat0 V c).A w = V c (Pipeline.arrRef spec0 w) := by
  dsimp only [dat0]

/-- What the body leaves, window by window (the proof data's match reduced). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t` (the obligation's precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks (`before0_W`), so `sound_kernel0` applies; the
    invariant and the core's debt pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Reg1.lean ====
import proofs.«402768_j2499670966342_3_alg».proof.Proof.Gen.Kernel.Launch
import proofs.«402768_j2499670966342_3_alg».proof.Proof.Gen.Kernel.Skeleton
import proofs.«402768_j2499670966342_3_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

/-! # Region 1 (the attention kernel): the proof data and the body obligation

The grid is 32 x 8: point t is (head pair t / 8, query tile t % 8). At a group's first point (t % 8 = 0) the body
rotates the group's keys by the key tables and keeps them in a scratch buffer; at every point it rotates the query
tile, scores it against the kept keys, normalises and applies the values, and stores the tile whole. The key block
and the two key tables do not move inside a group, so the scratch kept at the group's first point is the rotation
of the blocks at every point of the group: the output block at point t is ONE function of the seven input blocks
at t. The invariant carries the scratch at named contents from a point to the next. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array at the region's entry contents. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The body's accesses: each buffer whole -/

abbrev rQ1 : Rect S2x256x80 := Rect.unit (s := S2x256x80) ![0, 0, 0] S2x256x80.size inb_S2x256x80_S2x256x80_0_0_0
abbrev rK1 : Rect S2x2048x80 := Rect.unit (s := S2x2048x80) ![0, 0, 0] S2x2048x80.size inb_S2x2048x80_S2x2048x80_0_0_0
abbrev rTq1 : Rect S256x80 := Rect.unit (s := S256x80) ![0, 0] S256x80.size inb_S256x80_S256x80_0_0
abbrev rTk1 : Rect S2048x80 := Rect.unit (s := S2048x80) ![0, 0] S2048x80.size inb_S2048x80_S2048x80_0_0

/-! ## What the body leaves -/

/-- The rotated keys: what the body keeps in the scratch at a group's first point, from the key block and the two
    key tables. -/
abbrev scr1 (k : Vec F S2x2048x80 .bf16) (ck sk : Vec F S2048x80 .f32) : Vec F S2x2048x80 .bf16 :=
  k1_pay2 (View.ld k rK1) (View.ld ck rTk1) (View.ld sk rTk1)

/-- The output window's buffer after the body, from the seven input blocks: its one whole store. -/
def out1_7 (q : Vec F S2x256x80 .bf16) (k v : Vec F S2x2048x80 .bf16) (cq sq : Vec F S256x80 .f32) (ck sk : Vec F S2048x80 .f32) :
    Vec F S2x256x80 .bf16 :=
  View.canon [⟨rQ1, k1_pay1 (k1_pay3 (View.ld q rQ1) (View.ld cq rTq1) (View.ld sq rTq1)
    (k1_pay2 (View.ld k rK1) (View.ld ck rTk1) (View.ld sk rTk1)) (View.ld v rK1))⟩]

/-! ## The body on any staging memrefs, case by case -/

theorem hz3 : (![0, 0, 0] : Fin 3 → Nat) = fun _ => 0 := by funext a; fin_cases a <;> rfl

/-- One whole store covers the query-tile block; -/
theorem coverQ1 (p : Vec F S2x256x80 .bf16) (y : S2x256x80.Idx) :
    ∃ pc ∈ ([⟨rQ1, p⟩] : List (View.Piece (Elt F) S2x256x80 .bf16)), y ∈ pc.1.set :=
  ⟨_, List.mem_singleton_self _, View.mem_set_unit_zero hz3 inb_S2x256x80_S2x256x80_0_0_0 y⟩
/-- and one whole store covers the key block. -/
theorem coverK1 (p : Vec F S2x2048x80 .bf16) (y : S2x2048x80.Idx) :
    ∃ pc ∈ ([⟨rK1, p⟩] : List (View.Piece (Elt F) S2x2048x80 .bf16)), y ∈ pc.1.set :=
  ⟨_, List.mem_singleton_self _, View.mem_set_unit_zero hz3 inb_S2x2048x80_S2x2048x80_0_0_0 y⟩

/-- The body's one condition: the query tile is the group's first. -/
abbrev cond1 (i : grid1.Coords) : Prop :=
  (Scalar.cmpi .ne (Scalar.extui (Scalar.cmpi .eq (BitVec.ofNat 32 (i 1).val) 0#32)) 0#32) = 1#1

/-- It holds at the points that are multiples of 8. -/
theorem hcond1 : ∀ t : Fin cfg1.N, cond1 (grid1.coords t) ↔ t.val % 8 = 0 :=
  (by decide +kernel : ∀ t : Fin grid1.N, cond1 (grid1.coords t) ↔ t.val % 8 = 0)

set_option maxHeartbeats 1000000 in
/-- At a group's first point: from the seven inputs' buffers at their contents, the output's and the scratch at
    anything, the body runs to the inputs' as they were, the scratch at the rotated keys and the output at the one
    function of the seven contents (the scratch is stored whole, then read back: the read is the stored payload). -/
theorem sound_kernel_A (c : Dev nD) (E : Set ℕ) (i : grid1.Coords) (hc : cond1 i)
    (arg2 : Memref sig .tc .vmem S2x256x80 .bf16) (harg2 : arg2.IsWhole) (arg3 : Memref sig .tc .vmem S2x2048x80 .bf16) (harg3 : arg3.IsWhole)
    (arg4 : Memref sig .tc .vmem S2x2048x80 .bf16) (harg4 : arg4.IsWhole) (arg5 : Memref sig .tc .vmem S256x80 .f32) (harg5 : arg5.IsWhole)
    (arg6 : Memref sig .tc .vmem S256x80 .f32) (harg6 : arg6.IsWhole) (arg7 : Memref sig .tc .vmem S2048x80 .f32) (harg7 : arg7.IsWhole)
    (arg8 : Memref sig .tc .vmem S2048x80 .f32) (harg8 : arg8.IsWhole) (arg9 : Memref sig .tc .vmem S2x256x80 .bf16) (harg9 : arg9.IsWhole)
    (arg10 : Memref sig .tc .vmem S2x2048x80 .bf16) (harg10 : arg10.IsWhole)
    (xq : Vec F S2x256x80 .bf16) (xk xv : Vec F S2x2048x80 .bf16) (xcq xsq : Vec F S256x80 .f32) (xck xsk : Vec F S2048x80 .f32)
    (K : PUnit → sProp 𝕄) :
    iprop(owns (c : Thread nD τ) arg2 fullShare xq ∗ owns (c : Thread nD τ) arg3 fullShare xk ∗ owns (c : Thread nD τ) arg4 fullShare xv
        ∗ owns (c : Thread nD τ) arg5 fullShare xcq ∗ owns (c : Thread nD τ) arg6 fullShare xsq
        ∗ owns (c : Thread nD τ) arg7 fullShare xck ∗ owns (c : Thread nD τ) arg8 fullShare xsk
        ∗ (∃ d, owns (c : Thread nD τ) arg9 fullShare d) ∗ (∃ d, owns (c : Thread nD τ) arg10 fullShare d)
        ∗ (iprop(owns (c : Thread nD τ) arg2 fullShare xq ∗ owns (c : Thread nD τ) arg3 fullShare xk ∗ owns (c : Thread nD τ) arg4 fullShare xv
            ∗ owns (c : Thread nD τ) arg5 fullShare xcq ∗ owns (c : Thread nD τ) arg6 fullShare xsq
            ∗ owns (c : Thread nD τ) arg7 fullShare xck ∗ owns (c : Thread nD τ) arg8 fullShare xsk
            ∗ owns (c : Thread nD τ) arg9 fullShare (out1_7 xq xk xv xcq xsq xck xsk)
            ∗ owns (c : Thread nD τ) arg10 fullShare (scr1 xk xck xsk)) -∗ K ⟨⟩))
      ⊢ wp frame (wpE (defs₀ (F := F)) Variants.none c none) E
          (cc1__attn_kernel i arg2 harg2 arg3 harg3 arg4 harg4 arg5 harg5 arg6 harg6 arg7 harg7 arg8 harg8 arg9 harg9 arg10 harg10) K := by
  simp only [cc1__attn_kernel_eq_skeleton]; unfold cc1__attn_kernel_skel
  simp only [k1_part1_eq_skeleton]; unfold k1_part1_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩,
    ⟨%d9, %f9, -, H9⟩, ⟨%d10, %f10, -, H10⟩, Hk⟩
  subst hf2 hf3 hf4 hf5 hf6 hf7 hf8
  sl_exec (disch := exact hc)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    sl_unfold_run_names
    refine (View.read_writes_eq_canon _ _ _ (coverQ1 _)).trans ?_
    rw [View.readCov_unit_zero (S := S2x2048x80) _ hz3 inb_S2x2048x80_S2x2048x80_0_0_0]
    rfl
  · iexists _; isplitr
    swap; · iexact H10
    ipureintro
    sl_unfold_run_names
    refine (View.read_writes_eq_canon _ _ _ (coverK1 _)).trans ?_
    exact View.canon_unit_zero hz3 inb_S2x2048x80_S2x2048x80_0_0_0 _

/-- The output block from the query-side blocks and what the scratch holds. -/
def outS1 (q : Vec F S2x256x80 .bf16) (v : Vec F S2x2048x80 .bf16) (cq sq : Vec F S256x80 .f32) (s : Vec F S2x2048x80 .bf16) :
    Vec F S2x256x80 .bf16 :=
  View.canon [⟨rQ1, k1_pay1 (k1_pay3 (View.ld q rQ1) (View.ld cq rTq1) (View.ld sq rTq1) (View.ld s rK1) (View.ld v rK1))⟩]

/-- With the scratch at the rotated keys it is the one function of the seven blocks. -/
theorem outS1_scr (q : Vec F S2x256x80 .bf16) (k v : Vec F S2x2048x80 .bf16) (cq sq : Vec F S256x80 .f32) (ck sk : Vec F S2048x80 .f32) :
    outS1 q v cq sq (scr1 k ck sk) = out1_7 q k v cq sq ck sk := by
  unfold outS1 out1_7
  rw [View.ld_unit_zero (S := S2x2048x80) hz3 inb_S2x2048x80_S2x2048x80_0_0_0 (scr1 k ck sk)]

set_option maxHeartbeats 1000000 in
/-- Inside a group: the same, the scratch read at the contents it is handed and left untouched. -/
theorem sound_kernel_B (c : Dev nD) (E : Set ℕ) (i : grid1.Coords) (hc : ¬cond1 i)
    (arg2 : Memref sig .tc .vmem S2x256x80 .bf16) (harg2 : arg2.IsWhole) (arg3 : Memref sig .tc .vmem S2x2048x80 .bf16) (harg3 : arg3.IsWhole)
    (arg4 : Memref sig .tc .vmem S2x2048x80 .bf16) (harg4 : arg4.IsWhole) (arg5 : Memref sig .tc .vmem S256x80 .f32) (harg5 : arg5.IsWhole)
    (arg6 : Memref sig .tc .vmem S256x80 .f32) (harg6 : arg6.IsWhole) (arg7 : Memref sig .tc .vmem S2048x80 .f32) (harg7 : arg7.IsWhole)
    (arg8 : Memref sig .tc .vmem S2048x80 .f32) (harg8 : arg8.IsWhole) (arg9 : Memref sig .tc .vmem S2x256x80 .bf16) (harg9 : arg9.IsWhole)
    (arg10 : Memref sig .tc .vmem S2x2048x80 .bf16) (harg10 : arg10.IsWhole)
    (xq : Vec F S2x256x80 .bf16) (xk xv : Vec F S2x2048x80 .bf16) (xcq xsq : Vec F S256x80 .f32) (xck xsk : Vec F S2048x80 .f32)
    (xs : Vec F S2x2048x80 .bf16) (K : PUnit → sProp 𝕄) :
    iprop(owns (c : Thread nD τ) arg2 fullShare xq ∗ owns (c : Thread nD τ) arg3 fullShare xk ∗ owns (c : Thread nD τ) arg4 fullShare xv
        ∗ owns (c : Thread nD τ) arg5 fullShare xcq ∗ owns (c : Thread nD τ) arg6 fullShare xsq
        ∗ owns (c : Thread nD τ) arg7 fullShare xck ∗ owns (c : Thread nD τ) arg8 fullShare xsk
        ∗ (∃ d, owns (c : Thread nD τ) arg9 fullShare d) ∗ owns (c : Thread nD τ) arg10 fullShare xs
        ∗ (iprop(owns (c : Thread nD τ) arg2 fullShare xq ∗ owns (c : Thread nD τ) arg3 fullShare xk ∗ owns (c : Thread nD τ) arg4 fullShare xv
            ∗ owns (c : Thread nD τ) arg5 fullShare xcq ∗ owns (c : Thread nD τ) arg6 fullShare xsq
            ∗ owns (c : Thread nD τ) arg7 fullShare xck ∗ owns (c : Thread nD τ) arg8 fullShare xsk
            ∗ owns (c : Thread nD τ) arg9 fullShare (outS1 xq xv xcq xsq xs)
            ∗ owns (c : Thread nD τ) arg10 fullShare xs) -∗ K ⟨⟩))
      ⊢ wp frame (wpE (defs₀ (F := F)) Variants.none c none) E
          (cc1__attn_kernel i arg2 harg2 arg3 harg3 arg4 harg4 arg5 harg5 arg6 harg6 arg7 harg7 arg8 harg8 arg9 harg9 arg10 harg10) K := by
  simp only [cc1__attn_kernel_eq_skeleton]; unfold cc1__attn_kernel_skel
  simp only [k1_part1_eq_skeleton]; unfold k1_part1_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩,
    ⟨%d9, %f9, -, H9⟩, ⟨%f10, %hf10, H10⟩, Hk⟩
  subst hf2 hf3 hf4 hf5 hf6 hf7 hf8 hf10
  sl_exec (disch := exact hc)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    sl_unfold_run_names
    refine (View.read_writes_eq_canon _ _ _ (coverQ1 _)).trans ?_
    rfl
  · iexists f10; isplitr; · ipureintro; rfl
    iexact H10

/-! ## The invariant -/

/-- The scratch operand: a whole scoped buffer of the kernel's own. -/
abbrev scM1 : Memref sig .tc .vmem S2x2048x80 .bf16 := Memref.whole cc1_scratch0

/-- The core's scoped buffers that are neither a staging buffer of this region nor the scratch, each whole at
    some contents. -/
def rest1 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg3_1), ((c : Thread nD τ).loc cc0_stg3_1) ↦{fullShare} f)
    ∗ (∃ f : Buf (Elt F) ((c : Thread nD τ).loc cc2_stg0_0), ((c : Thread nD τ).loc cc2_stg0_0) ↦{fullShare} f)
    ∗ (∃ f : Buf (Elt F) ((c : Thread nD τ).loc cc2_stg0_1), ((c : Thread nD τ).loc cc2_stg0_1) ↦{fullShare} f)
    ∗ (∃ f : Buf (Elt F) ((c : Thread nD τ).loc cc2_stg1_0), ((c : Thread nD τ).loc cc2_stg1_0) ↦{fullShare} f)
    ∗ (∃ f : Buf (Elt F) ((c : Thread nD τ).loc cc2_stg2_0), ((c : Thread nD τ).loc cc2_stg2_0) ↦{fullShare} f)
    ∗ (∃ f : Buf (Elt F) ((c : Thread nD τ).loc cc2_stg3_0), ((c : Thread nD τ).loc cc2_stg3_0) ↦{fullShare} f)
    ∗ (∃ f : Buf (Elt F) ((c : Thread nD τ).loc cc2_stg3_1), ((c : Thread nD τ).loc cc2_stg3_1) ↦{fullShare} f))

/-- The invariant before position n (after point n - 1): the generator register at some state, the other scoped
    buffers at anything, and the scratch whole at contents that, inside a group (n not a multiple of 8), are the
    rotated keys of the blocks at the point before. -/
def Phi1 (c : Dev nD) (n : ℕ) : sProp 𝕄 :=
  iprop((∃ r, prngReg c r) ∗ rest1 (F := F) c
    ∗ ∃ f : Vec F S2x2048x80 .bf16, ⌜∀ (_ : n % 8 ≠ 0) (hlt : n - 1 < cfg1.N),
          f = scr1 (iblk1 V c 1 ⟨n - 1, hlt⟩) (iblk1 V c 5 ⟨n - 1, hlt⟩) (iblk1 V c 6 ⟨n - 1, hlt⟩)⌝
        ∗ owns (c : Thread nD τ) scM1 fullShare f)

/-! ## The proof data -/

/-- The proof data of region 1 on core c: the arrays at the entry contents; after the body at point t each input's
    buffer at its block and the output's at the one function of the seven input blocks at t; the invariant with the
    scratch tracked; the two arrays that two windows read held at a half share by each of the two; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1_7 (iblk1 V c 0 t) (iblk1 V c 1 t) (iblk1 V c 2 t) (iblk1 V c 3 t) (iblk1 V c 4 t) (iblk1 V c 5 t) (iblk1 V c 6 t)
  Φ t := Phi1 V c t.val
  q w := match w with
    | ⟨0, _⟩ => fullShare
    | ⟨1, _⟩ => fullShare
    | ⟨2, _⟩ => fullShare
    | ⟨3, _⟩ => fullShare.left
    | ⟨4, _⟩ => fullShare.left
    | ⟨5, _⟩ => fullShare.right
    | ⟨6, _⟩ => fullShare.right
    | ⟨7, _⟩ => fullShare
  owed _ := 0

/-- The proof data's arrays are the entry contents. -/
theorem A_eq1 (c : Dev nD) (w : Fin cfg1.W) : (dat1 V c).A w = V c (Pipeline.arrRef spec1 w) := by
  dsimp only [dat1]

theorem q1_0 (c : Dev nD) : (dat1 V c).q 0 = fullShare := by dsimp only [dat1]
theorem q1_1 (c : Dev nD) : (dat1 V c).q 1 = fullShare := by dsimp only [dat1]
theorem q1_2 (c : Dev nD) : (dat1 V c).q 2 = fullShare := by dsimp only [dat1]
theorem q1_3 (c : Dev nD) : (dat1 V c).q 3 = fullShare.left := by dsimp only [dat1]
theorem q1_4 (c : Dev nD) : (dat1 V c).q 4 = fullShare.left := by dsimp only [dat1]
theorem q1_5 (c : Dev nD) : (dat1 V c).q 5 = fullShare.right := by dsimp only [dat1]
theorem q1_6 (c : Dev nD) : (dat1 V c).q 6 = fullShare.right := by dsimp only [dat1]
theorem q1_7 (c : Dev nD) : (dat1 V c).q 7 = fullShare := by dsimp only [dat1]

theorem Phi1_eq (c : Dev nD) (t : Fin (cfg1.N + 1)) : (dat1 V c).Φ t = Phi1 V c t.val := by dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t
    = out1_7 (iblk1 V c 0 t) (iblk1 V c 1 t) (iblk1 V c 2 t) (iblk1 V c 3 t) (iblk1 V c 4 t) (iblk1 V c 5 t) (iblk1 V c 6 t) := by
  dsimp only [dat1]

/-- Each input's current staging buffer holds its block at every point, fetched there or not. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl)
    (fun t => by rw [after1_4]; unfold Dat.blockOf iblk1; rw [A_eq1]; try rfl) t d).trans
    (by unfold Dat.fetched Dat.blockOf iblk1; rw [A_eq1]; try rfl)
theorem before1_5 (c : Dev nD) (t : Fin cfg1.N) (d) : (dat1 V c).before 5 t d = iblk1 V c 5 t :=
  ((dat1 V c).before_in_eq_fetched 5 rfl (fun _ => rfl) (fun _ _ _ => rfl)
    (fun t => by rw [after1_5]; unfold Dat.blockOf iblk1; rw [A_eq1]; try rfl) t d).trans
    (by unfold Dat.fetched Dat.blockOf iblk1; rw [A_eq1]; try rfl)
theorem before1_6 (c : Dev nD) (t : Fin cfg1.N) (d) : (dat1 V c).before 6 t d = iblk1 V c 6 t :=
  ((dat1 V c).before_in_eq_fetched 6 rfl (fun _ => rfl) (fun _ _ _ => rfl)
    (fun t => by rw [after1_6]; unfold Dat.blockOf iblk1; rw [A_eq1]; try rfl) t d).trans
    (by unfold Dat.fetched Dat.blockOf iblk1; rw [A_eq1]; try rfl)
/-- The output's staging buffer is fresh at every point: the block is written back at every point. -/
theorem before1_7 (c : Dev nD) (t : Fin cfg1.N) (d) : (dat1 V c).before 7 t d = d :=
  (dat1 V c).before_out_reset 7 rfl t
    (by by_cases h0 : t.val = 0
        · exact .inl h0
        · exact .inr ⟨h0, flush1_7 _⟩) d

/-! ## The region's ends -/

/-- What the launch hands the region is the invariant before the first point. -/
theorem hin1 (c : Dev nD) : (iprop((∃ r, prngReg c r) ∗ Pipeline.scopedRest spec1 c) : sProp 𝕄) ⊢ (dat1 V c).Φ 0 := by
  rw [Phi1_eq, scopedRest1_eq]
  unfold Phi1 rest1
  simp only [scM1, owns_whole]
  iintro ⟨Hg, H1, H2, H3, H4, H5, H6, ⟨%fs, HS⟩, H8, H9, H10, H11, H12, H13⟩
  isplitl [Hg]; · iexact Hg
  isplitl [H1 H2 H3 H4 H5 H6 H8 H9 H10 H11 H12 H13]
  · isplitl [H1]; · iexact H1
    isplitl [H2]; · iexact H2
    isplitl [H3]; · iexact H3
    isplitl [H4]; · iexact H4
    isplitl [H5]; · iexact H5
    isplitl [H6]; · iexact H6
    isplitl [H8]; · iexact H8
    isplitl [H9]; · iexact H9
    isplitl [H10]; · iexact H10
    isplitl [H11]; · iexact H11
    isplitl [H12]; · iexact H12
    iexact H13
  iexists fs; isplitr
  · ipureintro; intro h0; exact absurd (Nat.zero_mod 8) h0
  · iexact HS

/-- The invariant after the last point gives it back: the scratch's named contents are forgotten. -/
theorem hout1 (c : Dev nD) : (dat1 V c).Φ (Fin.last _) ⊢ (iprop((∃ r, prngReg c r) ∗ Pipeline.scopedRest spec1 c) : sProp 𝕄) := by
  rw [Phi1_eq, scopedRest1_eq]
  unfold Phi1 rest1
  simp only [scM1, owns_whole]
  iintro ⟨Hg, ⟨H1, H2, H3, H4, H5, H6, H8, H9, H10, H11, H12, H13⟩, ⟨%fs, -, HS⟩⟩
  isplitl [Hg]; · iexact Hg
  isplitl [H1]; · iexact H1
  isplitl [H2]; · iexact H2
  isplitl [H3]; · iexact H3
  isplitl [H4]; · iexact H4
  isplitl [H5]; · iexact H5
  isplitl [H6]; · iexact H6
  isplitl [HS]; · iexists fs; iexact HS
  isplitl [H8]; · iexact H8
  isplitl [H9]; · iexact H9
  isplitl [H10]; · iexact H10
  isplitl [H11]; · iexact H11
  isplitl [H12]; · iexact H12
  iexact H13

/-! ## Inside a group the key block and the key tables do not move -/

theorem fetched1_1 (c : Dev nD) (t : Fin cfg1.N) (d) : (dat1 V c).fetched 1 t d = iblk1 V c 1 t := by
  unfold Dat.fetched Dat.blockOf iblk1; rw [A_eq1]; try rfl
theorem fetched1_5 (c : Dev nD) (t : Fin cfg1.N) (d) : (dat1 V c).fetched 5 t d = iblk1 V c 5 t := by
  unfold Dat.fetched Dat.blockOf iblk1; rw [A_eq1]; try rfl
theorem fetched1_6 (c : Dev nD) (t : Fin cfg1.N) (d) : (dat1 V c).fetched 6 t d = iblk1 V c 6 t := by
  unfold Dat.fetched Dat.blockOf iblk1; rw [A_eq1]; try rfl

/-- A window not fetched at a point has there the block index of the point before. -/
theorem index1_1_pred (t : Fin cfg1.N) (h : t.val % 8 ≠ 0) :
    (cfg1.win 1).index t = (cfg1.win 1).index ⟨t.val - 1, Nat.lt_of_le_of_lt (Nat.sub_le _ _) t.isLt⟩ :=
  ((cfg1.win 1).index_eq_of_fetch rfl t (by
    cases hf : (cfg1.win 1).fetch t with
    | false => rfl
    | true => exact absurd ((fetch1_1 t).mp hf) h)).2
theorem index1_5_pred (t : Fin cfg1.N) (h : t.val % 8 ≠ 0) :
    (cfg1.win 5).index t = (cfg1.win 5).index ⟨t.val - 1, Nat.lt_of_le_of_lt (Nat.sub_le _ _) t.isLt⟩ :=
  ((cfg1.win 5).index_eq_of_fetch rfl t (by
    cases hf : (cfg1.win 5).fetch t with
    | false => rfl
    | true => exact absurd ((fetch1_5 t).mp hf) (by omega))).2
theorem index1_6_pred (t : Fin cfg1.N) (h : t.val % 8 ≠ 0) :
    (cfg1.win 6).index t = (cfg1.win 6).index ⟨t.val - 1, Nat.lt_of_le_of_lt (Nat.sub_le _ _) t.isLt⟩ :=
  ((cfg1.win 6).index_eq_of_fetch rfl t (by
    cases hf : (cfg1.win 6).fetch t with
    | false => rfl
    | true => exact absurd ((fetch1_6 t).mp hf) (by omega))).2

/-- So the rotated keys of the blocks at the point before are those of the blocks at the point. -/
theorem scr1_pred (c : Dev nD) (t : Fin cfg1.N) (h : t.val % 8 ≠ 0) (hlt : t.val - 1 < cfg1.N) :
    scr1 (iblk1 V c 1 ⟨t.val - 1, hlt⟩) (iblk1 V c 5 ⟨t.val - 1, hlt⟩) (iblk1 V c 6 ⟨t.val - 1, hlt⟩)
      = scr1 (iblk1 V c 1 t) (iblk1 V c 5 t) (iblk1 V c 6 t) := by
  have e1 : iblk1 V c 1 ⟨t.val - 1, hlt⟩ = iblk1 V c 1 t :=
    ((fetched1_1 V c _ (iblk1 V c 1 t)).symm.trans (((dat1 V c).fetched_congr 1 (index1_1_pred t h) rfl (iblk1 V c 1 t)).symm)).trans
      (fetched1_1 V c t (iblk1 V c 1 t))
  have e5 : iblk1 V c 5 ⟨t.val - 1, hlt⟩ = iblk1 V c 5 t :=
    ((fetched1_5 V c _ (iblk1 V c 5 t)).symm.trans (((dat1 V c).fetched_congr 5 (index1_5_pred t h) rfl (iblk1 V c 5 t)).symm)).trans
      (fetched1_5 V c t (iblk1 V c 5 t))
  have e6 : iblk1 V c 6 ⟨t.val - 1, hlt⟩ = iblk1 V c 6 t :=
    ((fetched1_6 V c _ (iblk1 V c 6 t)).symm.trans (((dat1 V c).fetched_congr 6 (index1_6_pred t h) rfl (iblk1 V c 6 t)).symm)).trans
      (fetched1_6 V c t (iblk1 V c 6 t))
  rw [e1, e5, e6]

/-! ## The body obligation, at a generic point -/

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

set_option maxHeartbeats 1000000 in
/-- The body at any point: the inputs' buffers hold their blocks; at a group's first point the scratch is at anything
    and is left at the rotated keys of the blocks there; inside a group it is at the rotated keys of the blocks at the
    point before, which are the blocks at the point, and is left as it was; in both the output is left at the one
    function of the seven blocks. The generator register, the other scoped buffers and the core's tallies pass through. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).owesAt () t.succ = (dat1 V c).owesAt () t.castSucc from rfl,
    after1_0, after1_1, after1_2, after1_3, after1_4, after1_5, after1_6, after1_7, Phi1_eq, Phi1_eq]
  simp only [Fin.coe_castSucc, Fin.val_succ]
  unfold Phi1
  by_cases h0 : t.val % 8 = 0
  · iintro ⟨⟨Hg, Hr, ⟨%fs, -, HS⟩⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (sound_kernel_A c Set.univ _ ((hcond1 t).mpr h0) _ _ _ _ _ _ _ _ _ _ _ _ _ _ _ _ _ _
      (iblk1 V c 0 t) (iblk1 V c 1 t) (iblk1 V c 2 t) (iblk1 V c 3 t) (iblk1 V c 4 t) (iblk1 V c 5 t) (iblk1 V c 6 t) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HS]; · iexists _; iexact HS
    iintro ⟨H0, H1, H2, H3, H4, H5, H6, H7, HS⟩
    isplitl [Hg Hr HS]
    · isplitl [Hg]; · iexact Hg
      isplitl [Hr]; · iexact Hr
      iexists _; isplitr
      swap; · iexact HS
      ipureintro; intro _ hlt; rfl
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · rw [← outS1_scr]
    iintro ⟨⟨Hg, Hr, ⟨%fs, %hfs, HS⟩⟩, Ho, ⟨%d0, H0⟩, ⟨%d1, H1⟩, ⟨%d2, H2⟩, ⟨%d3, H3⟩, ⟨%d4, H4⟩, ⟨%d5, H5⟩, ⟨%d6, H6⟩, ⟨%d7, H7⟩⟩
    have hlt : t.val - 1 < cfg1.N := Nat.lt_of_le_of_lt (Nat.sub_le _ _) t.isLt
    have hfs' : fs = scr1 (iblk1 V c 1 t) (iblk1 V c 5 t) (iblk1 V c 6 t) := (hfs h0 hlt).trans (scr1_pred V c t h0 hlt)
    subst hfs'
    iapply (sound_kernel_B c Set.univ _ (fun h => h0 ((hcond1 t).mp h)) _ _ _ _ _ _ _ _ _ _ _ _ _ _ _ _ _ _
      (iblk1 V c 0 t) (iblk1 V c 1 t) (iblk1 V c 2 t) (iblk1 V c 3 t) (iblk1 V c 4 t) (iblk1 V c 5 t) (iblk1 V c 6 t)
      (scr1 (iblk1 V c 1 t) (iblk1 V c 5 t) (iblk1 V c 6 t)) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HS]; · iexact HS
    iintro ⟨H0, H1, H2, H3, H4, H5, H6, H7, HS⟩
    isplitl [Hg Hr HS]
    · isplitl [Hg]; · iexact Hg
      isplitl [Hr]; · iexact Hr
      iexists _; isplitr
      swap; · iexact HS
      ipureintro; intro _ hlt'; rfl
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Reg2.lean ====
/-
  The class-A half of pallas region 2 (the matmul-plus-bias kernel `cc2__matmul_bias_kernel`), at any float
  interpretation `F` and at a PARAMETER `V`: the TensorCore's buffer contents when the region is entered.

  The kernel body loads its three input windows' staging buffers whole (the row block of the left factor, the
  right factor, the bias row), loads its output window's staging buffer once (a value it never uses), and stores
  one payload over the whole output buffer. So what the body leaves in the output buffer is the canonical contents
  of that one covering store, a closed function of the three input blocks; and an input buffer holds its window's
  block at every point, fetched there or not (where a window is not fetched its block index has not moved).
  From these two facts: the pipeline's proof data and the body obligation at every grid point.
-/
import proofs.«402768_j2499670966342_3_alg».proof.Proof.Gen.Kernel.Launch
import proofs.«402768_j2499670966342_3_alg».proof.Proof.Gen.Kernel.Skeleton
import proofs.«402768_j2499670966342_3_alg».proof.Proof.Gen.Kernel.Points
import Idealize.ShloMosaic.Lib.Pipeline.FrameBody
import Idealize.ShloMosaic.Lib.Ring
import Idealize.ShloMosaic.Lib.Tactic

-- membership in a rectangle of long extents: the structural recursion goes once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0 (the left factor's row block, fetched at every point): its current staging buffer holds its
    block at every point, for ANY proof data whose array is `V`'s (`hA`) and whose body leaves the block in place
    (`hafter`); the window is uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1 (the right factor, fetched at the first point only): the same. Where it is not fetched, its
    block index (constant over the grid) has not moved, and the buffer still holds the block. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2 (the bias row, fetched at the first point only): the same. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each buffer through its whole rectangle -/

abbrev r2_0 : Rect S512x1280 := Rect.unit (s := S512x1280) ![0, 0] S512x1280.size inb_S512x1280_S512x1280_0_0
abbrev r2_1 : Rect S1280x1280 := Rect.unit (s := S1280x1280) ![0, 0] S1280x1280.size inb_S1280x1280_S1280x1280_0_0
abbrev r2_2 : Rect S1x1280 := Rect.unit (s := S1x1280) ![0, 0] S1x1280.size inb_S1x1280_S1x1280_0_0
abbrev r2_3 : Rect S512x1280 := Rect.unit (s := S512x1280) ![0, 0] S512x1280.size inb_S512x1280_S512x1280_0_0

/-! ## What the body leaves in the output window's buffer -/

/-- Window 3's staging buffer after the body, from the three input blocks: its one store as a piece, the payload
    the kernel's matmul-plus-bias of what the three loads read. The payload stays an opaque term here. -/
def out2_3 (x0 : Vec F S512x1280 .bf16) (x1 : Vec F S1280x1280 .bf16) (x2 : Vec F S1x1280 .f32) : Vec F S512x1280 .f32 :=
  View.canon [⟨r2_3, k2_pay1 (View.ld x0 r2_0) (View.ld x1 r2_1) (View.ld x2 r2_2)⟩]

/-- The one store's rectangle is the whole buffer, so it covers it. -/
theorem cover2_3 (p0 : Vec F S512x1280 .f32) (y : S512x1280.Idx) :
    ∃ pc ∈ ([⟨r2_3, p0⟩] : List (View.Piece (Elt F) S512x1280 .f32)), y ∈ pc.1.set :=
  View.cover_of_tiled [⟨r2_3, p0⟩] S512x1280.size (by rfl) y

/-! ## The body's triple -/

set_option maxHeartbeats 1000000 in
/-- The kernel body on whole staging memrefs, the inputs' at read contents `x0 x1 x2` and the output's at anything,
    runs to the continuation holding the inputs' as they were and the output's at `out2_3` of the inputs': the three
    loads read the inputs whole, the load of the output buffer reads whatever is there and its value is dropped, and
    the one store over the whole output rectangle leaves the canonical contents of a covering write. -/
theorem sound_kernel2 (c : Dev nD) (E : Set ℕ) (i : grid2.Coords)
    (arg1 : Memref sig .tc .vmem S512x1280 .bf16) (harg1 : arg1.IsWhole) (arg2 : Memref sig .tc .vmem S1280x1280 .bf16) (harg2 : arg2.IsWhole)
    (arg3 : Memref sig .tc .vmem S1x1280 .f32) (harg3 : arg3.IsWhole) (arg4 : Memref sig .tc .vmem S512x1280 .f32) (harg4 : arg4.IsWhole)
    (x0 : Vec F S512x1280 .bf16) (x1 : Vec F S1280x1280 .bf16) (x2 : Vec F S1x1280 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2)) -∗ K ⟨⟩))
      ⊢ wp frame (wpE (defs₀ (F := F)) Variants.none c none) E (cc2__matmul_bias_kernel i arg1 harg1 arg2 harg2 arg3 harg3 arg4 harg4) K := by
  simp only [cc2__matmul_bias_kernel_eq_skeleton]; unfold cc2__matmul_bias_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-! ## The pipeline's proof data -/

/-- The proof data of pipeline 2 on core `c`: the arrays as the region finds them (`V`); after the body at point
    `t` each input's buffer at its block and the output's at `out2_3` of the three input blocks; the invariant the
    scoped rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

/-- The proof data's arrays are the region-entry contents (the definition projected; `V` is never unfolded). -/
theorem A_eq2 (c : Dev nD) (w : Fin cfg2.W) : (dat2 V c).A w = V c (Pipeline.arrRef spec2 w) := by
  dsimp only [dat2]

/-- What the body leaves, window by window (the proof data's match reduced). -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

/-- What the body is called with at point `t` (the obligation's precondition, the windows one by one), -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' memrefs hold their blocks (`before2_W`), so `sound_kernel2` applies; the
    invariant and the core's debt pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K.Run.lean ====
/-
  THE RUN of the three-region main function, at any float interpretation F.

  The main function is seven segments: a stretch of host operations, pallas region 0 (matmul plus bias), a host
  stretch, region 1 (attention), a host stretch, region 2 (matmul plus bias), a last host stretch. This module
  names each core's buffer contents at the eight boundaries between them as a fold from the launch memory
  (W0 ... W7): a host stretch rewrites the buffers its operations write; a region rewrites its output array with
  what its write-backs leave and nothing else. Each region's proof data is taken at its entry contents. Every
  segment is then stated over one thread state -- every unscoped buffer whole at the boundary's contents, the
  generator register, a debt of nothing -- and the launch theorem for a list of segments gives: every weakly fair
  execution terminates and ends with every unscoped buffer at W7. The frame (the six arguments end as launched)
  and the result buffer's contents are read off W7.

  Region 1 reads one array through two windows, twice (the cosine table through windows 3 and 5, the sine table
  through windows 4 and 6). Its arrays are therefore six buffers behind eight windows: at entry each shared
  buffer's full share is halved between its two windows, and at exit the two halves, which hold the same
  contents, are joined again.
-/
import proofs.«402768_j2499670966342_3_alg».proof.Proof.K.Reg0
import proofs.«402768_j2499670966342_3_alg».proof.Proof.K.Reg1
import proofs.«402768_j2499670966342_3_alg».proof.Proof.K.Reg2
import proofs.«402768_j2499670966342_3_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 1's arrays: six buffers behind eight windows -/

section Arrays1
variable (V : (c : Dev nD) → (b : Ref sig .tc) → Buf (Elt F) ((c : Thread nD τ).loc b))

/-- The share region 1's proof data holds each window's array at: an output's and an unshared input's whole, each
    of the two windows on a shared array one half. -/
theorem share1_0 (c : Dev nD) : (dat1 V c).share 0 = fullShare := (if_neg (by decide)).trans (q1_0 V c)
theorem share1_1 (c : Dev nD) : (dat1 V c).share 1 = fullShare := (if_neg (by decide)).trans (q1_1 V c)
theorem share1_2 (c : Dev nD) : (dat1 V c).share 2 = fullShare := (if_neg (by decide)).trans (q1_2 V c)
theorem share1_3 (c : Dev nD) : (dat1 V c).share 3 = fullShare.left := (if_neg (by decide)).trans (q1_3 V c)
theorem share1_4 (c : Dev nD) : (dat1 V c).share 4 = fullShare.left := (if_neg (by decide)).trans (q1_4 V c)
theorem share1_5 (c : Dev nD) : (dat1 V c).share 5 = fullShare.right := (if_neg (by decide)).trans (q1_5 V c)
theorem share1_6 (c : Dev nD) : (dat1 V c).share 6 = fullShare.right := (if_neg (by decide)).trans (q1_6 V c)
theorem share1_7 (c : Dev nD) : (dat1 V c).share 7 = fullShare := if_pos (by decide)

/-- The eight windows' arrays, each a whole buffer, window by window. -/
theorem arrays1_eq (c : Dev nD) (Fw : (w : Fin cfg1.W) → Buf (Elt F) ((cfg1.win w).arr.view.loc (c.tc : Thread nD τ))) :
    ((dat1 V c).arrays Fw : sProp 𝕄)
      = bigSep Finset.univ fun w : Fin 8 => (((c.tc : Thread nD τ).loc (Pipeline.arrRef spec1 w)) ↦{(dat1 V c).share w} Fw w : sProp 𝕄) := by
  unfold Pipeline.Dat.arrays
  exact bigSep_congr fun w _ => by rw [(arr_whole1 w).set_eq_univ]

/-- The six distinct buffers behind them, one by one. -/
theorem arrBufs1_eq (c : Dev nD) (G : (b : Ref sig .tc) → Buf (Elt F) ((c.tc : Thread nD τ).loc b)) :
    (Pipeline.arrBufs (Ix := Unit) (Name := ℕ) (U := UR sig nD τ) (Lvl := ℕ) spec1 c G : sProp 𝕄)
      = iprop((((c.tc : Thread nD τ).loc main_v10) ↦{fullShare} G main_v10) ∗ (((c.tc : Thread nD τ).loc main_v13) ↦{fullShare} G main_v13)
          ∗ (((c.tc : Thread nD τ).loc main_v16) ↦{fullShare} G main_v16) ∗ (((c.tc : Thread nD τ).loc main_v19) ↦{fullShare} G main_v19)
          ∗ (((c.tc : Thread nD τ).loc main_v21) ↦{fullShare} G main_v21) ∗ (((c.tc : Thread nD τ).loc main_v22) ↦{fullShare} G main_v22)) := by
  unfold Pipeline.arrBufs
  exact bigSep_eq_bigSepL_of_eq [main_v10, main_v13, main_v16, main_v19, main_v21, main_v22] (by decide) (by decide)
    fun b => (((c.tc : Thread nD τ).loc b) ↦{fullShare} G b : sProp 𝕄)
end Arrays1

section Arrays1Split
variable (V : (c : Dev nD) → (b : Ref sig .tc) → Buf (Elt F) ((c : Thread nD τ).loc b))

set_option maxHeartbeats 400000 in
/-- ENTRY. The six buffers, each whole at the full share at contents G, are the eight windows' arrays at the contents
    G has behind each: the cosine table's and the sine table's full shares are each halved between the two windows
    that read it (a share is the composite of its two halves). -/
theorem arrays1_of_bufs (c : Dev nD) (G : (b : Ref sig .tc) → Buf (Elt F) ((c.tc : Thread nD τ).loc b)) :
    (Pipeline.arrBufs (Ix := Unit) (Name := ℕ) (U := UR sig nD τ) (Lvl := ℕ) spec1 c G : sProp 𝕄)
      ⊢ (dat1 V c).arrays (fun w => G (Pipeline.arrRef spec1 w)) := by
  rw [arrBufs1_eq, arrays1_eq, bigSep_W1]
  rw [share1_0, share1_1, share1_2, share1_3, share1_4, share1_5, share1_6, share1_7]
  iintro ⟨H10, H13, H16, H19, H21, H22⟩
  ihave H19' := (pointsTo_share (ℓ := (c.tc : Thread nD τ).loc main_v19) (I := Finset.univ) (f := G main_v19)
    (PosShare.mem_left_op_right fullShare)).1 $$ H19
  icases H19' with ⟨H19l, H19r⟩
  ihave H21' := (pointsTo_share (ℓ := (c.tc : Thread nD τ).loc main_v21) (I := Finset.univ) (f := G main_v21)
    (PosShare.mem_left_op_right fullShare)).1 $$ H21
  icases H21' with ⟨H21l, H21r⟩
  isplitl [H10]; · iexact H10
  isplitl [H13]; · iexact H13
  isplitl [H16]; · iexact H16
  isplitl [H19l]; · iexact H19l
  isplitl [H21l]; · iexact H21l
  isplitl [H19r]; · iexact H19r
  isplitl [H21r]; · iexact H21r
  iexact H22

set_option maxHeartbeats 400000 in
/-- EXIT. Conversely: the two windows on a shared array hold it at the same contents, one half share each, and the
    halves compose to the full share. -/
theorem bufs_of_arrays1 (c : Dev nD) (G : (b : Ref sig .tc) → Buf (Elt F) ((c.tc : Thread nD τ).loc b)) :
    ((dat1 V c).arrays (fun w => G (Pipeline.arrRef spec1 w)) : sProp 𝕄)
      ⊢ Pipeline.arrBufs (Ix := Unit) (Name := ℕ) (U := UR sig nD τ) (Lvl := ℕ) spec1 c G := by
  rw [arrBufs1_eq, arrays1_eq, bigSep_W1]
  rw [share1_0, share1_1, share1_2, share1_3, share1_4, share1_5, share1_6, share1_7]
  iintro ⟨H10, H13, H16, H19l, H21l, H19r, H21r, H22⟩
  isplitl [H10]; · iexact H10
  isplitl [H13]; · iexact H13
  isplitl [H16]; · iexact H16
  isplitl [H19l H19r]
  · iapply (pointsTo_share (ℓ := (c.tc : Thread nD τ).loc main_v19) (I := Finset.univ) (f := G main_v19)
      (PosShare.mem_left_op_right fullShare)).2
    isplitl [H19l]; · iexact H19l
    iexact H19r
  isplitl [H21l H21r]
  · iapply (pointsTo_share (ℓ := (c.tc : Thread nD τ).loc main_v21) (I := Finset.univ) (f := G main_v21)
      (PosShare.mem_left_op_right fullShare)).2
    isplitl [H21l]; · iexact H21l
    iexact H21r
  iexact H22
end Arrays1Split

variable (m : (ℓ : Loc nD τ sig) → Buf (Elt F) ℓ) (ρ : Dev nD → PrngReg)

/-! # The buffer contents at each boundary of the main function: a fold from the launch memory -/

/-- Core `c`'s buffers at launch. -/
abbrev W0 : Dev nD → Valuation τ sig (Elt F) := fun c b => (s₀ m ρ).mem ((c : Dev nD), b)
/-- After the first host stretch (region 0's entry). -/
abbrev W1 : Dev nD → Valuation τ sig (Elt F) := fun c => StableHlo.after hostOps0 (W0 m ρ c)
/-- The same read at the TensorCore's references. -/
abbrev V1 : (c : Dev nD) → (b : Ref sig .tc) → Buf (Elt F) ((c : Thread nD τ).loc b) := fun c b => W1 m ρ c b
/-- At region 0's exit: its arrays at what the write-backs leave, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch (region 1's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At region 1's exit: the one array it writes at what its write-backs leave; every other buffer, its seven input
    windows' arrays among them, as entered. -/
def W4 (c : Dev nD) : Valuation τ sig (Elt F) :=
  Function.update (W3 m ρ c) (Proc.devRef .tc main_v22) ((dat1 (V3 m ρ) c).arrAt 7 cfg1.N)
theorem W4_out (c : Dev nD) : W4 m ρ c (Proc.devRef .tc main_v22) = (dat1 (V3 m ρ) c).arrAt 7 cfg1.N := by
  unfold W4; exact Function.update_self ..
theorem W4_of_ne (c : Dev nD) (b : Ref sig .tc) (hb : b ≠ main_v22) :
    W4 m ρ c (Proc.devRef .tc b) = W3 m ρ c (Proc.devRef .tc b) := by
  unfold W4; exact Function.update_of_ne (StableHlo.devRef_ne_of_ne hb) ..
abbrev V4 : (c : Dev nD) → (b : Ref sig .tc) → Buf (Elt F) ((c : Thread nD τ).loc b) := fun c b => W4 m ρ c b

/-- After the third host stretch (region 2's entry). -/
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b
/-- At region 2's exit. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- After the last host stretch: the contents at the return. -/
abbrev W7 : Dev nD → Valuation τ sig (Elt F) := fun c => StableHlo.after hostOps3 (W6 m ρ c)

/-! ## What a host stretch leaves alone; the arguments end as launched -/

theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W5_of (c : Dev nD) (r : Ref sig .tc) (h : r ∉ hostOps2_W) : W5 m ρ c (Proc.devRef .tc r) = W4 m ρ c (Proc.devRef .tc r) :=
  StableHlo.after_of_writes_sub hostOps2 _ hostOps2_writes h
theorem W7_of (c : Dev nD) (r : Ref sig .tc) (h : r ∉ hostOps3_W) : W7 m ρ c (Proc.devRef .tc r) = W6 m ρ c (Proc.devRef .tc r) :=
  StableHlo.after_of_writes_sub hostOps3 _ hostOps3_writes h

/- No host stretch writes an argument and no region has one among its windows' arrays: the fold at an argument's
   buffer walks back to the launch memory. -/
theorem W7_main_arg0 (c : Dev nD) : W7 m ρ c (Proc.devRef .tc main_arg0) = m ((c : Thread nD τ).loc main_arg0) :=
  (W7_of m ρ c main_arg0 (by decide)).trans <| (W6_of_ne m ρ c main_arg0 (by decide)).trans <| (W5_of m ρ c main_arg0 (by decide)).trans <|
  (W4_of_ne m ρ c main_arg0 (by decide)).trans <| (W3_of m ρ c main_arg0 (by decide)).trans <| (W2_of_ne m ρ c main_arg0 (by decide)).trans <|
  (W1_of m ρ c main_arg0 (by decide)).trans rfl
theorem W7_main_arg1 (c : Dev nD) : W7 m ρ c (Proc.devRef .tc main_arg1) = m ((c : Thread nD τ).loc main_arg1) :=
  (W7_of m ρ c main_arg1 (by decide)).trans <| (W6_of_ne m ρ c main_arg1 (by decide)).trans <| (W5_of m ρ c main_arg1 (by decide)).trans <|
  (W4_of_ne m ρ c main_arg1 (by decide)).trans <| (W3_of m ρ c main_arg1 (by decide)).trans <| (W2_of_ne m ρ c main_arg1 (by decide)).trans <|
  (W1_of m ρ c main_arg1 (by decide)).trans rfl
theorem W7_main_arg2 (c : Dev nD) : W7 m ρ c (Proc.devRef .tc main_arg2) = m ((c : Thread nD τ).loc main_arg2) :=
  (W7_of m ρ c main_arg2 (by decide)).trans <| (W6_of_ne m ρ c main_arg2 (by decide)).trans <| (W5_of m ρ c main_arg2 (by decide)).trans <|
  (W4_of_ne m ρ c main_arg2 (by decide)).trans <| (W3_of m ρ c main_arg2 (by decide)).trans <| (W2_of_ne m ρ c main_arg2 (by decide)).trans <|
  (W1_of m ρ c main_arg2 (by decide)).trans rfl
theorem W7_main_arg3 (c : Dev nD) : W7 m ρ c (Proc.devRef .tc main_arg3) = m ((c : Thread nD τ).loc main_arg3) :=
  (W7_of m ρ c main_arg3 (by decide)).trans <| (W6_of_ne m ρ c main_arg3 (by decide)).trans <| (W5_of m ρ c main_arg3 (by decide)).trans <|
  (W4_of_ne m ρ c main_arg3 (by decide)).trans <| (W3_of m ρ c main_arg3 (by decide)).trans <| (W2_of_ne m ρ c main_arg3 (by decide)).trans <|
  (W1_of m ρ c main_arg3 (by decide)).trans rfl
theorem W7_main_arg4 (c : Dev nD) : W7 m ρ c (Proc.devRef .tc main_arg4) = m ((c : Thread nD τ).loc main_arg4) :=
  (W7_of m ρ c main_arg4 (by decide)).trans <| (W6_of_ne m ρ c main_arg4 (by decide)).trans <| (W5_of m ρ c main_arg4 (by decide)).trans <|
  (W4_of_ne m ρ c main_arg4 (by decide)).trans <| (W3_of m ρ c main_arg4 (by decide)).trans <| (W2_of_ne m ρ c main_arg4 (by decide)).trans <|
  (W1_of m ρ c main_arg4 (by decide)).trans rfl
theorem W7_main_arg5 (c : Dev nD) : W7 m ρ c (Proc.devRef .tc main_arg5) = m ((c : Thread nD τ).loc main_arg5) :=
  (W7_of m ρ c main_arg5 (by decide)).trans <| (W6_of_ne m ρ c main_arg5 (by decide)).trans <| (W5_of m ρ c main_arg5 (by decide)).trans <|
  (W4_of_ne m ρ c main_arg5 (by decide)).trans <| (W3_of m ρ c main_arg5 (by decide)).trans <| (W2_of_ne m ρ c main_arg5 (by decide)).trans <|
  (W1_of m ρ c main_arg5 (by decide)).trans rfl

/-! ## The proof data family and the thread state -/

/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and a debt of nothing. -/
abbrev R (c : Dev nD) : sProp 𝕄 := iprop((∃ r, prngReg c r) ∗ ∃ W, owes (c : Thread nD τ) (0 : CellTallies nD τ sig Unit) W)
/-- A host stretch as a segment over the unscoped references from the contents W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the debt: every unscoped buffer at the contents at the return, the generator register. -/
abbrev Tₙ (c : Dev nD) : sProp 𝕄 := iprop(StableHlo.held (c : Thread nD τ) (Pipeline.ucRefs τ sig) (W7 m ρ c) ∗ ∃ r, prngReg c r)

set_option backward.isDefEq.respectTransparency.types false in
/-- Region 0 over the thread state: entered from every unscoped buffer at the contents before it, left at those
    after it. Its arrays are split out of the unscoped buffers at entry and put back at the exit contents; the
    generator register goes into the invariant and comes back; nothing is owed. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- Region 1's entry, the arrays' part: every unscoped buffer at the entry contents is the eight windows' arrays at the
    proof data's entry contents, each at its window's share, beside the unscoped buffers no window reads. -/
theorem entry1 (c : Dev nD) :
    (StableHlo.held (c : Thread nD τ) (Pipeline.ucRefs τ sig) (W3 m ρ c) : sProp 𝕄)
      ⊢ iprop((dat1 (V3 m ρ) c).arrays ((dat1 (V3 m ρ) c).arrAt · 0)
          ∗ Pipeline.unscopedRest (Ix := Unit) (Name := ℕ) (U := UR sig nD τ) (Lvl := ℕ) spec1 c (V3 m ρ c)) := by
  have h : (unscopedBufs (Ix := Unit) (Name := ℕ) (U := UR sig nD τ) (Lvl := ℕ) c (V3 m ρ c) : sProp 𝕄)
      ⊢ iprop((dat1 (V3 m ρ) c).arrays ((dat1 (V3 m ρ) c).arrAt · 0)
          ∗ Pipeline.unscopedRest (Ix := Unit) (Name := ℕ) (U := UR sig nD τ) (Lvl := ℕ) spec1 c (V3 m ρ c)) := by
    rw [Pipeline.unscopedBufs_split₀ cfgs 1 winFacts₀1.arr_unscoped c (V3 m ρ c),
      show ((dat1 (V3 m ρ) c).arrAt · 0) = fun w => V3 m ρ c (Pipeline.arrRef spec1 w) from funext fun w => A_eq1 (V3 m ρ) c w]
    exact BIClass.sep_mono (arrays1_of_bufs (V3 m ρ) c (V3 m ρ c)) .rfl
  rw [Pipeline.unscopedBufs_held] at h
  exact h

/-- What region 1's write-backs leave in each window's array is what the exit contents hold there: an input's array
    is never written and keeps its entry contents, the output's is the exit contents' by definition. -/
theorem hF1 (c : Dev nD) : ((dat1 (V3 m ρ) c).arrAt · cfg1.N) = fun w => V4 m ρ c (Pipeline.arrRef spec1 w) := funext fun
  | ⟨0, _⟩ => ((dat1 (V3 m ρ) c).arrAt_in 0 rfl _).trans ((A_eq1 (V3 m ρ) c 0).trans (W4_of_ne m ρ c main_v10 (by decide)).symm)
  | ⟨1, _⟩ => ((dat1 (V3 m ρ) c).arrAt_in 1 rfl _).trans ((A_eq1 (V3 m ρ) c 1).trans (W4_of_ne m ρ c main_v13 (by decide)).symm)
  | ⟨2, _⟩ => ((dat1 (V3 m ρ) c).arrAt_in 2 rfl _).trans ((A_eq1 (V3 m ρ) c 2).trans (W4_of_ne m ρ c main_v16 (by decide)).symm)
  | ⟨3, _⟩ => ((dat1 (V3 m ρ) c).arrAt_in 3 rfl _).trans ((A_eq1 (V3 m ρ) c 3).trans (W4_of_ne m ρ c main_v19 (by decide)).symm)
  | ⟨4, _⟩ => ((dat1 (V3 m ρ) c).arrAt_in 4 rfl _).trans ((A_eq1 (V3 m ρ) c 4).trans (W4_of_ne m ρ c main_v21 (by decide)).symm)
  | ⟨5, _⟩ => ((dat1 (V3 m ρ) c).arrAt_in 5 rfl _).trans ((A_eq1 (V3 m ρ) c 5).trans (W4_of_ne m ρ c main_v19 (by decide)).symm)
  | ⟨6, _⟩ => ((dat1 (V3 m ρ) c).arrAt_in 6 rfl _).trans ((A_eq1 (V3 m ρ) c 6).trans (W4_of_ne m ρ c main_v21 (by decide)).symm)
  | ⟨7, _⟩ => (W4_out m ρ c).symm

/-- Off region 1's arrays the exit contents are the entry contents. -/
theorem hrest1 (c : Dev nD) :
    (Pipeline.unscopedRest (Ix := Unit) (Name := ℕ) (U := UR sig nD τ) (Lvl := ℕ) spec1 c (V4 m ρ c) : sProp 𝕄)
      = Pipeline.unscopedRest spec1 c (V3 m ρ c) := by
  unfold Pipeline.unscopedRest
  exact bigSep_congr fun b hb => by
    rw [show V4 m ρ c b = V3 m ρ c b from W4_of_ne m ρ c b fun e =>
      (Finset.mem_sdiff.mp hb).2 (Finset.mem_image.mpr ⟨7, Finset.mem_univ _, e.symm⟩)]

/-- Region 1's exit, the arrays' part: the eight windows' arrays at their final contents and the untouched rest are
    every unscoped buffer at the exit contents. -/
theorem exit1 (c : Dev nD) :
    iprop((dat1 (V3 m ρ) c).arrays ((dat1 (V3 m ρ) c).arrAt · cfg1.N)
        ∗ Pipeline.unscopedRest (Ix := Unit) (Name := ℕ) (U := UR sig nD τ) (Lvl := ℕ) spec1 c (V3 m ρ c))
      ⊢ (StableHlo.held (c : Thread nD τ) (Pipeline.ucRefs τ sig) (W4 m ρ c) : sProp 𝕄) := by
  have h : iprop((dat1 (V3 m ρ) c).arrays ((dat1 (V3 m ρ) c).arrAt · cfg1.N)
        ∗ Pipeline.unscopedRest (Ix := Unit) (Name := ℕ) (U := UR sig nD τ) (Lvl := ℕ) spec1 c (V3 m ρ c))
      ⊢ (unscopedBufs (Ix := Unit) (Name := ℕ) (U := UR sig nD τ) (Lvl := ℕ) c (V4 m ρ c) : sProp 𝕄) := by
    rw [Pipeline.unscopedBufs_split₀ cfgs 1 winFacts₀1.arr_unscoped c (V4 m ρ c), hF1 m ρ c]
    exact BIClass.sep_mono (bufs_of_arrays1 (V3 m ρ) c (V4 m ρ c)) (Entails.of_eq (hrest1 m ρ c).symm)
  rw [Pipeline.unscopedBufs_held] at h
  exact h

set_option backward.isDefEq.respectTransparency.types false in
/-- Region 1 over the thread state. Two of its arrays are each read through two windows: at entry each such array's
    full share is halved between its two windows, at exit the halves are joined. -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := entry1 m ρ c
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ (iprop((∃ r, prngReg c r) ∗ Pipeline.scopedRest (Ix := Unit) (Name := ℕ) (U := UR sig nD τ) (Lvl := ℕ) spec1 c) : sProp 𝕄) from ?_).trans
      (hin1 (V3 m ρ) c)
    iintro ⟨Hp, -, Hr⟩
    isplitl [Hp]; · iexact Hp
    iexact Hr
  hout c := by
    rw [Pipeline.ownSems0_none]
    refine (hout1 (V3 m ρ) c).trans ?_
    iintro ⟨Hp, Hr⟩
    isplitl [Hp]; · iexact Hp
    isplitr; · iempintro
    iexact Hr
  hexit c := by
    have hjoin := exit1 m ρ c
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at the contents before it, left at those
    after it. Its arrays are split out of the unscoped buffers at entry and put back at the exit contents; the
    generator register goes into the invariant and comes back; nothing is owed. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The main function as segments, and the launch -/

/-- The seven segments in order: a host segment per stretch from its boundary's contents, a region per kernel call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)) ]
/-- The last host segment leaves the last thread state beside the debt of nothing (the same resources, regrouped). -/
theorem chain_end (c : Dev nD) :
    (iprop(StableHlo.held (c : Thread nD τ) (Pipeline.ucRefs τ sig) (W7 m ρ c) ∗ R c) : sProp 𝕄)
      ⊢ iprop(Tₙ m ρ c ∗ ∃ W, owes (c : Thread nD τ) (0 : CellTallies nD τ sig Unit) W) := by
  iintro ⟨Hh, Hr, HO⟩
  isplitl [Hh Hr]
  · isplitl [Hh]; · iexact Hh
    iexact Hr
  iexact HO
/-- The main function is the run of the segments. -/
theorem main_run (c : Dev nD) : main (F := F) c = Pipeline.Seg.run (segs m ρ) := (main_chain c).trans (by chain_rfl)

set_option backward.isDefEq.respectTransparency.types false in
/-- THE RUN: from any memory with zero counters, every weakly fair execution of the main function on the TensorCores
    terminates, nothing faulting, and in every final state each core's every unscoped buffer holds the last boundary's
    contents. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun c => chain_end m ρ c⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h => h)

/-- THE FRAME: every argument array ends holding its launch contents. -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_arg0 (by decide))).trans (W7_main_arg0 m ρ c),
     (h c _ (mem_uc main_arg1 (by decide))).trans (W7_main_arg1 m ρ c),
     (h c _ (mem_uc main_arg2 (by decide))).trans (W7_main_arg2 m ρ c),
     (h c _ (mem_uc main_arg3 (by decide))).trans (W7_main_arg3 m ρ c),
     (h c _ (mem_uc main_arg4 (by decide))).trans (W7_main_arg4 m ρ c),
     (h c _ (mem_uc main_arg5 (by decide))).trans (W7_main_arg5 m ρ c)⟩) (run_all m ρ)

/-- The result buffer at the return: the last host stretch's reshape of what region 2's write-backs leave in its
    output array. -/
theorem W7_main_v30 (c : Dev nD) :
    W7 m ρ c (Proc.devRef .tc main_v30)
      = fun i => shapeCast S2048x4x1280 ((dat2 (V5 m ρ) c).arrAt 3 cfg2.N) shapeCasts_S8192x1280_S2048x4x1280 i := by
  show StableHlo.after hostOps3 (W6 m ρ c) (Proc.devRef .tc main_v30) = _
  after_results
  rw [show W6 m ρ c (Proc.devRef .tc main_v29) = (dat2 (V5 m ρ) c).arrAt 3 cfg2.N from W6_arr m ρ c 3]
  rfl

end Cert.Kernel.Hand

end
-- ==== Proof.KI.Reg0.lean ====
/-
  The class-A half of pallas region 0 (the matmul-plus-bias kernel `cc0__matmul_bias_kernel`), at any float
  interpretation `F` and at a PARAMETER `V`: the TensorCore's buffer contents when the region is entered.

  The kernel body loads its three input windows' staging buffers whole (the row block of the left factor, the
  right factor, the bias row), loads its output window's staging buffer once (a value it never uses), and stores
  one payload over the whole output buffer. So what the body leaves in the output buffer is the canonical contents
  of that one covering store, a closed function of the three input blocks; and an input buffer holds its window's
  block at every point, fetched there or not (where a window is not fetched its block index has not moved).
  From these two facts: the pipeline's proof data and the body obligation at every grid point.
-/
import proofs.«402768_j2499670966342_3_alg».proof.Proof.Gen.KernelIdeal.Launch
import proofs.«402768_j2499670966342_3_alg».proof.Proof.Gen.KernelIdeal.Skeleton
import proofs.«402768_j2499670966342_3_alg».proof.Proof.Gen.KernelIdeal.Points
import Idealize.ShloMosaic.Lib.Pipeline.FrameBody
import Idealize.ShloMosaic.Lib.Ring
import Idealize.ShloMosaic.Lib.Tactic

-- membership in a rectangle of long extents: the structural recursion goes once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0 (the left factor's row block, fetched at every point): its current staging buffer holds its
    block at every point, for ANY proof data whose array is `V`'s (`hA`) and whose body leaves the block in place
    (`hafter`); the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1 (the right factor, fetched at the first point only): the same. Where it is not fetched, its
    block index (constant over the grid) has not moved, and the buffer still holds the block. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2 (the bias row, fetched at the first point only): the same. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer through its whole rectangle -/

abbrev r0_0 : Rect S512x1280 := Rect.unit (s := S512x1280) ![0, 0] S512x1280.size inb_S512x1280_S512x1280_0_0
abbrev r0_1 : Rect S1280x3840 := Rect.unit (s := S1280x3840) ![0, 0] S1280x3840.size inb_S1280x3840_S1280x3840_0_0
abbrev r0_2 : Rect S1x3840 := Rect.unit (s := S1x3840) ![0, 0] S1x3840.size inb_S1x3840_S1x3840_0_0
abbrev r0_3 : Rect S512x3840 := Rect.unit (s := S512x3840) ![0, 0] S512x3840.size inb_S512x3840_S512x3840_0_0

/-! ## What the body leaves in the output window's buffer -/

/-- Window 3's staging buffer after the body, from the three input blocks: its one store as a piece, the payload
    the kernel's matmul-plus-bias of what the three loads read. The payload stays an opaque term here. -/
def out0_3 (x0 : Vec F S512x1280 .f32) (x1 : Vec F S1280x3840 .bf16) (x2 : Vec F S1x3840 .f32) : Vec F S512x3840 .bf16 :=
  View.canon [⟨r0_3, k0_pay1 (View.ld x0 r0_0) (View.ld x1 r0_1) (View.ld x2 r0_2)⟩]

/-- The one store's rectangle is the whole buffer, so it covers it. -/
theorem cover0_3 (p0 : Vec F S512x3840 .bf16) (y : S512x3840.Idx) :
    ∃ pc ∈ ([⟨r0_3, p0⟩] : List (View.Piece (Elt F) S512x3840 .bf16)), y ∈ pc.1.set :=
  View.cover_of_tiled [⟨r0_3, p0⟩] S512x3840.size (by rfl) y

/-! ## The body's triple -/

set_option maxHeartbeats 1000000 in
/-- The kernel body on whole staging memrefs, the inputs' at read contents `x0 x1 x2` and the output's at anything,
    runs to the continuation holding the inputs' as they were and the output's at `out0_3` of the inputs': the three
    loads read the inputs whole, the load of the output buffer reads whatever is there and its value is dropped, and
    the one store over the whole output rectangle leaves the canonical contents of a covering write. -/
theorem sound_kernel0 (c : Dev nD) (E : Set ℕ) (i : grid0.Coords)
    (arg1 : Memref sig .tc .vmem S512x1280 .f32) (harg1 : arg1.IsWhole) (arg2 : Memref sig .tc .vmem S1280x3840 .bf16) (harg2 : arg2.IsWhole)
    (arg3 : Memref sig .tc .vmem S1x3840 .f32) (harg3 : arg3.IsWhole) (arg4 : Memref sig .tc .vmem S512x3840 .bf16) (harg4 : arg4.IsWhole)
    (x0 : Vec F S512x1280 .f32) (x1 : Vec F S1280x3840 .bf16) (x2 : Vec F S1x3840 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__matmul_bias_kernel i arg1 harg1 arg2 harg2 arg3 harg3 arg4 harg4) K := by
  simp only [cc0__matmul_bias_kernel_eq_skeleton]; unfold cc0__matmul_bias_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of pipeline 0 on core `c`: the arrays as the region finds them (`V`); after the body at point
    `t` each input's buffer at its block and the output's at `out0_3` of the three input blocks; the invariant the
    scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the region-entry contents (the definition projected; `V` is never unfolded). -/
theorem A_eq0 (c : Dev nD) (w : Fin cfg0.W) : (dat0 V c).A w = V c (Pipeline.arrRef spec0 w) := by
  dsimp only [dat0]

/-- What the body leaves, window by window (the proof data's match reduced). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t` (the obligation's precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks (`before0_W`), so `sound_kernel0` applies; the
    invariant and the core's debt pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Reg1.lean ====
import proofs.«402768_j2499670966342_3_alg».proof.Proof.Gen.KernelIdeal.Launch
import proofs.«402768_j2499670966342_3_alg».proof.Proof.Gen.KernelIdeal.Skeleton
import proofs.«402768_j2499670966342_3_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

/-! # Region 1 (the attention kernel): the proof data and the body obligation

The grid is 32 x 8: point t is (head pair t / 8, query tile t % 8). At a group's first point (t % 8 = 0) the body
rotates the group's keys by the key tables and keeps them in a scratch buffer; at every point it rotates the query
tile, scores it against the kept keys, normalises and applies the values, and stores the tile whole. The key block
and the two key tables do not move inside a group, so the scratch kept at the group's first point is the rotation
of the blocks at every point of the group: the output block at point t is ONE function of the seven input blocks
at t. The invariant carries the scratch at named contents from a point to the next. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array at the region's entry contents. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The body's accesses: each buffer whole -/

abbrev rQ1 : Rect S2x256x80 := Rect.unit (s := S2x256x80) ![0, 0, 0] S2x256x80.size inb_S2x256x80_S2x256x80_0_0_0
abbrev rK1 : Rect S2x2048x80 := Rect.unit (s := S2x2048x80) ![0, 0, 0] S2x2048x80.size inb_S2x2048x80_S2x2048x80_0_0_0
abbrev rTq1 : Rect S256x80 := Rect.unit (s := S256x80) ![0, 0] S256x80.size inb_S256x80_S256x80_0_0
abbrev rTk1 : Rect S2048x80 := Rect.unit (s := S2048x80) ![0, 0] S2048x80.size inb_S2048x80_S2048x80_0_0

/-! ## What the body leaves -/

/-- The rotated keys: what the body keeps in the scratch at a group's first point, from the key block and the two
    key tables. -/
abbrev scr1 (k : Vec F S2x2048x80 .bf16) (ck sk : Vec F S2048x80 .f32) : Vec F S2x2048x80 .bf16 :=
  k1_pay2 (View.ld k rK1) (View.ld ck rTk1) (View.ld sk rTk1)

/-- The output window's buffer after the body, from the seven input blocks: its one whole store. -/
def out1_7 (q : Vec F S2x256x80 .bf16) (k v : Vec F S2x2048x80 .bf16) (cq sq : Vec F S256x80 .f32) (ck sk : Vec F S2048x80 .f32) :
    Vec F S2x256x80 .bf16 :=
  View.canon [⟨rQ1, k1_pay1 (k1_pay3 (View.ld q rQ1) (View.ld cq rTq1) (View.ld sq rTq1)
    (k1_pay2 (View.ld k rK1) (View.ld ck rTk1) (View.ld sk rTk1)) (View.ld v rK1))⟩]

/-! ## The body on any staging memrefs, case by case -/

theorem hz3 : (![0, 0, 0] : Fin 3 → Nat) = fun _ => 0 := by funext a; fin_cases a <;> rfl

/-- One whole store covers the query-tile block; -/
theorem coverQ1 (p : Vec F S2x256x80 .bf16) (y : S2x256x80.Idx) :
    ∃ pc ∈ ([⟨rQ1, p⟩] : List (View.Piece (Elt F) S2x256x80 .bf16)), y ∈ pc.1.set :=
  ⟨_, List.mem_singleton_self _, View.mem_set_unit_zero hz3 inb_S2x256x80_S2x256x80_0_0_0 y⟩
/-- and one whole store covers the key block. -/
theorem coverK1 (p : Vec F S2x2048x80 .bf16) (y : S2x2048x80.Idx) :
    ∃ pc ∈ ([⟨rK1, p⟩] : List (View.Piece (Elt F) S2x2048x80 .bf16)), y ∈ pc.1.set :=
  ⟨_, List.mem_singleton_self _, View.mem_set_unit_zero hz3 inb_S2x2048x80_S2x2048x80_0_0_0 y⟩

/-- The body's one condition: the query tile is the group's first. -/
abbrev cond1 (i : grid1.Coords) : Prop :=
  (Scalar.cmpi .ne (Scalar.extui (Scalar.cmpi .eq (BitVec.ofNat 32 (i 1).val) 0#32)) 0#32) = 1#1

/-- It holds at the points that are multiples of 8. -/
theorem hcond1 : ∀ t : Fin cfg1.N, cond1 (grid1.coords t) ↔ t.val % 8 = 0 :=
  (by decide +kernel : ∀ t : Fin grid1.N, cond1 (grid1.coords t) ↔ t.val % 8 = 0)

set_option maxHeartbeats 1000000 in
/-- At a group's first point: from the seven inputs' buffers at their contents, the output's and the scratch at
    anything, the body runs to the inputs' as they were, the scratch at the rotated keys and the output at the one
    function of the seven contents (the scratch is stored whole, then read back: the read is the stored payload). -/
theorem sound_kernel_A (c : Dev nD) (E : Set ℕ) (i : grid1.Coords) (hc : cond1 i)
    (arg2 : Memref sig .tc .vmem S2x256x80 .bf16) (harg2 : arg2.IsWhole) (arg3 : Memref sig .tc .vmem S2x2048x80 .bf16) (harg3 : arg3.IsWhole)
    (arg4 : Memref sig .tc .vmem S2x2048x80 .bf16) (harg4 : arg4.IsWhole) (arg5 : Memref sig .tc .vmem S256x80 .f32) (harg5 : arg5.IsWhole)
    (arg6 : Memref sig .tc .vmem S256x80 .f32) (harg6 : arg6.IsWhole) (arg7 : Memref sig .tc .vmem S2048x80 .f32) (harg7 : arg7.IsWhole)
    (arg8 : Memref sig .tc .vmem S2048x80 .f32) (harg8 : arg8.IsWhole) (arg9 : Memref sig .tc .vmem S2x256x80 .bf16) (harg9 : arg9.IsWhole)
    (arg10 : Memref sig .tc .vmem S2x2048x80 .bf16) (harg10 : arg10.IsWhole)
    (xq : Vec F S2x256x80 .bf16) (xk xv : Vec F S2x2048x80 .bf16) (xcq xsq : Vec F S256x80 .f32) (xck xsk : Vec F S2048x80 .f32)
    (K : PUnit → sProp 𝕄) :
    iprop(owns (c : Thread nD τ) arg2 fullShare xq ∗ owns (c : Thread nD τ) arg3 fullShare xk ∗ owns (c : Thread nD τ) arg4 fullShare xv
        ∗ owns (c : Thread nD τ) arg5 fullShare xcq ∗ owns (c : Thread nD τ) arg6 fullShare xsq
        ∗ owns (c : Thread nD τ) arg7 fullShare xck ∗ owns (c : Thread nD τ) arg8 fullShare xsk
        ∗ (∃ d, owns (c : Thread nD τ) arg9 fullShare d) ∗ (∃ d, owns (c : Thread nD τ) arg10 fullShare d)
        ∗ (iprop(owns (c : Thread nD τ) arg2 fullShare xq ∗ owns (c : Thread nD τ) arg3 fullShare xk ∗ owns (c : Thread nD τ) arg4 fullShare xv
            ∗ owns (c : Thread nD τ) arg5 fullShare xcq ∗ owns (c : Thread nD τ) arg6 fullShare xsq
            ∗ owns (c : Thread nD τ) arg7 fullShare xck ∗ owns (c : Thread nD τ) arg8 fullShare xsk
            ∗ owns (c : Thread nD τ) arg9 fullShare (out1_7 xq xk xv xcq xsq xck xsk)
            ∗ owns (c : Thread nD τ) arg10 fullShare (scr1 xk xck xsk)) -∗ K ⟨⟩))
      ⊢ wp frame (wpE (defs₀ (F := F)) Variants.none c none) E
          (cc1__attn_kernel i arg2 harg2 arg3 harg3 arg4 harg4 arg5 harg5 arg6 harg6 arg7 harg7 arg8 harg8 arg9 harg9 arg10 harg10) K := by
  simp only [cc1__attn_kernel_eq_skeleton]; unfold cc1__attn_kernel_skel
  simp only [k1_part1_eq_skeleton]; unfold k1_part1_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩,
    ⟨%d9, %f9, -, H9⟩, ⟨%d10, %f10, -, H10⟩, Hk⟩
  subst hf2 hf3 hf4 hf5 hf6 hf7 hf8
  sl_exec (disch := exact hc)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    sl_unfold_run_names
    refine (View.read_writes_eq_canon _ _ _ (coverQ1 _)).trans ?_
    rw [View.readCov_unit_zero (S := S2x2048x80) _ hz3 inb_S2x2048x80_S2x2048x80_0_0_0]
    rfl
  · iexists _; isplitr
    swap; · iexact H10
    ipureintro
    sl_unfold_run_names
    refine (View.read_writes_eq_canon _ _ _ (coverK1 _)).trans ?_
    exact View.canon_unit_zero hz3 inb_S2x2048x80_S2x2048x80_0_0_0 _

/-- The output block from the query-side blocks and what the scratch holds. -/
def outS1 (q : Vec F S2x256x80 .bf16) (v : Vec F S2x2048x80 .bf16) (cq sq : Vec F S256x80 .f32) (s : Vec F S2x2048x80 .bf16) :
    Vec F S2x256x80 .bf16 :=
  View.canon [⟨rQ1, k1_pay1 (k1_pay3 (View.ld q rQ1) (View.ld cq rTq1) (View.ld sq rTq1) (View.ld s rK1) (View.ld v rK1))⟩]

/-- With the scratch at the rotated keys it is the one function of the seven blocks. -/
theorem outS1_scr (q : Vec F S2x256x80 .bf16) (k v : Vec F S2x2048x80 .bf16) (cq sq : Vec F S256x80 .f32) (ck sk : Vec F S2048x80 .f32) :
    outS1 q v cq sq (scr1 k ck sk) = out1_7 q k v cq sq ck sk := by
  unfold outS1 out1_7
  rw [View.ld_unit_zero (S := S2x2048x80) hz3 inb_S2x2048x80_S2x2048x80_0_0_0 (scr1 k ck sk)]

set_option maxHeartbeats 1000000 in
/-- Inside a group: the same, the scratch read at the contents it is handed and left untouched. -/
theorem sound_kernel_B (c : Dev nD) (E : Set ℕ) (i : grid1.Coords) (hc : ¬cond1 i)
    (arg2 : Memref sig .tc .vmem S2x256x80 .bf16) (harg2 : arg2.IsWhole) (arg3 : Memref sig .tc .vmem S2x2048x80 .bf16) (harg3 : arg3.IsWhole)
    (arg4 : Memref sig .tc .vmem S2x2048x80 .bf16) (harg4 : arg4.IsWhole) (arg5 : Memref sig .tc .vmem S256x80 .f32) (harg5 : arg5.IsWhole)
    (arg6 : Memref sig .tc .vmem S256x80 .f32) (harg6 : arg6.IsWhole) (arg7 : Memref sig .tc .vmem S2048x80 .f32) (harg7 : arg7.IsWhole)
    (arg8 : Memref sig .tc .vmem S2048x80 .f32) (harg8 : arg8.IsWhole) (arg9 : Memref sig .tc .vmem S2x256x80 .bf16) (harg9 : arg9.IsWhole)
    (arg10 : Memref sig .tc .vmem S2x2048x80 .bf16) (harg10 : arg10.IsWhole)
    (xq : Vec F S2x256x80 .bf16) (xk xv : Vec F S2x2048x80 .bf16) (xcq xsq : Vec F S256x80 .f32) (xck xsk : Vec F S2048x80 .f32)
    (xs : Vec F S2x2048x80 .bf16) (K : PUnit → sProp 𝕄) :
    iprop(owns (c : Thread nD τ) arg2 fullShare xq ∗ owns (c : Thread nD τ) arg3 fullShare xk ∗ owns (c : Thread nD τ) arg4 fullShare xv
        ∗ owns (c : Thread nD τ) arg5 fullShare xcq ∗ owns (c : Thread nD τ) arg6 fullShare xsq
        ∗ owns (c : Thread nD τ) arg7 fullShare xck ∗ owns (c : Thread nD τ) arg8 fullShare xsk
        ∗ (∃ d, owns (c : Thread nD τ) arg9 fullShare d) ∗ owns (c : Thread nD τ) arg10 fullShare xs
        ∗ (iprop(owns (c : Thread nD τ) arg2 fullShare xq ∗ owns (c : Thread nD τ) arg3 fullShare xk ∗ owns (c : Thread nD τ) arg4 fullShare xv
            ∗ owns (c : Thread nD τ) arg5 fullShare xcq ∗ owns (c : Thread nD τ) arg6 fullShare xsq
            ∗ owns (c : Thread nD τ) arg7 fullShare xck ∗ owns (c : Thread nD τ) arg8 fullShare xsk
            ∗ owns (c : Thread nD τ) arg9 fullShare (outS1 xq xv xcq xsq xs)
            ∗ owns (c : Thread nD τ) arg10 fullShare xs) -∗ K ⟨⟩))
      ⊢ wp frame (wpE (defs₀ (F := F)) Variants.none c none) E
          (cc1__attn_kernel i arg2 harg2 arg3 harg3 arg4 harg4 arg5 harg5 arg6 harg6 arg7 harg7 arg8 harg8 arg9 harg9 arg10 harg10) K := by
  simp only [cc1__attn_kernel_eq_skeleton]; unfold cc1__attn_kernel_skel
  simp only [k1_part1_eq_skeleton]; unfold k1_part1_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩,
    ⟨%d9, %f9, -, H9⟩, ⟨%f10, %hf10, H10⟩, Hk⟩
  subst hf2 hf3 hf4 hf5 hf6 hf7 hf8 hf10
  sl_exec (disch := exact hc)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    sl_unfold_run_names
    refine (View.read_writes_eq_canon _ _ _ (coverQ1 _)).trans ?_
    rfl
  · iexists f10; isplitr; · ipureintro; rfl
    iexact H10

/-! ## The invariant -/

/-- The scratch operand: a whole scoped buffer of the kernel's own. -/
abbrev scM1 : Memref sig .tc .vmem S2x2048x80 .bf16 := Memref.whole cc1_scratch0

/-- The core's scoped buffers that are neither a staging buffer of this region nor the scratch, each whole at
    some contents. -/
def rest1 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg3_1), ((c : Thread nD τ).loc cc0_stg3_1) ↦{fullShare} f)
    ∗ (∃ f : Buf (Elt F) ((c : Thread nD τ).loc cc2_stg0_0), ((c : Thread nD τ).loc cc2_stg0_0) ↦{fullShare} f)
    ∗ (∃ f : Buf (Elt F) ((c : Thread nD τ).loc cc2_stg0_1), ((c : Thread nD τ).loc cc2_stg0_1) ↦{fullShare} f)
    ∗ (∃ f : Buf (Elt F) ((c : Thread nD τ).loc cc2_stg1_0), ((c : Thread nD τ).loc cc2_stg1_0) ↦{fullShare} f)
    ∗ (∃ f : Buf (Elt F) ((c : Thread nD τ).loc cc2_stg2_0), ((c : Thread nD τ).loc cc2_stg2_0) ↦{fullShare} f)
    ∗ (∃ f : Buf (Elt F) ((c : Thread nD τ).loc cc2_stg3_0), ((c : Thread nD τ).loc cc2_stg3_0) ↦{fullShare} f)
    ∗ (∃ f : Buf (Elt F) ((c : Thread nD τ).loc cc2_stg3_1), ((c : Thread nD τ).loc cc2_stg3_1) ↦{fullShare} f))

/-- The invariant before position n (after point n - 1): the generator register at some state, the other scoped
    buffers at anything, and the scratch whole at contents that, inside a group (n not a multiple of 8), are the
    rotated keys of the blocks at the point before. -/
def Phi1 (c : Dev nD) (n : ℕ) : sProp 𝕄 :=
  iprop((∃ r, prngReg c r) ∗ rest1 (F := F) c
    ∗ ∃ f : Vec F S2x2048x80 .bf16, ⌜∀ (_ : n % 8 ≠ 0) (hlt : n - 1 < cfg1.N),
          f = scr1 (iblk1 V c 1 ⟨n - 1, hlt⟩) (iblk1 V c 5 ⟨n - 1, hlt⟩) (iblk1 V c 6 ⟨n - 1, hlt⟩)⌝
        ∗ owns (c : Thread nD τ) scM1 fullShare f)

/-! ## The proof data -/

/-- The proof data of region 1 on core c: the arrays at the entry contents; after the body at point t each input's
    buffer at its block and the output's at the one function of the seven input blocks at t; the invariant with the
    scratch tracked; the two arrays that two windows read held at a half share by each of the two; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1_7 (iblk1 V c 0 t) (iblk1 V c 1 t) (iblk1 V c 2 t) (iblk1 V c 3 t) (iblk1 V c 4 t) (iblk1 V c 5 t) (iblk1 V c 6 t)
  Φ t := Phi1 V c t.val
  q w := match w with
    | ⟨0, _⟩ => fullShare
    | ⟨1, _⟩ => fullShare
    | ⟨2, _⟩ => fullShare
    | ⟨3, _⟩ => fullShare.left
    | ⟨4, _⟩ => fullShare.left
    | ⟨5, _⟩ => fullShare.right
    | ⟨6, _⟩ => fullShare.right
    | ⟨7, _⟩ => fullShare
  owed _ := 0

/-- The proof data's arrays are the entry contents. -/
theorem A_eq1 (c : Dev nD) (w : Fin cfg1.W) : (dat1 V c).A w = V c (Pipeline.arrRef spec1 w) := by
  dsimp only [dat1]

theorem q1_0 (c : Dev nD) : (dat1 V c).q 0 = fullShare := by dsimp only [dat1]
theorem q1_1 (c : Dev nD) : (dat1 V c).q 1 = fullShare := by dsimp only [dat1]
theorem q1_2 (c : Dev nD) : (dat1 V c).q 2 = fullShare := by dsimp only [dat1]
theorem q1_3 (c : Dev nD) : (dat1 V c).q 3 = fullShare.left := by dsimp only [dat1]
theorem q1_4 (c : Dev nD) : (dat1 V c).q 4 = fullShare.left := by dsimp only [dat1]
theorem q1_5 (c : Dev nD) : (dat1 V c).q 5 = fullShare.right := by dsimp only [dat1]
theorem q1_6 (c : Dev nD) : (dat1 V c).q 6 = fullShare.right := by dsimp only [dat1]
theorem q1_7 (c : Dev nD) : (dat1 V c).q 7 = fullShare := by dsimp only [dat1]

theorem Phi1_eq (c : Dev nD) (t : Fin (cfg1.N + 1)) : (dat1 V c).Φ t = Phi1 V c t.val := by dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t
    = out1_7 (iblk1 V c 0 t) (iblk1 V c 1 t) (iblk1 V c 2 t) (iblk1 V c 3 t) (iblk1 V c 4 t) (iblk1 V c 5 t) (iblk1 V c 6 t) := by
  dsimp only [dat1]

/-- Each input's current staging buffer holds its block at every point, fetched there or not. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl)
    (fun t => by rw [after1_4]; unfold Dat.blockOf iblk1; rw [A_eq1]; try rfl) t d).trans
    (by unfold Dat.fetched Dat.blockOf iblk1; rw [A_eq1]; try rfl)
theorem before1_5 (c : Dev nD) (t : Fin cfg1.N) (d) : (dat1 V c).before 5 t d = iblk1 V c 5 t :=
  ((dat1 V c).before_in_eq_fetched 5 rfl (fun _ => rfl) (fun _ _ _ => rfl)
    (fun t => by rw [after1_5]; unfold Dat.blockOf iblk1; rw [A_eq1]; try rfl) t d).trans
    (by unfold Dat.fetched Dat.blockOf iblk1; rw [A_eq1]; try rfl)
theorem before1_6 (c : Dev nD) (t : Fin cfg1.N) (d) : (dat1 V c).before 6 t d = iblk1 V c 6 t :=
  ((dat1 V c).before_in_eq_fetched 6 rfl (fun _ => rfl) (fun _ _ _ => rfl)
    (fun t => by rw [after1_6]; unfold Dat.blockOf iblk1; rw [A_eq1]; try rfl) t d).trans
    (by unfold Dat.fetched Dat.blockOf iblk1; rw [A_eq1]; try rfl)
/-- The output's staging buffer is fresh at every point: the block is written back at every point. -/
theorem before1_7 (c : Dev nD) (t : Fin cfg1.N) (d) : (dat1 V c).before 7 t d = d :=
  (dat1 V c).before_out_reset 7 rfl t
    (by by_cases h0 : t.val = 0
        · exact .inl h0
        · exact .inr ⟨h0, flush1_7 _⟩) d

/-! ## The region's ends -/

/-- What the launch hands the region is the invariant before the first point. -/
theorem hin1 (c : Dev nD) : (iprop((∃ r, prngReg c r) ∗ Pipeline.scopedRest spec1 c) : sProp 𝕄) ⊢ (dat1 V c).Φ 0 := by
  rw [Phi1_eq, scopedRest1_eq]
  unfold Phi1 rest1
  simp only [scM1, owns_whole]
  iintro ⟨Hg, H1, H2, H3, H4, H5, H6, ⟨%fs, HS⟩, H8, H9, H10, H11, H12, H13⟩
  isplitl [Hg]; · iexact Hg
  isplitl [H1 H2 H3 H4 H5 H6 H8 H9 H10 H11 H12 H13]
  · isplitl [H1]; · iexact H1
    isplitl [H2]; · iexact H2
    isplitl [H3]; · iexact H3
    isplitl [H4]; · iexact H4
    isplitl [H5]; · iexact H5
    isplitl [H6]; · iexact H6
    isplitl [H8]; · iexact H8
    isplitl [H9]; · iexact H9
    isplitl [H10]; · iexact H10
    isplitl [H11]; · iexact H11
    isplitl [H12]; · iexact H12
    iexact H13
  iexists fs; isplitr
  · ipureintro; intro h0; exact absurd (Nat.zero_mod 8) h0
  · iexact HS

/-- The invariant after the last point gives it back: the scratch's named contents are forgotten. -/
theorem hout1 (c : Dev nD) : (dat1 V c).Φ (Fin.last _) ⊢ (iprop((∃ r, prngReg c r) ∗ Pipeline.scopedRest spec1 c) : sProp 𝕄) := by
  rw [Phi1_eq, scopedRest1_eq]
  unfold Phi1 rest1
  simp only [scM1, owns_whole]
  iintro ⟨Hg, ⟨H1, H2, H3, H4, H5, H6, H8, H9, H10, H11, H12, H13⟩, ⟨%fs, -, HS⟩⟩
  isplitl [Hg]; · iexact Hg
  isplitl [H1]; · iexact H1
  isplitl [H2]; · iexact H2
  isplitl [H3]; · iexact H3
  isplitl [H4]; · iexact H4
  isplitl [H5]; · iexact H5
  isplitl [H6]; · iexact H6
  isplitl [HS]; · iexists fs; iexact HS
  isplitl [H8]; · iexact H8
  isplitl [H9]; · iexact H9
  isplitl [H10]; · iexact H10
  isplitl [H11]; · iexact H11
  isplitl [H12]; · iexact H12
  iexact H13

/-! ## Inside a group the key block and the key tables do not move -/

theorem fetched1_1 (c : Dev nD) (t : Fin cfg1.N) (d) : (dat1 V c).fetched 1 t d = iblk1 V c 1 t := by
  unfold Dat.fetched Dat.blockOf iblk1; rw [A_eq1]; try rfl
theorem fetched1_5 (c : Dev nD) (t : Fin cfg1.N) (d) : (dat1 V c).fetched 5 t d = iblk1 V c 5 t := by
  unfold Dat.fetched Dat.blockOf iblk1; rw [A_eq1]; try rfl
theorem fetched1_6 (c : Dev nD) (t : Fin cfg1.N) (d) : (dat1 V c).fetched 6 t d = iblk1 V c 6 t := by
  unfold Dat.fetched Dat.blockOf iblk1; rw [A_eq1]; try rfl

/-- A window not fetched at a point has there the block index of the point before. -/
theorem index1_1_pred (t : Fin cfg1.N) (h : t.val % 8 ≠ 0) :
    (cfg1.win 1).index t = (cfg1.win 1).index ⟨t.val - 1, Nat.lt_of_le_of_lt (Nat.sub_le _ _) t.isLt⟩ :=
  ((cfg1.win 1).index_eq_of_fetch rfl t (by
    cases hf : (cfg1.win 1).fetch t with
    | false => rfl
    | true => exact absurd ((fetch1_1 t).mp hf) h)).2
theorem index1_5_pred (t : Fin cfg1.N) (h : t.val % 8 ≠ 0) :
    (cfg1.win 5).index t = (cfg1.win 5).index ⟨t.val - 1, Nat.lt_of_le_of_lt (Nat.sub_le _ _) t.isLt⟩ :=
  ((cfg1.win 5).index_eq_of_fetch rfl t (by
    cases hf : (cfg1.win 5).fetch t with
    | false => rfl
    | true => exact absurd ((fetch1_5 t).mp hf) (by omega))).2
theorem index1_6_pred (t : Fin cfg1.N) (h : t.val % 8 ≠ 0) :
    (cfg1.win 6).index t = (cfg1.win 6).index ⟨t.val - 1, Nat.lt_of_le_of_lt (Nat.sub_le _ _) t.isLt⟩ :=
  ((cfg1.win 6).index_eq_of_fetch rfl t (by
    cases hf : (cfg1.win 6).fetch t with
    | false => rfl
    | true => exact absurd ((fetch1_6 t).mp hf) (by omega))).2

/-- So the rotated keys of the blocks at the point before are those of the blocks at the point. -/
theorem scr1_pred (c : Dev nD) (t : Fin cfg1.N) (h : t.val % 8 ≠ 0) (hlt : t.val - 1 < cfg1.N) :
    scr1 (iblk1 V c 1 ⟨t.val - 1, hlt⟩) (iblk1 V c 5 ⟨t.val - 1, hlt⟩) (iblk1 V c 6 ⟨t.val - 1, hlt⟩)
      = scr1 (iblk1 V c 1 t) (iblk1 V c 5 t) (iblk1 V c 6 t) := by
  have e1 : iblk1 V c 1 ⟨t.val - 1, hlt⟩ = iblk1 V c 1 t :=
    ((fetched1_1 V c _ (iblk1 V c 1 t)).symm.trans (((dat1 V c).fetched_congr 1 (index1_1_pred t h) rfl (iblk1 V c 1 t)).symm)).trans
      (fetched1_1 V c t (iblk1 V c 1 t))
  have e5 : iblk1 V c 5 ⟨t.val - 1, hlt⟩ = iblk1 V c 5 t :=
    ((fetched1_5 V c _ (iblk1 V c 5 t)).symm.trans (((dat1 V c).fetched_congr 5 (index1_5_pred t h) rfl (iblk1 V c 5 t)).symm)).trans
      (fetched1_5 V c t (iblk1 V c 5 t))
  have e6 : iblk1 V c 6 ⟨t.val - 1, hlt⟩ = iblk1 V c 6 t :=
    ((fetched1_6 V c _ (iblk1 V c 6 t)).symm.trans (((dat1 V c).fetched_congr 6 (index1_6_pred t h) rfl (iblk1 V c 6 t)).symm)).trans
      (fetched1_6 V c t (iblk1 V c 6 t))
  rw [e1, e5, e6]

/-! ## The body obligation, at a generic point -/

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

set_option maxHeartbeats 1000000 in
/-- The body at any point: the inputs' buffers hold their blocks; at a group's first point the scratch is at anything
    and is left at the rotated keys of the blocks there; inside a group it is at the rotated keys of the blocks at the
    point before, which are the blocks at the point, and is left as it was; in both the output is left at the one
    function of the seven blocks. The generator register, the other scoped buffers and the core's tallies pass through. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).owesAt () t.succ = (dat1 V c).owesAt () t.castSucc from rfl,
    after1_0, after1_1, after1_2, after1_3, after1_4, after1_5, after1_6, after1_7, Phi1_eq, Phi1_eq]
  simp only [Fin.coe_castSucc, Fin.val_succ]
  unfold Phi1
  by_cases h0 : t.val % 8 = 0
  · iintro ⟨⟨Hg, Hr, ⟨%fs, -, HS⟩⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (sound_kernel_A c Set.univ _ ((hcond1 t).mpr h0) _ _ _ _ _ _ _ _ _ _ _ _ _ _ _ _ _ _
      (iblk1 V c 0 t) (iblk1 V c 1 t) (iblk1 V c 2 t) (iblk1 V c 3 t) (iblk1 V c 4 t) (iblk1 V c 5 t) (iblk1 V c 6 t) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HS]; · iexists _; iexact HS
    iintro ⟨H0, H1, H2, H3, H4, H5, H6, H7, HS⟩
    isplitl [Hg Hr HS]
    · isplitl [Hg]; · iexact Hg
      isplitl [Hr]; · iexact Hr
      iexists _; isplitr
      swap; · iexact HS
      ipureintro; intro _ hlt; rfl
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · rw [← outS1_scr]
    iintro ⟨⟨Hg, Hr, ⟨%fs, %hfs, HS⟩⟩, Ho, ⟨%d0, H0⟩, ⟨%d1, H1⟩, ⟨%d2, H2⟩, ⟨%d3, H3⟩, ⟨%d4, H4⟩, ⟨%d5, H5⟩, ⟨%d6, H6⟩, ⟨%d7, H7⟩⟩
    have hlt : t.val - 1 < cfg1.N := Nat.lt_of_le_of_lt (Nat.sub_le _ _) t.isLt
    have hfs' : fs = scr1 (iblk1 V c 1 t) (iblk1 V c 5 t) (iblk1 V c 6 t) := (hfs h0 hlt).trans (scr1_pred V c t h0 hlt)
    subst hfs'
    iapply (sound_kernel_B c Set.univ _ (fun h => h0 ((hcond1 t).mp h)) _ _ _ _ _ _ _ _ _ _ _ _ _ _ _ _ _ _
      (iblk1 V c 0 t) (iblk1 V c 1 t) (iblk1 V c 2 t) (iblk1 V c 3 t) (iblk1 V c 4 t) (iblk1 V c 5 t) (iblk1 V c 6 t)
      (scr1 (iblk1 V c 1 t) (iblk1 V c 5 t) (iblk1 V c 6 t)) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HS]; · iexact HS
    iintro ⟨H0, H1, H2, H3, H4, H5, H6, H7, HS⟩
    isplitl [Hg Hr HS]
    · isplitl [Hg]; · iexact Hg
      isplitl [Hr]; · iexact Hr
      iexists _; isplitr
      swap; · iexact HS
      ipureintro; intro _ hlt'; rfl
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Reg2.lean ====
/-
  The class-A half of pallas region 2 (the matmul-plus-bias kernel `cc2__matmul_bias_kernel`), at any float
  interpretation `F` and at a PARAMETER `V`: the TensorCore's buffer contents when the region is entered.

  The kernel body loads its three input windows' staging buffers whole (the row block of the left factor, the
  right factor, the bias row), loads its output window's staging buffer once (a value it never uses), and stores
  one payload over the whole output buffer. So what the body leaves in the output buffer is the canonical contents
  of that one covering store, a closed function of the three input blocks; and an input buffer holds its window's
  block at every point, fetched there or not (where a window is not fetched its block index has not moved).
  From these two facts: the pipeline's proof data and the body obligation at every grid point.
-/
import proofs.«402768_j2499670966342_3_alg».proof.Proof.Gen.KernelIdeal.Launch
import proofs.«402768_j2499670966342_3_alg».proof.Proof.Gen.KernelIdeal.Skeleton
import proofs.«402768_j2499670966342_3_alg».proof.Proof.Gen.KernelIdeal.Points
import Idealize.ShloMosaic.Lib.Pipeline.FrameBody
import Idealize.ShloMosaic.Lib.Ring
import Idealize.ShloMosaic.Lib.Tactic

-- membership in a rectangle of long extents: the structural recursion goes once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0 (the left factor's row block, fetched at every point): its current staging buffer holds its
    block at every point, for ANY proof data whose array is `V`'s (`hA`) and whose body leaves the block in place
    (`hafter`); the window is uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1 (the right factor, fetched at the first point only): the same. Where it is not fetched, its
    block index (constant over the grid) has not moved, and the buffer still holds the block. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2 (the bias row, fetched at the first point only): the same. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each buffer through its whole rectangle -/

abbrev r2_0 : Rect S512x1280 := Rect.unit (s := S512x1280) ![0, 0] S512x1280.size inb_S512x1280_S512x1280_0_0
abbrev r2_1 : Rect S1280x1280 := Rect.unit (s := S1280x1280) ![0, 0] S1280x1280.size inb_S1280x1280_S1280x1280_0_0
abbrev r2_2 : Rect S1x1280 := Rect.unit (s := S1x1280) ![0, 0] S1x1280.size inb_S1x1280_S1x1280_0_0
abbrev r2_3 : Rect S512x1280 := Rect.unit (s := S512x1280) ![0, 0] S512x1280.size inb_S512x1280_S512x1280_0_0

/-! ## What the body leaves in the output window's buffer -/

/-- Window 3's staging buffer after the body, from the three input blocks: its one store as a piece, the payload
    the kernel's matmul-plus-bias of what the three loads read. The payload stays an opaque term here. -/
def out2_3 (x0 : Vec F S512x1280 .bf16) (x1 : Vec F S1280x1280 .bf16) (x2 : Vec F S1x1280 .f32) : Vec F S512x1280 .f32 :=
  View.canon [⟨r2_3, k2_pay1 (View.ld x0 r2_0) (View.ld x1 r2_1) (View.ld x2 r2_2)⟩]

/-- The one store's rectangle is the whole buffer, so it covers it. -/
theorem cover2_3 (p0 : Vec F S512x1280 .f32) (y : S512x1280.Idx) :
    ∃ pc ∈ ([⟨r2_3, p0⟩] : List (View.Piece (Elt F) S512x1280 .f32)), y ∈ pc.1.set :=
  View.cover_of_tiled [⟨r2_3, p0⟩] S512x1280.size (by rfl) y

/-! ## The body's triple -/

set_option maxHeartbeats 1000000 in
/-- The kernel body on whole staging memrefs, the inputs' at read contents `x0 x1 x2` and the output's at anything,
    runs to the continuation holding the inputs' as they were and the output's at `out2_3` of the inputs': the three
    loads read the inputs whole, the load of the output buffer reads whatever is there and its value is dropped, and
    the one store over the whole output rectangle leaves the canonical contents of a covering write. -/
theorem sound_kernel2 (c : Dev nD) (E : Set ℕ) (i : grid2.Coords)
    (arg1 : Memref sig .tc .vmem S512x1280 .bf16) (harg1 : arg1.IsWhole) (arg2 : Memref sig .tc .vmem S1280x1280 .bf16) (harg2 : arg2.IsWhole)
    (arg3 : Memref sig .tc .vmem S1x1280 .f32) (harg3 : arg3.IsWhole) (arg4 : Memref sig .tc .vmem S512x1280 .f32) (harg4 : arg4.IsWhole)
    (x0 : Vec F S512x1280 .bf16) (x1 : Vec F S1280x1280 .bf16) (x2 : Vec F S1x1280 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2)) -∗ K ⟨⟩))
      ⊢ wp frame (wpE (defs₀ (F := F)) Variants.none c none) E (cc2__matmul_bias_kernel i arg1 harg1 arg2 harg2 arg3 harg3 arg4 harg4) K := by
  simp only [cc2__matmul_bias_kernel_eq_skeleton]; unfold cc2__matmul_bias_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-! ## The pipeline's proof data -/

/-- The proof data of pipeline 2 on core `c`: the arrays as the region finds them (`V`); after the body at point
    `t` each input's buffer at its block and the output's at `out2_3` of the three input blocks; the invariant the
    scoped rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

/-- The proof data's arrays are the region-entry contents (the definition projected; `V` is never unfolded). -/
theorem A_eq2 (c : Dev nD) (w : Fin cfg2.W) : (dat2 V c).A w = V c (Pipeline.arrRef spec2 w) := by
  dsimp only [dat2]

/-- What the body leaves, window by window (the proof data's match reduced). -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

/-- What the body is called with at point `t` (the obligation's precondition, the windows one by one), -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' memrefs hold their blocks (`before2_W`), so `sound_kernel2` applies; the
    invariant and the core's debt pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.Run.lean ====
/-
  THE RUN of the three-region main function, at any float interpretation F.

  The main function is seven segments: a stretch of host operations, pallas region 0 (matmul plus bias), a host
  stretch, region 1 (attention), a host stretch, region 2 (matmul plus bias), a last host stretch. This module
  names each core's buffer contents at the eight boundaries between them as a fold from the launch memory
  (W0 ... W7): a host stretch rewrites the buffers its operations write; a region rewrites its output array with
  what its write-backs leave and nothing else. Each region's proof data is taken at its entry contents. Every
  segment is then stated over one thread state -- every unscoped buffer whole at the boundary's contents, the
  generator register, a debt of nothing -- and the launch theorem for a list of segments gives: every weakly fair
  execution terminates and ends with every unscoped buffer at W7. The frame (the six arguments end as launched)
  and the result buffer's contents are read off W7.

  Region 1 reads one array through two windows, twice (the cosine table through windows 3 and 5, the sine table
  through windows 4 and 6). Its arrays are therefore six buffers behind eight windows: at entry each shared
  buffer's full share is halved between its two windows, and at exit the two halves, which hold the same
  contents, are joined again.
-/
import proofs.«402768_j2499670966342_3_alg».proof.Proof.KI.Reg0
import proofs.«402768_j2499670966342_3_alg».proof.Proof.KI.Reg1
import proofs.«402768_j2499670966342_3_alg».proof.Proof.KI.Reg2
import proofs.«402768_j2499670966342_3_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 1's arrays: six buffers behind eight windows -/

section Arrays1
variable (V : (c : Dev nD) → (b : Ref sig .tc) → Buf (Elt F) ((c : Thread nD τ).loc b))

/-- The share region 1's proof data holds each window's array at: an output's and an unshared input's whole, each
    of the two windows on a shared array one half. -/
theorem share1_0 (c : Dev nD) : (dat1 V c).share 0 = fullShare := (if_neg (by decide)).trans (q1_0 V c)
theorem share1_1 (c : Dev nD) : (dat1 V c).share 1 = fullShare := (if_neg (by decide)).trans (q1_1 V c)
theorem share1_2 (c : Dev nD) : (dat1 V c).share 2 = fullShare := (if_neg (by decide)).trans (q1_2 V c)
theorem share1_3 (c : Dev nD) : (dat1 V c).share 3 = fullShare.left := (if_neg (by decide)).trans (q1_3 V c)
theorem share1_4 (c : Dev nD) : (dat1 V c).share 4 = fullShare.left := (if_neg (by decide)).trans (q1_4 V c)
theorem share1_5 (c : Dev nD) : (dat1 V c).share 5 = fullShare.right := (if_neg (by decide)).trans (q1_5 V c)
theorem share1_6 (c : Dev nD) : (dat1 V c).share 6 = fullShare.right := (if_neg (by decide)).trans (q1_6 V c)
theorem share1_7 (c : Dev nD) : (dat1 V c).share 7 = fullShare := if_pos (by decide)

/-- The eight windows' arrays, each a whole buffer, window by window. -/
theorem arrays1_eq (c : Dev nD) (Fw : (w : Fin cfg1.W) → Buf (Elt F) ((cfg1.win w).arr.view.loc (c.tc : Thread nD τ))) :
    ((dat1 V c).arrays Fw : sProp 𝕄)
      = bigSep Finset.univ fun w : Fin 8 => (((c.tc : Thread nD τ).loc (Pipeline.arrRef spec1 w)) ↦{(dat1 V c).share w} Fw w : sProp 𝕄) := by
  unfold Pipeline.Dat.arrays
  exact bigSep_congr fun w _ => by rw [(arr_whole1 w).set_eq_univ]

/-- The six distinct buffers behind them, one by one. -/
theorem arrBufs1_eq (c : Dev nD) (G : (b : Ref sig .tc) → Buf (Elt F) ((c.tc : Thread nD τ).loc b)) :
    (Pipeline.arrBufs (Ix := Unit) (Name := ℕ) (U := UR sig nD τ) (Lvl := ℕ) spec1 c G : sProp 𝕄)
      = iprop((((c.tc : Thread nD τ).loc main_v10) ↦{fullShare} G main_v10) ∗ (((c.tc : Thread nD τ).loc main_v13) ↦{fullShare} G main_v13)
          ∗ (((c.tc : Thread nD τ).loc main_v16) ↦{fullShare} G main_v16) ∗ (((c.tc : Thread nD τ).loc main_v19) ↦{fullShare} G main_v19)
          ∗ (((c.tc : Thread nD τ).loc main_v21) ↦{fullShare} G main_v21) ∗ (((c.tc : Thread nD τ).loc main_v22) ↦{fullShare} G main_v22)) := by
  unfold Pipeline.arrBufs
  exact bigSep_eq_bigSepL_of_eq [main_v10, main_v13, main_v16, main_v19, main_v21, main_v22] (by decide) (by decide)
    fun b => (((c.tc : Thread nD τ).loc b) ↦{fullShare} G b : sProp 𝕄)
end Arrays1

section Arrays1Split
variable (V : (c : Dev nD) → (b : Ref sig .tc) → Buf (Elt F) ((c : Thread nD τ).loc b))

set_option maxHeartbeats 400000 in
/-- ENTRY. The six buffers, each whole at the full share at contents G, are the eight windows' arrays at the contents
    G has behind each: the cosine table's and the sine table's full shares are each halved between the two windows
    that read it (a share is the composite of its two halves). -/
theorem arrays1_of_bufs (c : Dev nD) (G : (b : Ref sig .tc) → Buf (Elt F) ((c.tc : Thread nD τ).loc b)) :
    (Pipeline.arrBufs (Ix := Unit) (Name := ℕ) (U := UR sig nD τ) (Lvl := ℕ) spec1 c G : sProp 𝕄)
      ⊢ (dat1 V c).arrays (fun w => G (Pipeline.arrRef spec1 w)) := by
  rw [arrBufs1_eq, arrays1_eq, bigSep_W1]
  rw [share1_0, share1_1, share1_2, share1_3, share1_4, share1_5, share1_6, share1_7]
  iintro ⟨H10, H13, H16, H19, H21, H22⟩
  ihave H19' := (pointsTo_share (ℓ := (c.tc : Thread nD τ).loc main_v19) (I := Finset.univ) (f := G main_v19)
    (PosShare.mem_left_op_right fullShare)).1 $$ H19
  icases H19' with ⟨H19l, H19r⟩
  ihave H21' := (pointsTo_share (ℓ := (c.tc : Thread nD τ).loc main_v21) (I := Finset.univ) (f := G main_v21)
    (PosShare.mem_left_op_right fullShare)).1 $$ H21
  icases H21' with ⟨H21l, H21r⟩
  isplitl [H10]; · iexact H10
  isplitl [H13]; · iexact H13
  isplitl [H16]; · iexact H16
  isplitl [H19l]; · iexact H19l
  isplitl [H21l]; · iexact H21l
  isplitl [H19r]; · iexact H19r
  isplitl [H21r]; · iexact H21r
  iexact H22

set_option maxHeartbeats 400000 in
/-- EXIT. Conversely: the two windows on a shared array hold it at the same contents, one half share each, and the
    halves compose to the full share. -/
theorem bufs_of_arrays1 (c : Dev nD) (G : (b : Ref sig .tc) → Buf (Elt F) ((c.tc : Thread nD τ).loc b)) :
    ((dat1 V c).arrays (fun w => G (Pipeline.arrRef spec1 w)) : sProp 𝕄)
      ⊢ Pipeline.arrBufs (Ix := Unit) (Name := ℕ) (U := UR sig nD τ) (Lvl := ℕ) spec1 c G := by
  rw [arrBufs1_eq, arrays1_eq, bigSep_W1]
  rw [share1_0, share1_1, share1_2, share1_3, share1_4, share1_5, share1_6, share1_7]
  iintro ⟨H10, H13, H16, H19l, H21l, H19r, H21r, H22⟩
  isplitl [H10]; · iexact H10
  isplitl [H13]; · iexact H13
  isplitl [H16]; · iexact H16
  isplitl [H19l H19r]
  · iapply (pointsTo_share (ℓ := (c.tc : Thread nD τ).loc main_v19) (I := Finset.univ) (f := G main_v19)
      (PosShare.mem_left_op_right fullShare)).2
    isplitl [H19l]; · iexact H19l
    iexact H19r
  isplitl [H21l H21r]
  · iapply (pointsTo_share (ℓ := (c.tc : Thread nD τ).loc main_v21) (I := Finset.univ) (f := G main_v21)
      (PosShare.mem_left_op_right fullShare)).2
    isplitl [H21l]; · iexact H21l
    iexact H21r
  iexact H22
end Arrays1Split

variable (m : (ℓ : Loc nD τ sig) → Buf (Elt F) ℓ) (ρ : Dev nD → PrngReg)

/-! # The buffer contents at each boundary of the main function: a fold from the launch memory -/

/-- Core `c`'s buffers at launch. -/
abbrev W0 : Dev nD → Valuation τ sig (Elt F) := fun c b => (s₀ m ρ).mem ((c : Dev nD), b)
/-- After the first host stretch (region 0's entry). -/
abbrev W1 : Dev nD → Valuation τ sig (Elt F) := fun c => StableHlo.after hostOps0 (W0 m ρ c)
/-- The same read at the TensorCore's references. -/
abbrev V1 : (c : Dev nD) → (b : Ref sig .tc) → Buf (Elt F) ((c : Thread nD τ).loc b) := fun c b => W1 m ρ c b
/-- At region 0's exit: its arrays at what the write-backs leave, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch (region 1's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At region 1's exit: the one array it writes at what its write-backs leave; every other buffer, its seven input
    windows' arrays among them, as entered. -/
def W4 (c : Dev nD) : Valuation τ sig (Elt F) :=
  Function.update (W3 m ρ c) (Proc.devRef .tc main_v22) ((dat1 (V3 m ρ) c).arrAt 7 cfg1.N)
theorem W4_out (c : Dev nD) : W4 m ρ c (Proc.devRef .tc main_v22) = (dat1 (V3 m ρ) c).arrAt 7 cfg1.N := by
  unfold W4; exact Function.update_self ..
theorem W4_of_ne (c : Dev nD) (b : Ref sig .tc) (hb : b ≠ main_v22) :
    W4 m ρ c (Proc.devRef .tc b) = W3 m ρ c (Proc.devRef .tc b) := by
  unfold W4; exact Function.update_of_ne (StableHlo.devRef_ne_of_ne hb) ..
abbrev V4 : (c : Dev nD) → (b : Ref sig .tc) → Buf (Elt F) ((c : Thread nD τ).loc b) := fun c b => W4 m ρ c b

/-- After the third host stretch (region 2's entry). -/
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b
/-- At region 2's exit. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- After the last host stretch: the contents at the return. -/
abbrev W7 : Dev nD → Valuation τ sig (Elt F) := fun c => StableHlo.after hostOps3 (W6 m ρ c)

/-! ## What a host stretch leaves alone; the arguments end as launched -/

theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W5_of (c : Dev nD) (r : Ref sig .tc) (h : r ∉ hostOps2_W) : W5 m ρ c (Proc.devRef .tc r) = W4 m ρ c (Proc.devRef .tc r) :=
  StableHlo.after_of_writes_sub hostOps2 _ hostOps2_writes h
theorem W7_of (c : Dev nD) (r : Ref sig .tc) (h : r ∉ hostOps3_W) : W7 m ρ c (Proc.devRef .tc r) = W6 m ρ c (Proc.devRef .tc r) :=
  StableHlo.after_of_writes_sub hostOps3 _ hostOps3_writes h

/- No host stretch writes an argument and no region has one among its windows' arrays: the fold at an argument's
   buffer walks back to the launch memory. -/
theorem W7_main_arg0 (c : Dev nD) : W7 m ρ c (Proc.devRef .tc main_arg0) = m ((c : Thread nD τ).loc main_arg0) :=
  (W7_of m ρ c main_arg0 (by decide)).trans <| (W6_of_ne m ρ c main_arg0 (by decide)).trans <| (W5_of m ρ c main_arg0 (by decide)).trans <|
  (W4_of_ne m ρ c main_arg0 (by decide)).trans <| (W3_of m ρ c main_arg0 (by decide)).trans <| (W2_of_ne m ρ c main_arg0 (by decide)).trans <|
  (W1_of m ρ c main_arg0 (by decide)).trans rfl
theorem W7_main_arg1 (c : Dev nD) : W7 m ρ c (Proc.devRef .tc main_arg1) = m ((c : Thread nD τ).loc main_arg1) :=
  (W7_of m ρ c main_arg1 (by decide)).trans <| (W6_of_ne m ρ c main_arg1 (by decide)).trans <| (W5_of m ρ c main_arg1 (by decide)).trans <|
  (W4_of_ne m ρ c main_arg1 (by decide)).trans <| (W3_of m ρ c main_arg1 (by decide)).trans <| (W2_of_ne m ρ c main_arg1 (by decide)).trans <|
  (W1_of m ρ c main_arg1 (by decide)).trans rfl
theorem W7_main_arg2 (c : Dev nD) : W7 m ρ c (Proc.devRef .tc main_arg2) = m ((c : Thread nD τ).loc main_arg2) :=
  (W7_of m ρ c main_arg2 (by decide)).trans <| (W6_of_ne m ρ c main_arg2 (by decide)).trans <| (W5_of m ρ c main_arg2 (by decide)).trans <|
  (W4_of_ne m ρ c main_arg2 (by decide)).trans <| (W3_of m ρ c main_arg2 (by decide)).trans <| (W2_of_ne m ρ c main_arg2 (by decide)).trans <|
  (W1_of m ρ c main_arg2 (by decide)).trans rfl
theorem W7_main_arg3 (c : Dev nD) : W7 m ρ c (Proc.devRef .tc main_arg3) = m ((c : Thread nD τ).loc main_arg3) :=
  (W7_of m ρ c main_arg3 (by decide)).trans <| (W6_of_ne m ρ c main_arg3 (by decide)).trans <| (W5_of m ρ c main_arg3 (by decide)).trans <|
  (W4_of_ne m ρ c main_arg3 (by decide)).trans <| (W3_of m ρ c main_arg3 (by decide)).trans <| (W2_of_ne m ρ c main_arg3 (by decide)).trans <|
  (W1_of m ρ c main_arg3 (by decide)).trans rfl
theorem W7_main_arg4 (c : Dev nD) : W7 m ρ c (Proc.devRef .tc main_arg4) = m ((c : Thread nD τ).loc main_arg4) :=
  (W7_of m ρ c main_arg4 (by decide)).trans <| (W6_of_ne m ρ c main_arg4 (by decide)).trans <| (W5_of m ρ c main_arg4 (by decide)).trans <|
  (W4_of_ne m ρ c main_arg4 (by decide)).trans <| (W3_of m ρ c main_arg4 (by decide)).trans <| (W2_of_ne m ρ c main_arg4 (by decide)).trans <|
  (W1_of m ρ c main_arg4 (by decide)).trans rfl
theorem W7_main_arg5 (c : Dev nD) : W7 m ρ c (Proc.devRef .tc main_arg5) = m ((c : Thread nD τ).loc main_arg5) :=
  (W7_of m ρ c main_arg5 (by decide)).trans <| (W6_of_ne m ρ c main_arg5 (by decide)).trans <| (W5_of m ρ c main_arg5 (by decide)).trans <|
  (W4_of_ne m ρ c main_arg5 (by decide)).trans <| (W3_of m ρ c main_arg5 (by decide)).trans <| (W2_of_ne m ρ c main_arg5 (by decide)).trans <|
  (W1_of m ρ c main_arg5 (by decide)).trans rfl

/-! ## The proof data family and the thread state -/

/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and a debt of nothing. -/
abbrev R (c : Dev nD) : sProp 𝕄 := iprop((∃ r, prngReg c r) ∗ ∃ W, owes (c : Thread nD τ) (0 : CellTallies nD τ sig Unit) W)
/-- A host stretch as a segment over the unscoped references from the contents W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the debt: every unscoped buffer at the contents at the return, the generator register. -/
abbrev Tₙ (c : Dev nD) : sProp 𝕄 := iprop(StableHlo.held (c : Thread nD τ) (Pipeline.ucRefs τ sig) (W7 m ρ c) ∗ ∃ r, prngReg c r)

set_option backward.isDefEq.respectTransparency.types false in
/-- Region 0 over the thread state: entered from every unscoped buffer at the contents before it, left at those
    after it. Its arrays are split out of the unscoped buffers at entry and put back at the exit contents; the
    generator register goes into the invariant and comes back; nothing is owed. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- Region 1's entry, the arrays' part: every unscoped buffer at the entry contents is the eight windows' arrays at the
    proof data's entry contents, each at its window's share, beside the unscoped buffers no window reads. -/
theorem entry1 (c : Dev nD) :
    (StableHlo.held (c : Thread nD τ) (Pipeline.ucRefs τ sig) (W3 m ρ c) : sProp 𝕄)
      ⊢ iprop((dat1 (V3 m ρ) c).arrays ((dat1 (V3 m ρ) c).arrAt · 0)
          ∗ Pipeline.unscopedRest (Ix := Unit) (Name := ℕ) (U := UR sig nD τ) (Lvl := ℕ) spec1 c (V3 m ρ c)) := by
  have h : (unscopedBufs (Ix := Unit) (Name := ℕ) (U := UR sig nD τ) (Lvl := ℕ) c (V3 m ρ c) : sProp 𝕄)
      ⊢ iprop((dat1 (V3 m ρ) c).arrays ((dat1 (V3 m ρ) c).arrAt · 0)
          ∗ Pipeline.unscopedRest (Ix := Unit) (Name := ℕ) (U := UR sig nD τ) (Lvl := ℕ) spec1 c (V3 m ρ c)) := by
    rw [Pipeline.unscopedBufs_split₀ cfgs 1 winFacts₀1.arr_unscoped c (V3 m ρ c),
      show ((dat1 (V3 m ρ) c).arrAt · 0) = fun w => V3 m ρ c (Pipeline.arrRef spec1 w) from funext fun w => A_eq1 (V3 m ρ) c w]
    exact BIClass.sep_mono (arrays1_of_bufs (V3 m ρ) c (V3 m ρ c)) .rfl
  rw [Pipeline.unscopedBufs_held] at h
  exact h

/-- What region 1's write-backs leave in each window's array is what the exit contents hold there: an input's array
    is never written and keeps its entry contents, the output's is the exit contents' by definition. -/
theorem hF1 (c : Dev nD) : ((dat1 (V3 m ρ) c).arrAt · cfg1.N) = fun w => V4 m ρ c (Pipeline.arrRef spec1 w) := funext fun
  | ⟨0, _⟩ => ((dat1 (V3 m ρ) c).arrAt_in 0 rfl _).trans ((A_eq1 (V3 m ρ) c 0).trans (W4_of_ne m ρ c main_v10 (by decide)).symm)
  | ⟨1, _⟩ => ((dat1 (V3 m ρ) c).arrAt_in 1 rfl _).trans ((A_eq1 (V3 m ρ) c 1).trans (W4_of_ne m ρ c main_v13 (by decide)).symm)
  | ⟨2, _⟩ => ((dat1 (V3 m ρ) c).arrAt_in 2 rfl _).trans ((A_eq1 (V3 m ρ) c 2).trans (W4_of_ne m ρ c main_v16 (by decide)).symm)
  | ⟨3, _⟩ => ((dat1 (V3 m ρ) c).arrAt_in 3 rfl _).trans ((A_eq1 (V3 m ρ) c 3).trans (W4_of_ne m ρ c main_v19 (by decide)).symm)
  | ⟨4, _⟩ => ((dat1 (V3 m ρ) c).arrAt_in 4 rfl _).trans ((A_eq1 (V3 m ρ) c 4).trans (W4_of_ne m ρ c main_v21 (by decide)).symm)
  | ⟨5, _⟩ => ((dat1 (V3 m ρ) c).arrAt_in 5 rfl _).trans ((A_eq1 (V3 m ρ) c 5).trans (W4_of_ne m ρ c main_v19 (by decide)).symm)
  | ⟨6, _⟩ => ((dat1 (V3 m ρ) c).arrAt_in 6 rfl _).trans ((A_eq1 (V3 m ρ) c 6).trans (W4_of_ne m ρ c main_v21 (by decide)).symm)
  | ⟨7, _⟩ => (W4_out m ρ c).symm

/-- Off region 1's arrays the exit contents are the entry contents. -/
theorem hrest1 (c : Dev nD) :
    (Pipeline.unscopedRest (Ix := Unit) (Name := ℕ) (U := UR sig nD τ) (Lvl := ℕ) spec1 c (V4 m ρ c) : sProp 𝕄)
      = Pipeline.unscopedRest spec1 c (V3 m ρ c) := by
  unfold Pipeline.unscopedRest
  exact bigSep_congr fun b hb => by
    rw [show V4 m ρ c b = V3 m ρ c b from W4_of_ne m ρ c b fun e =>
      (Finset.mem_sdiff.mp hb).2 (Finset.mem_image.mpr ⟨7, Finset.mem_univ _, e.symm⟩)]

/-- Region 1's exit, the arrays' part: the eight windows' arrays at their final contents and the untouched rest are
    every unscoped buffer at the exit contents. -/
theorem exit1 (c : Dev nD) :
    iprop((dat1 (V3 m ρ) c).arrays ((dat1 (V3 m ρ) c).arrAt · cfg1.N)
        ∗ Pipeline.unscopedRest (Ix := Unit) (Name := ℕ) (U := UR sig nD τ) (Lvl := ℕ) spec1 c (V3 m ρ c))
      ⊢ (StableHlo.held (c : Thread nD τ) (Pipeline.ucRefs τ sig) (W4 m ρ c) : sProp 𝕄) := by
  have h : iprop((dat1 (V3 m ρ) c).arrays ((dat1 (V3 m ρ) c).arrAt · cfg1.N)
        ∗ Pipeline.unscopedRest (Ix := Unit) (Name := ℕ) (U := UR sig nD τ) (Lvl := ℕ) spec1 c (V3 m ρ c))
      ⊢ (unscopedBufs (Ix := Unit) (Name := ℕ) (U := UR sig nD τ) (Lvl := ℕ) c (V4 m ρ c) : sProp 𝕄) := by
    rw [Pipeline.unscopedBufs_split₀ cfgs 1 winFacts₀1.arr_unscoped c (V4 m ρ c), hF1 m ρ c]
    exact BIClass.sep_mono (bufs_of_arrays1 (V3 m ρ) c (V4 m ρ c)) (Entails.of_eq (hrest1 m ρ c).symm)
  rw [Pipeline.unscopedBufs_held] at h
  exact h

set_option backward.isDefEq.respectTransparency.types false in
/-- Region 1 over the thread state. Two of its arrays are each read through two windows: at entry each such array's
    full share is halved between its two windows, at exit the halves are joined. -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := entry1 m ρ c
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ (iprop((∃ r, prngReg c r) ∗ Pipeline.scopedRest (Ix := Unit) (Name := ℕ) (U := UR sig nD τ) (Lvl := ℕ) spec1 c) : sProp 𝕄) from ?_).trans
      (hin1 (V3 m ρ) c)
    iintro ⟨Hp, -, Hr⟩
    isplitl [Hp]; · iexact Hp
    iexact Hr
  hout c := by
    rw [Pipeline.ownSems0_none]
    refine (hout1 (V3 m ρ) c).trans ?_
    iintro ⟨Hp, Hr⟩
    isplitl [Hp]; · iexact Hp
    isplitr; · iempintro
    iexact Hr
  hexit c := by
    have hjoin := exit1 m ρ c
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at the contents before it, left at those
    after it. Its arrays are split out of the unscoped buffers at entry and put back at the exit contents; the
    generator register goes into the invariant and comes back; nothing is owed. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The main function as segments, and the launch -/

/-- The seven segments in order: a host segment per stretch from its boundary's contents, a region per kernel call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)) ]
/-- The last host segment leaves the last thread state beside the debt of nothing (the same resources, regrouped). -/
theorem chain_end (c : Dev nD) :
    (iprop(StableHlo.held (c : Thread nD τ) (Pipeline.ucRefs τ sig) (W7 m ρ c) ∗ R c) : sProp 𝕄)
      ⊢ iprop(Tₙ m ρ c ∗ ∃ W, owes (c : Thread nD τ) (0 : CellTallies nD τ sig Unit) W) := by
  iintro ⟨Hh, Hr, HO⟩
  isplitl [Hh Hr]
  · isplitl [Hh]; · iexact Hh
    iexact Hr
  iexact HO
/-- The main function is the run of the segments. -/
theorem main_run (c : Dev nD) : main (F := F) c = Pipeline.Seg.run (segs m ρ) := (main_chain c).trans (by chain_rfl)

set_option backward.isDefEq.respectTransparency.types false in
/-- THE RUN: from any memory with zero counters, every weakly fair execution of the main function on the TensorCores
    terminates, nothing faulting, and in every final state each core's every unscoped buffer holds the last boundary's
    contents. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun c => chain_end m ρ c⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h => h)

/-- THE FRAME: every argument array ends holding its launch contents. -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_arg0 (by decide))).trans (W7_main_arg0 m ρ c),
     (h c _ (mem_uc main_arg1 (by decide))).trans (W7_main_arg1 m ρ c),
     (h c _ (mem_uc main_arg2 (by decide))).trans (W7_main_arg2 m ρ c),
     (h c _ (mem_uc main_arg3 (by decide))).trans (W7_main_arg3 m ρ c),
     (h c _ (mem_uc main_arg4 (by decide))).trans (W7_main_arg4 m ρ c),
     (h c _ (mem_uc main_arg5 (by decide))).trans (W7_main_arg5 m ρ c)⟩) (run_all m ρ)

/-- The result buffer at the return: the last host stretch's reshape of what region 2's write-backs leave in its
    output array. -/
theorem W7_main_v30 (c : Dev nD) :
    W7 m ρ c (Proc.devRef .tc main_v30)
      = fun i => shapeCast S2048x4x1280 ((dat2 (V5 m ρ) c).arrAt 3 cfg2.N) shapeCasts_S8192x1280_S2048x4x1280 i := by
  show StableHlo.after hostOps3 (W6 m ρ c) (Proc.devRef .tc main_v30) = _
  after_results
  rw [show W6 m ρ c (Proc.devRef .tc main_v29) = (dat2 (V5 m ρ) c).arrAt 3 cfg2.N from W6_arr m ρ c 3]
  rfl

end Cert.KernelIdeal.Hand

end
-- ==== Proof.Spec.lean ====
/-
  The mathematics of the attention layer, over coordinates. Arrays are read as functions of their coordinates
  with values in the extended reals; every float operation is the exact one. With hidden states `X s b d`
  (position, batch, feature), projection weights `W e d` and biases `b e`, and angles `θ s j`:

  * `mm` is a matrix product with a bias row; `proj` is the projection `(∑ d, X s b d · W e d) + b e`;
  * a head's slice of the projected features is `headOf`; the rotary tables repeat the 40 angles of a position
    twice (`cosT`, `sinT`);
  * `rot` is the half rotation `(-t[40..80], t[0..40])`, `roll` the cyclic shift by 40, and the two rotary
    forms `rope` (half rotation against the plain sines) and `ropeK` (cyclic shift against the signed sines
    `(-sin, sin)`) agree, because `(-a) · b = a · (-b)` on the extended reals (`ropeK_eq_rope`);
  * `coreR` is softmax attention of one head on rotated queries and keys: scores `(∑ d, q s d · k j d) · scale` (`scoreRow`, one query row at a time, as a kernel block sees it),
    the row maximum folded from `-∞`, exponentials of the differences, their sum, the quotient, and the weighted
    sum of the values;
  * `merged` lays the heads side by side again and `final` is the output projection of that.
-/
import Idealize.ShloMosaic.PureOps.Ideal

noncomputable section

namespace Cert.Spec

open Idealize.ShloMosaic

/-- The softmax scale: the one float word both programs carry for `1 / sqrt 80`. -/
def scale : EReal := Ideal.ofBits .f32 0x3DE4F92E#32

/-- The word of `-∞`, from which both programs fold a row's maximum. -/
def negInf : EReal := Ideal.ofBits .f32 0xFF800000#32

/-- A matrix product with a bias row. -/
def mm {M K N : Nat} (x : Fin M → Fin K → EReal) (w : Fin K → Fin N → EReal) (b : Fin N → EReal) (i : Fin M) (e : Fin N) : EReal :=
  (∑ d : Fin K, x i d * w d e) + b e

/-- The projection of the hidden states by a weight matrix stored output-feature first, plus its bias. -/
def proj {n : Nat} (X : Fin 2048 → Fin 4 → Fin 1280 → EReal) (W : Fin n → Fin 1280 → EReal) (b : Fin n → EReal)
    (s : Fin 2048) (bb : Fin 4) (e : Fin n) : EReal :=
  (∑ d : Fin 1280, X s bb d * W e d) + b e

/-- Head `h` of batch `b` inside the projected features, from column `off` on: positions by the head's 80 features. -/
def headOf (P : Fin 2048 → Fin 4 → Fin 3840 → EReal) (off : Nat) (hoff : off + 1280 ≤ 3840) (b : Fin 4) (h : Fin 16) :
    Fin 2048 → Fin 80 → EReal :=
  fun s d => P s b ⟨off + 80 * h.val + d.val, by have := h.isLt; have := d.isLt; omega⟩

/-- A feature's angle index: the 40 angles are used twice over the 80 features. -/
def half (d : Fin 80) : Fin 40 := ⟨d.val % 40, Nat.mod_lt _ (by decide)⟩

def cosT (θ : Fin 2048 → Fin 40 → EReal) (s : Fin 2048) (d : Fin 80) : EReal := Ideal.cos (θ s (half d))
def sinT (θ : Fin 2048 → Fin 40 → EReal) (s : Fin 2048) (d : Fin 80) : EReal := Ideal.sin (θ s (half d))

/-- The signed sines the kernel multiplies the shifted features by: `-sin` on the first 40 features, `sin` on the rest. -/
def sinS (θ : Fin 2048 → Fin 40 → EReal) (s : Fin 2048) (d : Fin 80) : EReal :=
  if d.val < 40 then -(Ideal.sin (θ s (half d))) else Ideal.sin (θ s (half d))

/-- The half rotation: `(-t[40..80], t[0..40])`. -/
def rot (t : Fin 80 → EReal) (d : Fin 80) : EReal :=
  if h : d.val < 40 then -(t ⟨d.val + 40, by omega⟩) else t ⟨d.val - 40, by have := d.isLt; omega⟩

/-- The cyclic shift by 40 places: `(t[40..80], t[0..40])`. -/
def roll (t : Fin 80 → EReal) (d : Fin 80) : EReal :=
  if h : d.val < 40 then t ⟨d.val + 40, by omega⟩ else t ⟨d.val - 40, by have := d.isLt; omega⟩

/-- One position's rotary embedding by the half rotation against the plain sines. -/
def ropeRow (t c sn : Fin 80 → EReal) (d : Fin 80) : EReal := t d * c d + rot t d * sn d

/-- One position's rotary embedding by the cyclic shift against the signed sines. -/
def ropeRowK (t c ss : Fin 80 → EReal) (d : Fin 80) : EReal := t d * c d + roll t d * ss d

/-- Rotary embedding of every position, half-rotation form. -/
def rope (t c sn : Fin 2048 → Fin 80 → EReal) (s : Fin 2048) (d : Fin 80) : EReal := ropeRow (t s) (c s) (sn s) d

/-- Rotary embedding of every position, cyclic-shift form. -/
def ropeK (t c ss : Fin 2048 → Fin 80 → EReal) (s : Fin 2048) (d : Fin 80) : EReal := ropeRowK (t s) (c s) (ss s) d

/-- The two rotary forms agree: the sign sits on the sine in one and on the shifted feature in the other. -/
theorem ropeK_eq_rope (t c : Fin 2048 → Fin 80 → EReal) (θ : Fin 2048 → Fin 40 → EReal) :
    ropeK t c (sinS θ) = rope t c (sinT θ) := by
  funext s d
  unfold ropeK rope ropeRowK ropeRow roll rot sinS sinT
  by_cases h : d.val < 40
  · simp only [h, dif_pos, if_pos, neg_mul, mul_neg]
  · simp only [h, dif_neg, if_neg, not_false_eq_true]

/-- The scaled scores of one rotated query against every rotated key. -/
def scoreRow (qr : Fin 80 → EReal) (kr : Fin 2048 → Fin 80 → EReal) (j : Fin 2048) : EReal :=
  (∑ d : Fin 80, qr d * kr j d) * scale

/-- A row's maximum, folded from `-∞`. -/
def rowMax (row : Fin 2048 → EReal) : EReal := (Finset.univ : Finset (Fin 2048)).fold max negInf row

/-- The exponential of a score less its row's maximum. -/
def expRow (row : Fin 2048 → EReal) (j : Fin 2048) : EReal := Ideal.exp (row j - rowMax row)

/-- The softmax weight: the exponential over its row's sum. -/
def weightRow (row : Fin 2048 → EReal) (j : Fin 2048) : EReal :=
  Ideal.div (expRow row j) (∑ j' : Fin 2048, expRow row j')

/-- Softmax attention of one rotated query against rotated keys and the values. -/
def attnRow (qr : Fin 80 → EReal) (kr v : Fin 2048 → Fin 80 → EReal) (d : Fin 80) : EReal :=
  ∑ j : Fin 2048, weightRow (scoreRow qr kr) j * v j d

/-- Softmax attention of one head on rotated queries and keys. -/
def coreR (qr kr v : Fin 2048 → Fin 80 → EReal) (s : Fin 2048) (d : Fin 80) : EReal := attnRow (qr s) kr v d

/-- One head's attention from unrotated queries and keys and the rotary tables. -/
def core (q k v c sn : Fin 2048 → Fin 80 → EReal) : Fin 2048 → Fin 80 → EReal :=
  coreR (rope q c sn) (rope k c sn) v

/-- The heads side by side again: feature `e` of position `s`, batch `b` is feature `e % 80` of head `e / 80`. -/
def merged (O : Fin 4 → Fin 16 → Fin 2048 → Fin 80 → EReal) (s : Fin 2048) (b : Fin 4) (e : Fin 1280) : EReal :=
  O b ⟨e.val / 80, by have := e.isLt; omega⟩ s ⟨e.val % 80, Nat.mod_lt _ (by decide)⟩

/-- Every head's attention from the projected features. -/
def attnAll (P : Fin 2048 → Fin 4 → Fin 3840 → EReal) (θ : Fin 2048 → Fin 40 → EReal) :
    Fin 4 → Fin 16 → Fin 2048 → Fin 80 → EReal :=
  fun b h => core (headOf P 0 (by decide) b h) (headOf P 1280 (by decide) b h) (headOf P 2560 (by decide) b h) (cosT θ) (sinT θ)

/-- The whole layer. -/
def final (X : Fin 2048 → Fin 4 → Fin 1280 → EReal) (θ : Fin 2048 → Fin 40 → EReal)
    (Win : Fin 3840 → Fin 1280 → EReal) (bin : Fin 3840 → EReal)
    (Wout : Fin 1280 → Fin 1280 → EReal) (bout : Fin 1280 → EReal) (s : Fin 2048) (b : Fin 4) (e : Fin 1280) : EReal :=
  proj (merged (attnAll (proj X Win bin) θ)) Wout bout s b e

end Cert.Spec

end
-- ==== Proof.Val.Proj.lean ====
/-
  The two matrix-product-plus-bias regions at the exact (extended real) interpretation: each region's output array,
  after the region has run from entry contents `V`, as ONE function of its three entry arrays.

  A region's body stores, over its whole output block, the product of its left block (a band of 512 rows of the left
  array) with the whole right array, plus the bias row broadcast down the rows; format changes are the identity on the
  extended reals and the product into a zero accumulator is the plain sum over the contraction. Point `t` of the grid
  writes rows `512·t … 512·t + 511` of the output, all columns: that band of the whole-array product. The sixteen
  bands cover the rows, so the array ends holding the whole-array product `Spec.mm`.
-/
import proofs.«402768_j2499670966342_3_alg».proof.Proof.KI.Reg0
import proofs.«402768_j2499670966342_3_alg».proof.Proof.KI.Reg2
import proofs.«402768_j2499670966342_3_alg».proof.Proof.Spec
import Idealize.ShloMosaic.Lib.Pipeline.Value
import Idealize.ShloMosaic.Lib.ValueIdx
import Idealize.ShloMosaic.PureOps.Ideal.Laws

noncomputable section

namespace Cert.KernelIdeal.Val

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

/-! ## The payloads at an index -/

/-! ### Region 0's product: which operand element each factor is -/

theorem lhs0_0 (i : S512x3840.Idx) (q : dot_S512x1280_S1280x3840_S512x3840_1_0_0_1_n_n.contr.Idx) :
    (dot_S512x1280_S1280x3840_S512x3840_1_0_0_1_n_n.lhsIdx i q 0).val = (i 0).val := by
  unfold DotDims.lhsIdx
  rw [dif_neg (show ¬(0 : Fin S512x1280.rank) ∈ dot_S512x1280_S1280x3840_S512x3840_1_0_0_1_n_n.lhsBatch by decide), dif_pos (show (0 : Fin S512x1280.rank) ∈ dot_S512x1280_S1280x3840_S512x3840_1_0_0_1_n_n.lhsNonContracting by decide)]
  rfl
theorem lhs0_1 (i : S512x3840.Idx) (q : dot_S512x1280_S1280x3840_S512x3840_1_0_0_1_n_n.contr.Idx) :
    (dot_S512x1280_S1280x3840_S512x3840_1_0_0_1_n_n.lhsIdx i q 1).val = (q ⟨0, by decide⟩).val :=
  dot_S512x1280_S1280x3840_S512x3840_1_0_0_1_n_n.lhsIdx_val_of_single rfl i q
theorem rhs0_0 (i : S512x3840.Idx) (q : dot_S512x1280_S1280x3840_S512x3840_1_0_0_1_n_n.contr.Idx) :
    (dot_S512x1280_S1280x3840_S512x3840_1_0_0_1_n_n.rhsIdx i q 0).val = (q ⟨0, by decide⟩).val :=
  dot_S512x1280_S1280x3840_S512x3840_1_0_0_1_n_n.rhsIdx_val_of_single rfl i q
theorem rhs0_1 (i : S512x3840.Idx) (q : dot_S512x1280_S1280x3840_S512x3840_1_0_0_1_n_n.contr.Idx) :
    (dot_S512x1280_S1280x3840_S512x3840_1_0_0_1_n_n.rhsIdx i q 1).val = (i 1).val := by
  unfold DotDims.rhsIdx
  rw [dif_neg (show ¬(1 : Fin S1280x3840.rank) ∈ dot_S512x1280_S1280x3840_S512x3840_1_0_0_1_n_n.rhsBatch by decide), dif_pos (show (1 : Fin S1280x3840.rank) ∈ dot_S512x1280_S1280x3840_S512x3840_1_0_0_1_n_n.rhsNonContracting by decide)]
  rfl

/-- The product into a zero accumulator, at row `p` and column `e`: the sum over the contraction of row times column. -/
theorem mm0_apply (a : FVec Ideal S512x1280 .bf16) (b : FVec Ideal S1280x3840 .bf16) (p : Fin 512) (e : Fin 3840) :
    matmul dot_S512x1280_S1280x3840_S512x3840_1_0_0_1_n_n none a b (constant (F := Ideal) S512x3840 .f32 0x00000000#32) (ix2 p e)
      = ∑ d : Fin 1280, a (ix2 p d) * b (ix2 d e) := by
  simp only [matmul]
  rw [Ideal.matmul_constant_zero_apply, ← Equiv.sum_comp (contrEquiv1 dot_S512x1280_S1280x3840_S512x3840_1_0_0_1_n_n 1280 rfl rfl).symm]
  refine Finset.sum_congr rfl fun k _ => ?_
  have hk := contrEquiv1_symm_val dot_S512x1280_S1280x3840_S512x3840_1_0_0_1_n_n 1280 rfl rfl k
  have el : dot_S512x1280_S1280x3840_S512x3840_1_0_0_1_n_n.lhsIdx (ix2 p e) ((contrEquiv1 dot_S512x1280_S1280x3840_S512x3840_1_0_0_1_n_n 1280 rfl rfl).symm k) = ix2 p k := funext fun a => Fin.ext (by
    match a with
    | ⟨0, _⟩ => exact lhs0_0 _ _
    | ⟨1, _⟩ => exact (lhs0_1 _ _).trans hk)
  have er : dot_S512x1280_S1280x3840_S512x3840_1_0_0_1_n_n.rhsIdx (ix2 p e) ((contrEquiv1 dot_S512x1280_S1280x3840_S512x3840_1_0_0_1_n_n 1280 rfl rfl).symm k) = ix2 k e := funext fun a => Fin.ext (by
    match a with
    | ⟨0, _⟩ => exact (rhs0_0 _ _).trans hk
    | ⟨1, _⟩ => exact rhs0_1 _ _)
  rw [el, er]

/-- The bias row broadcast down the rows reads the bias at the column. -/
theorem bias0_apply (b : FVec Ideal S1x3840 .f32) (p : Fin 512) (e : Fin 3840) :
    broadcastTo S512x3840 b broadcasts_S1x3840_S512x3840 (ix2 p e) = b (ix2 (0 : Fin 1) e) :=
  broadcastTo_apply b broadcasts_S1x3840_S512x3840 (ix2 p e) (ix2 (0 : Fin 1) e) (fun a => match a with
    | ⟨0, _⟩ => by show 0 = if (1 : Nat) = 1 then 0 else _; rw [if_pos rfl]
    | ⟨1, _⟩ => by show e.val = if (3840 : Nat) = 1 then 0 else e.val; rw [if_neg (by decide)])

/-- Region 0's stored value at row `p`, column `e` of the block: the row of the left block against the column of the
    right array, plus the bias at that column. -/
theorem mmPay0_apply (x0 : Vec Ideal S512x1280 .f32) (x1 : Vec Ideal S1280x3840 .bf16) (x2 : Vec Ideal S1x3840 .f32)
    (p : Fin 512) (e : Fin 3840) :
    k0_pay1 (F := Ideal) x0 x1 x2 (ix2 p e) = (∑ d : Fin 1280, x0 (ix2 p d) * x1 (ix2 d e)) + x2 (ix2 (0 : Fin 1) e) := by
  unfold k0_pay1
  simp only [shapeCast_self]
  show matmul dot_S512x1280_S1280x3840_S512x3840_1_0_0_1_n_n none (truncf .bf16 x0 bitsLt_bf16_f32) x1 (constant (F := Ideal) S512x3840 .f32 0x00000000#32) (ix2 p e)
      + broadcastTo S512x3840 x2 broadcasts_S1x3840_S512x3840 (ix2 p e) = _
  rw [mm0_apply, bias0_apply]
  rfl

/-! ### Region 2's product: which operand element each factor is -/

theorem lhs2_0 (i : S512x1280.Idx) (q : dot_S512x1280_S1280x1280_S512x1280_1_0_0_1_n_n.contr.Idx) :
    (dot_S512x1280_S1280x1280_S512x1280_1_0_0_1_n_n.lhsIdx i q 0).val = (i 0).val := by
  unfold DotDims.lhsIdx
  rw [dif_neg (show ¬(0 : Fin S512x1280.rank) ∈ dot_S512x1280_S1280x1280_S512x1280_1_0_0_1_n_n.lhsBatch by decide), dif_pos (show (0 : Fin S512x1280.rank) ∈ dot_S512x1280_S1280x1280_S512x1280_1_0_0_1_n_n.lhsNonContracting by decide)]
  rfl
theorem lhs2_1 (i : S512x1280.Idx) (q : dot_S512x1280_S1280x1280_S512x1280_1_0_0_1_n_n.contr.Idx) :
    (dot_S512x1280_S1280x1280_S512x1280_1_0_0_1_n_n.lhsIdx i q 1).val = (q ⟨0, by decide⟩).val :=
  dot_S512x1280_S1280x1280_S512x1280_1_0_0_1_n_n.lhsIdx_val_of_single rfl i q
theorem rhs2_0 (i : S512x1280.Idx) (q : dot_S512x1280_S1280x1280_S512x1280_1_0_0_1_n_n.contr.Idx) :
    (dot_S512x1280_S1280x1280_S512x1280_1_0_0_1_n_n.rhsIdx i q 0).val = (q ⟨0, by decide⟩).val :=
  dot_S512x1280_S1280x1280_S512x1280_1_0_0_1_n_n.rhsIdx_val_of_single rfl i q
theorem rhs2_1 (i : S512x1280.Idx) (q : dot_S512x1280_S1280x1280_S512x1280_1_0_0_1_n_n.contr.Idx) :
    (dot_S512x1280_S1280x1280_S512x1280_1_0_0_1_n_n.rhsIdx i q 1).val = (i 1).val := by
  unfold DotDims.rhsIdx
  rw [dif_neg (show ¬(1 : Fin S1280x1280.rank) ∈ dot_S512x1280_S1280x1280_S512x1280_1_0_0_1_n_n.rhsBatch by decide), dif_pos (show (1 : Fin S1280x1280.rank) ∈ dot_S512x1280_S1280x1280_S512x1280_1_0_0_1_n_n.rhsNonContracting by decide)]
  rfl

/-- The product into a zero accumulator, at row `p` and column `e`: the sum over the contraction of row times column. -/
theorem mm2_apply (a : FVec Ideal S512x1280 .bf16) (b : FVec Ideal S1280x1280 .bf16) (p : Fin 512) (e : Fin 1280) :
    matmul dot_S512x1280_S1280x1280_S512x1280_1_0_0_1_n_n none a b (constant (F := Ideal) S512x1280 .f32 0x00000000#32) (ix2 p e)
      = ∑ d : Fin 1280, a (ix2 p d) * b (ix2 d e) := by
  simp only [matmul]
  rw [Ideal.matmul_constant_zero_apply, ← Equiv.sum_comp (contrEquiv1 dot_S512x1280_S1280x1280_S512x1280_1_0_0_1_n_n 1280 rfl rfl).symm]
  refine Finset.sum_congr rfl fun k _ => ?_
  have hk := contrEquiv1_symm_val dot_S512x1280_S1280x1280_S512x1280_1_0_0_1_n_n 1280 rfl rfl k
  have el : dot_S512x1280_S1280x1280_S512x1280_1_0_0_1_n_n.lhsIdx (ix2 p e) ((contrEquiv1 dot_S512x1280_S1280x1280_S512x1280_1_0_0_1_n_n 1280 rfl rfl).symm k) = ix2 p k := funext fun a => Fin.ext (by
    match a with
    | ⟨0, _⟩ => exact lhs2_0 _ _
    | ⟨1, _⟩ => exact (lhs2_1 _ _).trans hk)
  have er : dot_S512x1280_S1280x1280_S512x1280_1_0_0_1_n_n.rhsIdx (ix2 p e) ((contrEquiv1 dot_S512x1280_S1280x1280_S512x1280_1_0_0_1_n_n 1280 rfl rfl).symm k) = ix2 k e := funext fun a => Fin.ext (by
    match a with
    | ⟨0, _⟩ => exact (rhs2_0 _ _).trans hk
    | ⟨1, _⟩ => exact rhs2_1 _ _)
  rw [el, er]

/-- The bias row broadcast down the rows reads the bias at the column. -/
theorem bias2_apply (b : FVec Ideal S1x1280 .f32) (p : Fin 512) (e : Fin 1280) :
    broadcastTo S512x1280 b broadcasts_S1x1280_S512x1280 (ix2 p e) = b (ix2 (0 : Fin 1) e) :=
  broadcastTo_apply b broadcasts_S1x1280_S512x1280 (ix2 p e) (ix2 (0 : Fin 1) e) (fun a => match a with
    | ⟨0, _⟩ => by show 0 = if (1 : Nat) = 1 then 0 else _; rw [if_pos rfl]
    | ⟨1, _⟩ => by show e.val = if (1280 : Nat) = 1 then 0 else e.val; rw [if_neg (by decide)])

/-- Region 2's stored value at row `p`, column `e` of the block: the same product with the output projection's factors. -/
theorem mmPay2_apply (x0 : Vec Ideal S512x1280 .bf16) (x1 : Vec Ideal S1280x1280 .bf16) (x2 : Vec Ideal S1x1280 .f32)
    (p : Fin 512) (e : Fin 1280) :
    k2_pay1 (F := Ideal) x0 x1 x2 (ix2 p e) = (∑ d : Fin 1280, x0 (ix2 p d) * x1 (ix2 d e)) + x2 (ix2 (0 : Fin 1) e) := by
  unfold k2_pay1
  simp only [shapeCast_self]
  show matmul dot_S512x1280_S1280x1280_S512x1280_1_0_0_1_n_n none x0 x1 (constant (F := Ideal) S512x1280 .f32 0x00000000#32) (ix2 p e)
      + broadcastTo S512x1280 x2 broadcasts_S1x1280_S512x1280 (ix2 p e) = _
  rw [mm2_apply, bias2_apply]

/-! ## From the blocks to the arrays -/

/-- The zero offsets of a whole-block access. -/
theorem zero_off : (![0, 0] : Fin 2 → Nat) = fun _ => 0 := funext fun a => by fin_cases a <;> rfl

-- the buffers' contents when a region is entered
variable (V : (c : Dev nD) → (b : Ref sig .tc) → Buf (Elt Ideal) ((c : Thread nD τ).loc b))

/-! ### Region 0 -/

/-- The whole-array product of region 0: row `i` of the left array against column `e` of the right array, plus the bias. -/
def G0 (a0 : S8192x1280.Idx → EReal) (a1 : S1280x3840.Idx → EReal) (a2 : S1x3840.Idx → EReal) : S8192x3840.Idx → EReal :=
  fun j => Cert.Spec.mm (fun i d => a0 (ix2 i d)) (fun d e => a1 (ix2 d e)) (fun e => a2 (ix2 (0 : Fin 1) e)) (j 0) (j 1)

/-- Region 0's block indices over the grid: the left factor's and the output's row band is the point's number, every
    other block index is zero. -/
theorem band0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The band of the product at one block element: when the left block is the band of rows from `512·T` of the left array
    and the other two blocks are their arrays, the stored value at `j` is the whole-array product at row `512·T + j₀`. -/
theorem point0 (a0 : S8192x1280.Idx → EReal) (a1 : S1280x3840.Idx → EReal) (a2 : S1x3840.Idx → EReal)
    (x0 : Vec Ideal S512x1280 .f32) (x1 : Vec Ideal S1280x3840 .bf16) (x2 : Vec Ideal S1x3840 .f32) (T : Nat)
    (h0 : ∀ (p : Fin 512) (d : Fin 1280) (k : Fin 8192), k.val = T * 512 + p.val → x0 (ix2 p d) = a0 (ix2 k d))
    (h1 : ∀ (d : Fin 1280) (e : Fin 3840), x1 (ix2 d e) = a1 (ix2 d e))
    (h2 : ∀ e : Fin 3840, x2 (ix2 (0 : Fin 1) e) = a2 (ix2 (0 : Fin 1) e))
    (j : S512x3840.Idx) (i : S8192x3840.Idx) (hi0 : (i 0).val = T * 512 + (j 0).val) (hi1 : (i 1).val = (j 1).val) :
    k0_pay1 (F := Ideal) x0 x1 x2 j = G0 a0 a1 a2 i := by
  obtain ⟨p, q, rfl⟩ : ∃ (p : Fin 512) (q : Fin 3840), j = ix2 p q := ⟨j 0, j 1, eq_ix2 j⟩
  obtain ⟨r, s, rfl⟩ : ∃ (r : Fin 8192) (s : Fin 3840), i = ix2 r s := ⟨i 0, i 1, eq_ix2 i⟩
  obtain rfl : s = q := Fin.ext hi1
  rw [mmPay0_apply]
  show _ = (∑ d : Fin 1280, a0 (ix2 r d) * a1 (ix2 d s)) + a2 (ix2 (0 : Fin 1) s)
  rw [h2 s]
  exact congrArg (· + a2 (ix2 (0 : Fin 1) s)) (Finset.sum_congr rfl fun d _ => by rw [h0 p d r hi0, h1 d s])

/-- What point `t` writes back is band `t` of the whole-array product of the region's entry arrays. -/
theorem flushed0_eq (c : Dev nD) (t : Fin cfg0.N) :
    (dat0 V c).flushed 3 t = ((cfg0.win 3).blk t).view.read (Elt Ideal) (G0 (V c main_v0) (V c main_v2) (V c main_v3)) := by
  show (cfg0.win 3).cut (grid0.coords t) ((dat0 V c).after 3 t) = _
  rw [after0_3]
  unfold out0_3
  rw [View.canon_unit_zero zero_off]
  simp only [View.ld_unit_zero (S := S512x1280) zero_off, View.ld_unit_zero (S := S1280x3840) zero_off, View.ld_unit_zero (S := S1x3840) zero_off]
  obtain ⟨e0, e1, e2, e3, e4, e5, e6, e7⟩ := band0 t
  funext j
  show k0_pay1 (F := Ideal) (iblk0 V c 0 t) (iblk0 V c 1 t) (iblk0 V c 2 t) j = G0 (V c main_v0) (V c main_v2) (V c main_v3) (((cfg0.win 3).blk t).view.emb j)
  refine point0 _ _ _ _ _ _ t.val ?_ ?_ ?_ j _ ?_ ?_
  · intro p d k hk
    show V c main_v0 (((cfg0.win 0).blk t).view.emb (ix2 p d)) = V c main_v0 (ix2 k d)
    refine congrArg _ (funext fun a => Fin.ext ?_)
    match a with
    | ⟨0, _⟩ => show win0_0.index t (0 : Fin 2) * 512 + 1 * p.val = k.val; omega
    | ⟨1, _⟩ => show win0_0.index t (1 : Fin 2) * 1280 + 1 * d.val = d.val; omega
  · intro d e
    show V c main_v2 (((cfg0.win 1).blk t).view.emb (ix2 d e)) = V c main_v2 (ix2 d e)
    refine congrArg _ (funext fun a => Fin.ext ?_)
    match a with
    | ⟨0, _⟩ => show win0_1.index t (0 : Fin 2) * 1280 + 1 * d.val = d.val; omega
    | ⟨1, _⟩ => show win0_1.index t (1 : Fin 2) * 3840 + 1 * e.val = e.val; omega
  · intro e
    show V c main_v3 (((cfg0.win 2).blk t).view.emb (ix2 (0 : Fin 1) e)) = V c main_v3 (ix2 (0 : Fin 1) e)
    refine congrArg _ (funext fun a => Fin.ext ?_)
    match a with
    | ⟨0, _⟩ => show win0_2.index t (0 : Fin 2) * 1 + 1 * 0 = 0; omega
    | ⟨1, _⟩ => show win0_2.index t (1 : Fin 2) * 3840 + 1 * e.val = e.val; omega
  · show win0_3.index t (0 : Fin 2) * 512 + 1 * (j 0).val = t.val * 512 + (j 0).val; omega
  · show win0_3.index t (1 : Fin 2) * 3840 + 1 * (j 1).val = (j 1).val; omega

/-- An index of the output array is in point `t`'s block iff each coordinate is in the block's range on its axis. -/
theorem mem_blk0 (t : Fin cfg0.N) (i : S8192x3840.Idx) :
    i ∈ ((cfg0.win 3).blk t).view.set ↔ ∀ a : Fin 2, win0_3.index t a * S512x3840.size a ≤ (i a).val ∧ (i a).val < win0_3.index t a * S512x3840.size a + S512x3840.size a := by
  show i ∈ ((View.whole main_v4).slice (win0_3.rect t)).set ↔ _
  rw [View.set_slice_whole, Rect.mem_set_unit]
  exact Iff.rfl

/-- Row `r` of the output is in the band of point `r / 512`. -/
theorem cover0 (i : S8192x3840.Idx) : ∃ t : Fin cfg0.N, (cfg0.win 3).flush t = true ∧ i ∈ ((cfg0.win 3).blk t).view.set := by
  have hi0 : (i 0).val < 8192 := (i 0).isLt
  have hi1 : (i 1).val < 3840 := (i 1).isLt
  have hN : cfg0.N = 16 := N_0
  have ht : (i 0).val / 512 < cfg0.N := by rw [hN]; omega
  obtain ⟨_, _, _, _, _, _, e6, e7⟩ := band0 ⟨(i 0).val / 512, ht⟩
  refine ⟨⟨(i 0).val / 512, ht⟩, flush0_3 _, ?_⟩
  rw [mem_blk0]
  intro a
  match a with
  | ⟨0, _⟩ =>
    show win0_3.index ⟨(i 0).val / 512, ht⟩ (0 : Fin 2) * 512 ≤ (i 0).val ∧ (i 0).val < win0_3.index ⟨(i 0).val / 512, ht⟩ (0 : Fin 2) * 512 + 512
    rw [e6]; show (i 0).val / 512 * 512 ≤ (i 0).val ∧ (i 0).val < (i 0).val / 512 * 512 + 512; omega
  | ⟨1, _⟩ =>
    show win0_3.index ⟨(i 0).val / 512, ht⟩ (1 : Fin 2) * 3840 ≤ (i 1).val ∧ (i 1).val < win0_3.index ⟨(i 0).val / 512, ht⟩ (1 : Fin 2) * 3840 + 3840
    rw [e7]; omega

/-- Region 0's output array after the region IS the whole-array product of its entry arrays. -/
theorem arr0_eq (c : Dev nD) : (dat0 V c).arrAt 3 cfg0.N = G0 (V c main_v0) (V c main_v2) (V c main_v3) :=
  (dat0 V c).arrAt_eq_of_cover 3 (G0 (V c main_v0) (V c main_v2) (V c main_v3)) (fun t _ => flushed0_eq V c t) cover0

/-- Region 0's output array after the region: the product of its entry arrays, at every row and column. -/
theorem final0 (c : Dev nD) (i : Fin 8192) (e : Fin 3840) :
    ((dat0 V c).arrAt 3 cfg0.N : S8192x3840.Idx → EReal) (ix2 i e)
      = Cert.Spec.mm (fun i d => (V c main_v0 : S8192x1280.Idx → EReal) (ix2 i d))
          (fun d e => (V c main_v2 : S1280x3840.Idx → EReal) (ix2 d e))
          (fun e => (V c main_v3 : S1x3840.Idx → EReal) (ix2 (0 : Fin 1) e)) i e := by
  rw [arr0_eq]
  rfl

/-! ### Region 2 -/

/-- The whole-array product of region 2: row `i` of the left array against column `e` of the right array, plus the bias. -/
def G2 (a0 : S8192x1280.Idx → EReal) (a1 : S1280x1280.Idx → EReal) (a2 : S1x1280.Idx → EReal) : S8192x1280.Idx → EReal :=
  fun j => Cert.Spec.mm (fun i d => a0 (ix2 i d)) (fun d e => a1 (ix2 d e)) (fun e => a2 (ix2 (0 : Fin 1) e)) (j 0) (j 1)

/-- Region 2's block indices over the grid: the left factor's and the output's row band is the point's number, every
    other block index is zero. -/
theorem band2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- The band of the product at one block element: when the left block is the band of rows from `512·T` of the left array
    and the other two blocks are their arrays, the stored value at `j` is the whole-array product at row `512·T + j₀`. -/
theorem point2 (a0 : S8192x1280.Idx → EReal) (a1 : S1280x1280.Idx → EReal) (a2 : S1x1280.Idx → EReal)
    (x0 : Vec Ideal S512x1280 .bf16) (x1 : Vec Ideal S1280x1280 .bf16) (x2 : Vec Ideal S1x1280 .f32) (T : Nat)
    (h0 : ∀ (p : Fin 512) (d : Fin 1280) (k : Fin 8192), k.val = T * 512 + p.val → x0 (ix2 p d) = a0 (ix2 k d))
    (h1 : ∀ (d : Fin 1280) (e : Fin 1280), x1 (ix2 d e) = a1 (ix2 d e))
    (h2 : ∀ e : Fin 1280, x2 (ix2 (0 : Fin 1) e) = a2 (ix2 (0 : Fin 1) e))
    (j : S512x1280.Idx) (i : S8192x1280.Idx) (hi0 : (i 0).val = T * 512 + (j 0).val) (hi1 : (i 1).val = (j 1).val) :
    k2_pay1 (F := Ideal) x0 x1 x2 j = G2 a0 a1 a2 i := by
  obtain ⟨p, q, rfl⟩ : ∃ (p : Fin 512) (q : Fin 1280), j = ix2 p q := ⟨j 0, j 1, eq_ix2 j⟩
  obtain ⟨r, s, rfl⟩ : ∃ (r : Fin 8192) (s : Fin 1280), i = ix2 r s := ⟨i 0, i 1, eq_ix2 i⟩
  obtain rfl : s = q := Fin.ext hi1
  rw [mmPay2_apply]
  show _ = (∑ d : Fin 1280, a0 (ix2 r d) * a1 (ix2 d s)) + a2 (ix2 (0 : Fin 1) s)
  rw [h2 s]
  exact congrArg (· + a2 (ix2 (0 : Fin 1) s)) (Finset.sum_congr rfl fun d _ => by rw [h0 p d r hi0, h1 d s])

/-- What point `t` writes back is band `t` of the whole-array product of the region's entry arrays. -/
theorem flushed2_eq (c : Dev nD) (t : Fin cfg2.N) :
    (dat2 V c).flushed 3 t = ((cfg2.win 3).blk t).view.read (Elt Ideal) (G2 (V c main_v25) (V c main_v27) (V c main_v28)) := by
  show (cfg2.win 3).cut (grid2.coords t) ((dat2 V c).after 3 t) = _
  rw [after2_3]
  unfold out2_3
  rw [View.canon_unit_zero zero_off]
  simp only [View.ld_unit_zero (S := S512x1280) zero_off, View.ld_unit_zero (S := S1280x1280) zero_off, View.ld_unit_zero (S := S1x1280) zero_off]
  obtain ⟨e0, e1, e2, e3, e4, e5, e6, e7⟩ := band2 t
  funext j
  show k2_pay1 (F := Ideal) (iblk2 V c 0 t) (iblk2 V c 1 t) (iblk2 V c 2 t) j = G2 (V c main_v25) (V c main_v27) (V c main_v28) (((cfg2.win 3).blk t).view.emb j)
  refine point2 _ _ _ _ _ _ t.val ?_ ?_ ?_ j _ ?_ ?_
  · intro p d k hk
    show V c main_v25 (((cfg2.win 0).blk t).view.emb (ix2 p d)) = V c main_v25 (ix2 k d)
    refine congrArg _ (funext fun a => Fin.ext ?_)
    match a with
    | ⟨0, _⟩ => show win2_0.index t (0 : Fin 2) * 512 + 1 * p.val = k.val; omega
    | ⟨1, _⟩ => show win2_0.index t (1 : Fin 2) * 1280 + 1 * d.val = d.val; omega
  · intro d e
    show V c main_v27 (((cfg2.win 1).blk t).view.emb (ix2 d e)) = V c main_v27 (ix2 d e)
    refine congrArg _ (funext fun a => Fin.ext ?_)
    match a with
    | ⟨0, _⟩ => show win2_1.index t (0 : Fin 2) * 1280 + 1 * d.val = d.val; omega
    | ⟨1, _⟩ => show win2_1.index t (1 : Fin 2) * 1280 + 1 * e.val = e.val; omega
  · intro e
    show V c main_v28 (((cfg2.win 2).blk t).view.emb (ix2 (0 : Fin 1) e)) = V c main_v28 (ix2 (0 : Fin 1) e)
    refine congrArg _ (funext fun a => Fin.ext ?_)
    match a with
    | ⟨0, _⟩ => show win2_2.index t (0 : Fin 2) * 1 + 1 * 0 = 0; omega
    | ⟨1, _⟩ => show win2_2.index t (1 : Fin 2) * 1280 + 1 * e.val = e.val; omega
  · show win2_3.index t (0 : Fin 2) * 512 + 1 * (j 0).val = t.val * 512 + (j 0).val; omega
  · show win2_3.index t (1 : Fin 2) * 1280 + 1 * (j 1).val = (j 1).val; omega

/-- An index of the output array is in point `t`'s block iff each coordinate is in the block's range on its axis. -/
theorem mem_blk2 (t : Fin cfg2.N) (i : S8192x1280.Idx) :
    i ∈ ((cfg2.win 3).blk t).view.set ↔ ∀ a : Fin 2, win2_3.index t a * S512x1280.size a ≤ (i a).val ∧ (i a).val < win2_3.index t a * S512x1280.size a + S512x1280.size a := by
  show i ∈ ((View.whole main_v29).slice (win2_3.rect t)).set ↔ _
  rw [View.set_slice_whole, Rect.mem_set_unit]
  exact Iff.rfl

/-- Row `r` of the output is in the band of point `r / 512`. -/
theorem cover2 (i : S8192x1280.Idx) : ∃ t : Fin cfg2.N, (cfg2.win 3).flush t = true ∧ i ∈ ((cfg2.win 3).blk t).view.set := by
  have hi0 : (i 0).val < 8192 := (i 0).isLt
  have hi1 : (i 1).val < 1280 := (i 1).isLt
  have hN : cfg2.N = 16 := N_2
  have ht : (i 0).val / 512 < cfg2.N := by rw [hN]; omega
  obtain ⟨_, _, _, _, _, _, e6, e7⟩ := band2 ⟨(i 0).val / 512, ht⟩
  refine ⟨⟨(i 0).val / 512, ht⟩, flush2_3 _, ?_⟩
  rw [mem_blk2]
  intro a
  match a with
  | ⟨0, _⟩ =>
    show win2_3.index ⟨(i 0).val / 512, ht⟩ (0 : Fin 2) * 512 ≤ (i 0).val ∧ (i 0).val < win2_3.index ⟨(i 0).val / 512, ht⟩ (0 : Fin 2) * 512 + 512
    rw [e6]; show (i 0).val / 512 * 512 ≤ (i 0).val ∧ (i 0).val < (i 0).val / 512 * 512 + 512; omega
  | ⟨1, _⟩ =>
    show win2_3.index ⟨(i 0).val / 512, ht⟩ (1 : Fin 2) * 1280 ≤ (i 1).val ∧ (i 1).val < win2_3.index ⟨(i 0).val / 512, ht⟩ (1 : Fin 2) * 1280 + 1280
    rw [e7]; omega

/-- Region 2's output array after the region IS the whole-array product of its entry arrays. -/
theorem arr2_eq (c : Dev nD) : (dat2 V c).arrAt 3 cfg2.N = G2 (V c main_v25) (V c main_v27) (V c main_v28) :=
  (dat2 V c).arrAt_eq_of_cover 3 (G2 (V c main_v25) (V c main_v27) (V c main_v28)) (fun t _ => flushed2_eq V c t) cover2

/-- Region 2's output array after the region: the product of its entry arrays, at every row and column. -/
theorem final2 (c : Dev nD) (i : Fin 8192) (e : Fin 1280) :
    ((dat2 V c).arrAt 3 cfg2.N : S8192x1280.Idx → EReal) (ix2 i e)
      = Cert.Spec.mm (fun i d => (V c main_v25 : S8192x1280.Idx → EReal) (ix2 i d))
          (fun d e => (V c main_v27 : S1280x1280.Idx → EReal) (ix2 d e))
          (fun e => (V c main_v28 : S1x1280.Idx → EReal) (ix2 (0 : Fin 1) e)) i e := by
  rw [arr2_eq]
  rfl

/-! ## The product as the projection -/

/-- The matrix product of a row-flattened left array with a weight matrix stored input-feature first is the projection:
    row `i` of the flattened array is position `s`, batch `bb` of the hidden states, and column `e` of the stored
    weights is row `e` of the weight matrix. -/
theorem mm_eq_proj {n : Nat} (X : Fin 2048 → Fin 4 → Fin 1280 → EReal) (W : Fin n → Fin 1280 → EReal) (b : Fin n → EReal)
    (x : Fin 8192 → Fin 1280 → EReal) (w : Fin 1280 → Fin n → EReal) (s : Fin 2048) (bb : Fin 4) (i : Fin 8192) (e : Fin n)
    (hx : ∀ d, x i d = X s bb d) (hw : ∀ d, w d e = W e d) :
    Cert.Spec.mm x w b i e = Cert.Spec.proj X W b s bb e := by
  unfold Cert.Spec.mm Cert.Spec.proj
  exact congrArg (· + b e) (Finset.sum_congr rfl fun d _ => by rw [hx d, hw d])

end Cert.KernelIdeal.Val

end
-- ==== Proof.Val.AttnPayRope.lean ====
/-
  The rotary embedding inside the attention kernel, read at an index, at the ideal values. A rotation by 40 along
  the 80 features reads feature (d + 40) mod 80, which is the cyclic shift by 40; a table viewed with a leading unit
  axis and repeated over the two batch entries reads its own row; so the rotated keys and the rotated queries are,
  row by row, the cyclic-shift rotary form of that row against the tables' row.
-/
import proofs.«402768_j2499670966342_3_alg».proof.Proof.Gen.KernelIdeal.Skeleton
import proofs.«402768_j2499670966342_3_alg».proof.Proof.Spec
import Idealize.ShloMosaic.Lib.ValueIdx
import Idealize.ShloMosaic.Lib.Pipeline.Value
import Idealize.ShloMosaic.Lib.KernelVsHost

noncomputable section

namespace Cert.KernelIdeal.Val

open Idealize.ShloMosaic Idealize.ShloMosaic.ValueIdx

/-! ## The rotation by 40 is the cyclic shift -/

/-- On key blocks: the rotation by 40 along the features, at (b, s, d), is the cyclic shift of row (b, s) at d. -/
theorem rotateK_apply (t : FVec Ideal S2x2048x80 .f32) (h : S2x2048x80.Rotates 2 none) (b : Fin 2) (s : Fin 2048) (d : Fin 80) :
    dynamicRotate 2 40#32 none t h (ix3 b s d) = Cert.Spec.roll (fun d' => t (ix3 b s d')) d := by
  refine (dynamicRotate_apply (2 : Fin S2x2048x80.rank) 40#32 t h (ix3 b s d)
    (ix3 b s ⟨(d.val + 80 - 40) % 80, Nat.mod_lt _ (by decide)⟩)
    (fun a => match a with | ⟨0, _⟩ => rfl | ⟨1, _⟩ => rfl | ⟨2, _⟩ => rfl)).trans ?_
  unfold Cert.Spec.roll
  have hd := d.isLt
  by_cases hlt : d.val < 40
  · rw [dif_pos hlt]
    exact congrArg (fun e => t (ix3 b s e)) (Fin.ext (by show (d.val + 80 - 40) % 80 = d.val + 40; omega))
  · rw [dif_neg hlt]
    exact congrArg (fun e => t (ix3 b s e)) (Fin.ext (by show (d.val + 80 - 40) % 80 = d.val - 40; omega))

/-- On query blocks: the same. -/
theorem rotateQ_apply (t : FVec Ideal S2x256x80 .f32) (h : S2x256x80.Rotates 2 none) (b : Fin 2) (s : Fin 256) (d : Fin 80) :
    dynamicRotate 2 40#32 none t h (ix3 b s d) = Cert.Spec.roll (fun d' => t (ix3 b s d')) d := by
  refine (dynamicRotate_apply (2 : Fin S2x256x80.rank) 40#32 t h (ix3 b s d)
    (ix3 b s ⟨(d.val + 80 - 40) % 80, Nat.mod_lt _ (by decide)⟩)
    (fun a => match a with | ⟨0, _⟩ => rfl | ⟨1, _⟩ => rfl | ⟨2, _⟩ => rfl)).trans ?_
  unfold Cert.Spec.roll
  have hd := d.isLt
  by_cases hlt : d.val < 40
  · rw [dif_pos hlt]
    exact congrArg (fun e => t (ix3 b s e)) (Fin.ext (by show (d.val + 80 - 40) % 80 = d.val + 40; omega))
  · rw [dif_neg hlt]
    exact congrArg (fun e => t (ix3 b s e)) (Fin.ext (by show (d.val + 80 - 40) % 80 = d.val - 40; omega))

/-! ## A table repeated over the batch entries reads its own row -/

/-- A key-side table given a leading unit axis and repeated over the two batch entries, at (b, s, d), is the table
    at (s, d). -/
theorem tableK_apply (c : FVec Ideal S2048x80 .f32) (h0 : S2048x80.ShapeCasts S2048x80) (h1 : S2048x80.ShapeCasts S1x2048x80)
    (h2 : S1x2048x80.Broadcasts S2x2048x80) (b : Fin 2) (s : Fin 2048) (d : Fin 80) :
    broadcastTo S2x2048x80 (shapeCast S1x2048x80 (shapeCast S2048x80 c h0) h1) h2 (ix3 b s d) = c (ix2 s d) := by
  refine (broadcastTo_apply _ h2 (ix3 b s d) (ix3 (0 : Fin 1) s d)
    (fun a => match a with | ⟨0, _⟩ => rfl | ⟨1, _⟩ => rfl | ⟨2, _⟩ => rfl)).trans ?_
  refine (shapeCast_addUnit_apply ![2048, 80] _ h1 (ix3 (0 : Fin 1) s d)).trans ?_
  rw [shapeCast_self]
  exact congrArg c (funext fun a => match a with | ⟨0, _⟩ => rfl | ⟨1, _⟩ => rfl)

/-- A query-side table likewise. -/
theorem tableQ_apply (c : FVec Ideal S256x80 .f32) (h0 : S256x80.ShapeCasts S256x80) (h1 : S256x80.ShapeCasts S1x256x80)
    (h2 : S1x256x80.Broadcasts S2x256x80) (b : Fin 2) (s : Fin 256) (d : Fin 80) :
    broadcastTo S2x256x80 (shapeCast S1x256x80 (shapeCast S256x80 c h0) h1) h2 (ix3 b s d) = c (ix2 s d) := by
  refine (broadcastTo_apply _ h2 (ix3 b s d) (ix3 (0 : Fin 1) s d)
    (fun a => match a with | ⟨0, _⟩ => rfl | ⟨1, _⟩ => rfl | ⟨2, _⟩ => rfl)).trans ?_
  refine (shapeCast_addUnit_apply ![256, 80] _ h1 (ix3 (0 : Fin 1) s d)).trans ?_
  rw [shapeCast_self]
  exact congrArg c (funext fun a => match a with | ⟨0, _⟩ => rfl | ⟨1, _⟩ => rfl)

/-! ## The rotated keys and the rotated queries, row by row -/

/-- The stored rotated keys at (b, j, d): key row (b, j) times the cosines' row j, plus its cyclic shift times the
    signed sines' row j. -/
theorem pay2_apply (k : Vec Ideal S2x2048x80 .bf16) (ck sk : Vec Ideal S2048x80 .f32) (bb : Fin 2) (j : Fin 2048) (d : Fin 80) :
    Gen.k1_pay2 k ck sk (ix3 bb j d)
      = Cert.Spec.ropeRowK (fun d' => k (ix3 bb j d')) (fun d' => ck (ix2 j d')) (fun d' => sk (ix2 j d')) d := by
  unfold Gen.k1_pay2 Cert.Spec.ropeRowK
  dsimp only
  rw [shapeCast_self]
  show (extf .f32 _ _ : FVec Ideal S2x2048x80 .f32) (ix3 bb j d) * broadcastTo S2x2048x80 _ _ (ix3 bb j d)
      + dynamicRotate 2 40#32 none _ _ (ix3 bb j d) * broadcastTo S2x2048x80 _ _ (ix3 bb j d) = _
  rw [tableK_apply, tableK_apply, rotateK_apply, shapeCast_self]
  rfl

/-- The rotated queries the scores are taken of, at (b, r, d): query row (b, r) times the cosines' row r, plus its
    cyclic shift times the signed sines' row r. -/
theorem ropeQ_apply (q : FVec Ideal S2x256x80 .bf16) (cq sq : FVec Ideal S256x80 .f32)
    (hq : S2x256x80.ShapeCasts S2x256x80) (h0 : S256x80.ShapeCasts S256x80) (h1 : S256x80.ShapeCasts S1x256x80)
    (h2 : S1x256x80.Broadcasts S2x256x80) (hr : S2x256x80.Rotates 2 none) (hb : FTy.bits .bf16 < FTy.bits .f32)
    (bb : Fin 2) (r : Fin 256) (d : Fin 80) :
    (truncf .bf16
      (addf
        (mulf (extf .f32 (shapeCast S2x256x80 q hq) hb) (broadcastTo S2x256x80 (shapeCast S1x256x80 (shapeCast S256x80 cq h0) h1) h2))
        (mulf (dynamicRotate 2 40#32 none (extf .f32 (shapeCast S2x256x80 q hq) hb) hr)
          (broadcastTo S2x256x80 (shapeCast S1x256x80 (shapeCast S256x80 sq h0) h1) h2))) hb : FVec Ideal S2x256x80 .bf16) (ix3 bb r d)
      = Cert.Spec.ropeRowK (fun d' => q (ix3 bb r d')) (fun d' => cq (ix2 r d')) (fun d' => sq (ix2 r d')) d := by
  unfold Cert.Spec.ropeRowK
  show (extf .f32 (shapeCast S2x256x80 q hq) hb) (ix3 bb r d) * broadcastTo S2x256x80 _ h2 (ix3 bb r d)
      + dynamicRotate 2 40#32 none _ hr (ix3 bb r d) * broadcastTo S2x256x80 _ h2 (ix3 bb r d) = _
  rw [tableQ_apply, tableQ_apply, rotateQ_apply, shapeCast_self]
  rfl

end Cert.KernelIdeal.Val

end
-- ==== Proof.Val.AttnPayScore.lean ====
/-
  The score product inside the attention kernel, read at an index, at the ideal values: a batched product over the
  first axis that contracts the 80 features of a query row against those of a key row, into a zero accumulator, is at
  (b, r, j) the sum over the features of query (b, r) times key (b, j).
-/
import proofs.«402768_j2499670966342_3_alg».proof.Proof.Gen.KernelIdeal.Skeleton
import Idealize.ShloMosaic.Lib.ValueIdx
import Idealize.ShloMosaic.PureOps.Ideal.Laws

noncomputable section

namespace Cert.KernelIdeal.Val

open Idealize.ShloMosaic Idealize.ShloMosaic.ValueIdx

/-! ## Where the score product reads its operands -/

theorem lhs_score_0 (i : S2x256x2048.Idx) (q : dot_S2x256x80_S2x2048x80_S2x256x2048_2_2_1_1_0_0.contr.Idx) :
    (dot_S2x256x80_S2x2048x80_S2x256x2048_2_2_1_1_0_0.lhsIdx i q 0).val = (i 0).val := by
  unfold DotDims.lhsIdx
  rw [dif_pos (show (0 : Fin S2x256x80.rank) ∈ dot_S2x256x80_S2x2048x80_S2x256x2048_2_2_1_1_0_0.lhsBatch by decide)]
  rfl
theorem lhs_score_1 (i : S2x256x2048.Idx) (q : dot_S2x256x80_S2x2048x80_S2x256x2048_2_2_1_1_0_0.contr.Idx) :
    (dot_S2x256x80_S2x2048x80_S2x256x2048_2_2_1_1_0_0.lhsIdx i q 1).val = (i 1).val := by
  unfold DotDims.lhsIdx
  rw [dif_neg (show ¬(1 : Fin S2x256x80.rank) ∈ dot_S2x256x80_S2x2048x80_S2x256x2048_2_2_1_1_0_0.lhsBatch by decide), dif_pos (show (1 : Fin S2x256x80.rank) ∈ dot_S2x256x80_S2x2048x80_S2x256x2048_2_2_1_1_0_0.lhsNonContracting by decide)]
  rfl
theorem lhs_score_2 (i : S2x256x2048.Idx) (q : dot_S2x256x80_S2x2048x80_S2x256x2048_2_2_1_1_0_0.contr.Idx) :
    (dot_S2x256x80_S2x2048x80_S2x256x2048_2_2_1_1_0_0.lhsIdx i q 2).val = (q ⟨0, by decide⟩).val :=
  dot_S2x256x80_S2x2048x80_S2x256x2048_2_2_1_1_0_0.lhsIdx_val_of_single rfl i q
theorem rhs_score_0 (i : S2x256x2048.Idx) (q : dot_S2x256x80_S2x2048x80_S2x256x2048_2_2_1_1_0_0.contr.Idx) :
    (dot_S2x256x80_S2x2048x80_S2x256x2048_2_2_1_1_0_0.rhsIdx i q 0).val = (i 0).val := by
  unfold DotDims.rhsIdx
  rw [dif_pos (show (0 : Fin S2x2048x80.rank) ∈ dot_S2x256x80_S2x2048x80_S2x256x2048_2_2_1_1_0_0.rhsBatch by decide)]
  rfl
theorem rhs_score_1 (i : S2x256x2048.Idx) (q : dot_S2x256x80_S2x2048x80_S2x256x2048_2_2_1_1_0_0.contr.Idx) :
    (dot_S2x256x80_S2x2048x80_S2x256x2048_2_2_1_1_0_0.rhsIdx i q 1).val = (i 2).val := by
  unfold DotDims.rhsIdx
  rw [dif_neg (show ¬(1 : Fin S2x2048x80.rank) ∈ dot_S2x256x80_S2x2048x80_S2x256x2048_2_2_1_1_0_0.rhsBatch by decide), dif_pos (show (1 : Fin S2x2048x80.rank) ∈ dot_S2x256x80_S2x2048x80_S2x256x2048_2_2_1_1_0_0.rhsNonContracting by decide)]
  rfl
theorem rhs_score_2 (i : S2x256x2048.Idx) (q : dot_S2x256x80_S2x2048x80_S2x256x2048_2_2_1_1_0_0.contr.Idx) :
    (dot_S2x256x80_S2x2048x80_S2x256x2048_2_2_1_1_0_0.rhsIdx i q 2).val = (q ⟨0, by decide⟩).val :=
  dot_S2x256x80_S2x2048x80_S2x256x2048_2_2_1_1_0_0.rhsIdx_val_of_single rfl i q

/-! ## The score product at an index -/

/-- The batched product of query rows with key rows, into zero, at (b, r, j): the sum over the 80 features. -/
theorem score_apply (a : FVec Ideal S2x256x80 .bf16) (b : FVec Ideal S2x2048x80 .bf16) (bb : Fin 2) (r : Fin 256) (j : Fin 2048) :
    matmul dot_S2x256x80_S2x2048x80_S2x256x2048_2_2_1_1_0_0 none a b (constant (F := Ideal) S2x256x2048 .f32 0x00000000#32) (ix3 bb r j)
      = ∑ d : Fin 80, a (ix3 bb r d) * b (ix3 bb j d) := by
  simp only [matmul]
  rw [Ideal.matmul_constant_zero_apply, ← Equiv.sum_comp (ValueIdx.contrEquiv1 dot_S2x256x80_S2x2048x80_S2x256x2048_2_2_1_1_0_0 80 rfl rfl).symm]
  refine Finset.sum_congr rfl fun k _ => ?_
  have hk := ValueIdx.contrEquiv1_symm_val dot_S2x256x80_S2x2048x80_S2x256x2048_2_2_1_1_0_0 80 rfl rfl k
  have el : dot_S2x256x80_S2x2048x80_S2x256x2048_2_2_1_1_0_0.lhsIdx (ix3 bb r j) ((ValueIdx.contrEquiv1 dot_S2x256x80_S2x2048x80_S2x256x2048_2_2_1_1_0_0 80 rfl rfl).symm k) = ix3 bb r k := funext fun c => Fin.ext (by
    match c with
    | ⟨0, _⟩ => exact lhs_score_0 _ _
    | ⟨1, _⟩ => exact lhs_score_1 _ _
    | ⟨2, _⟩ => exact (lhs_score_2 _ _).trans hk)
  have er : dot_S2x256x80_S2x2048x80_S2x256x2048_2_2_1_1_0_0.rhsIdx (ix3 bb r j) ((ValueIdx.contrEquiv1 dot_S2x256x80_S2x2048x80_S2x256x2048_2_2_1_1_0_0 80 rfl rfl).symm k) = ix3 bb j k := funext fun c => Fin.ext (by
    match c with
    | ⟨0, _⟩ => exact rhs_score_0 _ _
    | ⟨1, _⟩ => exact rhs_score_1 _ _
    | ⟨2, _⟩ => exact (rhs_score_2 _ _).trans hk)
  rw [el, er]

end Cert.KernelIdeal.Val

end
-- ==== Proof.Val.AttnPaySoftmax.lean ====
/-
  The row softmax inside the attention kernel, read at an index, at the ideal values. A per-row quantity, viewed as a
  column and repeated along the 2048 key positions, reads the row's value; the row maximum is the fold of max from
  -∞ over the positions; the row sum is the sum over the positions; so the weight at (b, r, j) is the exponential of
  score (b, r, j) less row (b, r)'s maximum, over that row's sum of such exponentials.
-/
import proofs.«402768_j2499670966342_3_alg».proof.Proof.Gen.KernelIdeal.Skeleton
import proofs.«402768_j2499670966342_3_alg».proof.Proof.Spec
import Idealize.ShloMosaic.Lib.ValueIdx
import Idealize.ShloMosaic.Lib.Pipeline.Value
import Idealize.ShloMosaic.PureOps.Ideal.Laws

noncomputable section

namespace Cert.KernelIdeal.Val

open Idealize.ShloMosaic Idealize.ShloMosaic.ValueIdx

/-! ## A per-row quantity repeated along the row -/

/-- A [2, 256] vector viewed [2, 256, 1] and repeated along the 2048 positions, at (b, r, j), is the vector at (b, r). -/
theorem column_apply (x : FVec Ideal S2x256 .f32) (h1 : S2x256.ShapeCasts S2x256x1) (h2 : S2x256x1.Broadcasts S2x256x2048)
    (bb : Fin 2) (r : Fin 256) (j : Fin 2048) :
    broadcastTo S2x256x2048 (shapeCast S2x256x1 x h1) h2 (ix3 bb r j) = x (ix2 bb r) := by
  refine (broadcastTo_apply _ h2 (ix3 bb r j) (ix3 bb r (0 : Fin 1))
    (fun a => match a with | ⟨0, _⟩ => rfl | ⟨1, _⟩ => rfl | ⟨2, _⟩ => rfl)).trans ?_
  refine shapeCast_apply x h1 (ix3 bb r (0 : Fin 1)) (ix2 bb r) ?_
  rw [Shape.rowMajor_val_two, Shape.rowMajor_val_three]
  show bb.val * 256 + r.val = (bb.val * 256 + r.val) * 1 + 0
  omega

/-! ## The position inserted into a row's index -/

/-- Row (b, r) with position k inserted on the reduced axis is the index (b, r, k). -/
theorem lift_row (h : S2x256x2048.Reduces [2] S2x256) (bb : Fin 2) (r : Fin 256) (k : Fin 2048) :
    h.lift (ix2 bb r) k = ix3 bb r k :=
  funext fun c => Fin.ext (match c with | ⟨0, _⟩ => rfl | ⟨1, _⟩ => rfl | ⟨2, _⟩ => rfl)

/-! ## The row maximum and the row sum -/

/-- The maximum over the positions, from -∞, at row (b, r), is the row's maximum folded from -∞. -/
theorem rowMax_apply (s : FVec Ideal S2x256x2048 .f32) (h : S2x256x2048.Reduces [2] S2x256) (hφ : FKind.Formats .f32)
    (hm : (0xFF800000#32 : BitVec 32) = FKind.maximumf.neutral .f32 hφ) (bb : Fin 2) (r : Fin 256) :
    multiReduction (F := Ideal) .maximumf [2] S2x256 s 0xFF800000#32 h hφ hm (ix2 bb r)
      = Cert.Spec.rowMax (fun j => s (ix3 bb r j)) := by
  refine (Ideal.multiReduction_maximumf_single s 0xFF800000#32 h hφ hm (ix2 bb r)).trans ?_
  unfold Cert.Spec.rowMax Cert.Spec.negInf
  have e : (s ∘ h.lift (ix2 bb r)) = fun j : Fin 2048 => s (ix3 bb r j) :=
    funext fun k => congrArg s (lift_row h bb r k)
  exact congrArg (fun f : Fin 2048 → EReal => Finset.fold max (Ideal.ofBits .f32 0xFF800000#32) f Finset.univ) e

/-- The sum over the positions, from zero, at row (b, r), is the row's sum. -/
theorem rowSum_apply (e : FVec Ideal S2x256x2048 .f32) (h : S2x256x2048.Reduces [2] S2x256) (hφ : FKind.Formats .f32)
    (ha : (0x00000000#32 : BitVec 32) = FKind.add.neutral .f32 hφ) (bb : Fin 2) (r : Fin 256) :
    multiReduction (F := Ideal) .add [2] S2x256 e 0x00000000#32 h hφ ha (ix2 bb r) = ∑ j : Fin 2048, e (ix3 bb r j) := by
  refine (Ideal.multiReduction_add_single e 0x00000000#32 h hφ ha (ix2 bb r)).trans ?_
  exact Finset.sum_congr rfl fun k _ => congrArg e (lift_row h bb r k)

/-! ## The exponentials and the weights -/

/-- The exponential of a score less its row's maximum, at (b, r, j). -/
theorem expRow_apply (s : FVec Ideal S2x256x2048 .f32) (h : S2x256x2048.Reduces [2] S2x256) (hφ : FKind.Formats .f32)
    (hm : (0xFF800000#32 : BitVec 32) = FKind.maximumf.neutral .f32 hφ)
    (h1 : S2x256.ShapeCasts S2x256x1) (h2 : S2x256x1.Broadcasts S2x256x2048) (bb : Fin 2) (r : Fin 256) (j : Fin 2048) :
    exp (subf s (broadcastTo S2x256x2048 (shapeCast S2x256x1 (multiReduction (F := Ideal) .maximumf [2] S2x256 s 0xFF800000#32 h hφ hm) h1) h2)) (ix3 bb r j)
      = Cert.Spec.expRow (fun j' => s (ix3 bb r j')) j := by
  unfold Cert.Spec.expRow
  show Ideal.exp (s (ix3 bb r j) - broadcastTo S2x256x2048 _ h2 (ix3 bb r j)) = _
  rw [column_apply, rowMax_apply]

/-- The softmax weight at (b, r, j): the exponential over its row's sum. -/
theorem softmax_apply (s : FVec Ideal S2x256x2048 .f32) (h : S2x256x2048.Reduces [2] S2x256) (hφ : FKind.Formats .f32)
    (hm : (0xFF800000#32 : BitVec 32) = FKind.maximumf.neutral .f32 hφ) (ha : (0x00000000#32 : BitVec 32) = FKind.add.neutral .f32 hφ)
    (h1 : S2x256.ShapeCasts S2x256x1) (h2 : S2x256x1.Broadcasts S2x256x2048) (hb : FTy.bits .bf16 < FTy.bits .f32)
    (bb : Fin 2) (r : Fin 256) (j : Fin 2048) :
    (truncf .bf16 (divf
        (exp (subf s (broadcastTo S2x256x2048 (shapeCast S2x256x1 (multiReduction (F := Ideal) .maximumf [2] S2x256 s 0xFF800000#32 h hφ hm) h1) h2)))
        (broadcastTo S2x256x2048 (shapeCast S2x256x1 (multiReduction (F := Ideal) .add [2] S2x256
            (exp (subf s (broadcastTo S2x256x2048 (shapeCast S2x256x1 (multiReduction (F := Ideal) .maximumf [2] S2x256 s 0xFF800000#32 h hφ hm) h1) h2)))
            0x00000000#32 h hφ ha) h1) h2)) hb : FVec Ideal S2x256x2048 .bf16) (ix3 bb r j)
      = Cert.Spec.weightRow (fun j' => s (ix3 bb r j')) j := by
  unfold Cert.Spec.weightRow
  show Ideal.div (exp (subf s _) (ix3 bb r j)) (broadcastTo S2x256x2048 _ h2 (ix3 bb r j)) = _
  rw [column_apply, rowSum_apply, expRow_apply]
  exact congrArg (Ideal.div _) (Finset.sum_congr rfl fun j' _ => expRow_apply s h hφ hm h1 h2 bb r j')

end Cert.KernelIdeal.Val

end
-- ==== Proof.Val.AttnPayAV.lean ====
/-
  The weighted sum of the values inside the attention kernel, read at an index, at the ideal values: a batched
  product over the first axis that contracts the 2048 key positions of a weight row against those of the value
  rows, into a zero accumulator, is at (b, r, d) the sum over the positions j of weight (b, r, j) times value (b, j, d).
-/
import proofs.«402768_j2499670966342_3_alg».proof.Proof.Gen.KernelIdeal.Skeleton
import Idealize.ShloMosaic.Lib.ValueIdx
import Idealize.ShloMosaic.PureOps.Ideal.Laws

noncomputable section

namespace Cert.KernelIdeal.Val

open Idealize.ShloMosaic Idealize.ShloMosaic.ValueIdx

/-! ## Where the weighted sum reads its operands -/

theorem lhs_av_0 (i : S2x256x80.Idx) (q : dot_S2x256x2048_S2x2048x80_S2x256x80_2_1_1_2_0_0.contr.Idx) :
    (dot_S2x256x2048_S2x2048x80_S2x256x80_2_1_1_2_0_0.lhsIdx i q 0).val = (i 0).val := by
  unfold DotDims.lhsIdx
  rw [dif_pos (show (0 : Fin S2x256x2048.rank) ∈ dot_S2x256x2048_S2x2048x80_S2x256x80_2_1_1_2_0_0.lhsBatch by decide)]
  rfl
theorem lhs_av_1 (i : S2x256x80.Idx) (q : dot_S2x256x2048_S2x2048x80_S2x256x80_2_1_1_2_0_0.contr.Idx) :
    (dot_S2x256x2048_S2x2048x80_S2x256x80_2_1_1_2_0_0.lhsIdx i q 1).val = (i 1).val := by
  unfold DotDims.lhsIdx
  rw [dif_neg (show ¬(1 : Fin S2x256x2048.rank) ∈ dot_S2x256x2048_S2x2048x80_S2x256x80_2_1_1_2_0_0.lhsBatch by decide), dif_pos (show (1 : Fin S2x256x2048.rank) ∈ dot_S2x256x2048_S2x2048x80_S2x256x80_2_1_1_2_0_0.lhsNonContracting by decide)]
  rfl
theorem lhs_av_2 (i : S2x256x80.Idx) (q : dot_S2x256x2048_S2x2048x80_S2x256x80_2_1_1_2_0_0.contr.Idx) :
    (dot_S2x256x2048_S2x2048x80_S2x256x80_2_1_1_2_0_0.lhsIdx i q 2).val = (q ⟨0, by decide⟩).val :=
  dot_S2x256x2048_S2x2048x80_S2x256x80_2_1_1_2_0_0.lhsIdx_val_of_single rfl i q
theorem rhs_av_0 (i : S2x256x80.Idx) (q : dot_S2x256x2048_S2x2048x80_S2x256x80_2_1_1_2_0_0.contr.Idx) :
    (dot_S2x256x2048_S2x2048x80_S2x256x80_2_1_1_2_0_0.rhsIdx i q 0).val = (i 0).val := by
  unfold DotDims.rhsIdx
  rw [dif_pos (show (0 : Fin S2x2048x80.rank) ∈ dot_S2x256x2048_S2x2048x80_S2x256x80_2_1_1_2_0_0.rhsBatch by decide)]
  rfl
theorem rhs_av_1 (i : S2x256x80.Idx) (q : dot_S2x256x2048_S2x2048x80_S2x256x80_2_1_1_2_0_0.contr.Idx) :
    (dot_S2x256x2048_S2x2048x80_S2x256x80_2_1_1_2_0_0.rhsIdx i q 1).val = (q ⟨0, by decide⟩).val :=
  dot_S2x256x2048_S2x2048x80_S2x256x80_2_1_1_2_0_0.rhsIdx_val_of_single rfl i q
theorem rhs_av_2 (i : S2x256x80.Idx) (q : dot_S2x256x2048_S2x2048x80_S2x256x80_2_1_1_2_0_0.contr.Idx) :
    (dot_S2x256x2048_S2x2048x80_S2x256x80_2_1_1_2_0_0.rhsIdx i q 2).val = (i 2).val := by
  unfold DotDims.rhsIdx
  rw [dif_neg (show ¬(2 : Fin S2x2048x80.rank) ∈ dot_S2x256x2048_S2x2048x80_S2x256x80_2_1_1_2_0_0.rhsBatch by decide), dif_pos (show (2 : Fin S2x2048x80.rank) ∈ dot_S2x256x2048_S2x2048x80_S2x256x80_2_1_1_2_0_0.rhsNonContracting by decide)]
  rfl

/-! ## The weighted sum at an index -/

/-- The batched product of weight rows with the value rows, into zero, at (b, r, d): the sum over the 2048 positions. -/
theorem av_apply (p : FVec Ideal S2x256x2048 .bf16) (v : FVec Ideal S2x2048x80 .bf16) (bb : Fin 2) (r : Fin 256) (d : Fin 80) :
    matmul dot_S2x256x2048_S2x2048x80_S2x256x80_2_1_1_2_0_0 none p v (constant (F := Ideal) S2x256x80 .f32 0x00000000#32) (ix3 bb r d)
      = ∑ j : Fin 2048, p (ix3 bb r j) * v (ix3 bb j d) := by
  simp only [matmul]
  rw [Ideal.matmul_constant_zero_apply, ← Equiv.sum_comp (ValueIdx.contrEquiv1 dot_S2x256x2048_S2x2048x80_S2x256x80_2_1_1_2_0_0 2048 rfl rfl).symm]
  refine Finset.sum_congr rfl fun k _ => ?_
  have hk := ValueIdx.contrEquiv1_symm_val dot_S2x256x2048_S2x2048x80_S2x256x80_2_1_1_2_0_0 2048 rfl rfl k
  have el : dot_S2x256x2048_S2x2048x80_S2x256x80_2_1_1_2_0_0.lhsIdx (ix3 bb r d) ((ValueIdx.contrEquiv1 dot_S2x256x2048_S2x2048x80_S2x256x80_2_1_1_2_0_0 2048 rfl rfl).symm k) = ix3 bb r k := funext fun c => Fin.ext (by
    match c with
    | ⟨0, _⟩ => exact lhs_av_0 _ _
    | ⟨1, _⟩ => exact lhs_av_1 _ _
    | ⟨2, _⟩ => exact (lhs_av_2 _ _).trans hk)
  have er : dot_S2x256x2048_S2x2048x80_S2x256x80_2_1_1_2_0_0.rhsIdx (ix3 bb r d) ((ValueIdx.contrEquiv1 dot_S2x256x2048_S2x2048x80_S2x256x80_2_1_1_2_0_0 2048 rfl rfl).symm k) = ix3 bb k d := funext fun c => Fin.ext (by
    match c with
    | ⟨0, _⟩ => exact rhs_av_0 _ _
    | ⟨1, _⟩ => exact (rhs_av_1 _ _).trans hk
    | ⟨2, _⟩ => exact rhs_av_2 _ _)
  rw [el, er]

end Cert.KernelIdeal.Val

end
-- ==== Proof.Val.AttnPay.lean ====
/-
  The attention kernel's payloads read at an index, at the ideal values. The rotated keys are, at (b, j, d), the
  cyclic-shift rotary form of key row j of batch entry b against row j of the two tables; the rotated queries
  likewise; the scores are the products of a rotated query with every rotated key, scaled; a row's softmax is the
  exponential of each score less the row's maximum, over the row's sum; and the output row is the weighted sum of
  the value rows. Format changes are the identity on the extended reals.
-/
import proofs.«402768_j2499670966342_3_alg».proof.Proof.Gen.KernelIdeal.Skeleton
import proofs.«402768_j2499670966342_3_alg».proof.Proof.Spec
import proofs.«402768_j2499670966342_3_alg».proof.Proof.Val.AttnPayRope
import proofs.«402768_j2499670966342_3_alg».proof.Proof.Val.AttnPayScore
import proofs.«402768_j2499670966342_3_alg».proof.Proof.Val.AttnPaySoftmax
import proofs.«402768_j2499670966342_3_alg».proof.Proof.Val.AttnPayAV
import Idealize.ShloMosaic.Lib.ValueIdx

noncomputable section

namespace Cert.KernelIdeal.Val

open Idealize.ShloMosaic Idealize.ShloMosaic.ValueIdx

/-- The kernel's stored block at (b, r, d) is softmax attention of rotated query row r against the rotated key rows
    and the value rows of batch entry b. -/
theorem pay_apply (q : Vec Ideal S2x256x80 .bf16) (k v : Vec Ideal S2x2048x80 .bf16)
    (cq sq : Vec Ideal S256x80 .f32) (ck sk : Vec Ideal S2048x80 .f32) (bb : Fin 2) (r : Fin 256) (d : Fin 80) :
    Gen.k1_pay1 (Gen.k1_pay3 q cq sq (Gen.k1_pay2 k ck sk) v) (ix3 bb r d)
      = Cert.Spec.attnRow
          (Cert.Spec.ropeRowK (fun d' => q (ix3 bb r d')) (fun d' => cq (ix2 r d')) (fun d' => sq (ix2 r d')))
          (fun j => Cert.Spec.ropeRowK (fun d' => k (ix3 bb j d')) (fun d' => ck (ix2 j d')) (fun d' => sk (ix2 j d')))
          (fun j d' => v (ix3 bb j d')) d := by
  unfold Gen.k1_pay1 Gen.k1_pay3 Cert.Spec.attnRow
  dsimp only
  -- the narrowing is the identity; the outer product is the sum over the positions of weight times value
  rw [truncf_apply]
  refine (av_apply _ _ bb r d).trans ?_
  refine Finset.sum_congr rfl fun j _ => ?_
  refine congrArg₂ (fun x y : EReal => x * y) ?_ (congrFun (shapeCast_self v _) (ix3 bb j d))
  -- the weight is the softmax of the row of scaled scores
  refine (softmax_apply _ _ _ _ _ _ _ _ bb r j).trans ?_
  refine congrArg (fun row => Cert.Spec.weightRow row j) (funext fun j' => ?_)
  unfold Cert.Spec.scoreRow Cert.Spec.scale
  show matmul dot_S2x256x80_S2x2048x80_S2x256x2048_2_2_1_1_0_0 none _ _ _ (ix3 bb r j') * Ideal.ofBits .f32 0x3DE4F92E#32 = _
  refine congrArg (· * Ideal.ofBits .f32 0x3DE4F92E#32) ?_
  -- a score is the sum over the features of rotated query times rotated key
  refine (score_apply _ _ bb r j').trans ?_
  refine Finset.sum_congr rfl fun d' _ => ?_
  rw [ropeQ_apply, pay2_apply]

end Cert.KernelIdeal.Val

end
-- ==== Proof.Val.Attn.lean ====
/-
  The attention region's output array as one function of the arrays it is entered with, at the ideal values.

  The grid is 32 x 8: point t works on the head pair t / 8 and the query tile t % 8. Its query block is rows
  256 (t % 8) .. 256 (t % 8) + 255 of heads 2 (t / 8), 2 (t / 8) + 1; its key and value blocks are all 2048 rows of
  the same two heads; its query tables are the same 256 rows of the two rotary tables and its key tables are the
  two tables whole; its output block sits where its query block sits. The stored block at (b, r, d) is softmax
  attention of the rotated query row against the rotated key rows and the value rows of the block's head b, so
  output element (h, s, d) is head h's attention at (s, d) whichever point writes it, and every element is written
  by the point 8 (h / 2) + s / 256.
-/
import proofs.«402768_j2499670966342_3_alg».proof.Proof.KI.Reg1
import proofs.«402768_j2499670966342_3_alg».proof.Proof.Val.AttnPay
import proofs.«402768_j2499670966342_3_alg».proof.Proof.Spec
import Idealize.ShloMosaic.Lib.Pipeline.Value
import Idealize.ShloMosaic.Lib.ValueIdx

noncomputable section

namespace Cert.KernelIdeal.Val

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

-- the TensorCore's buffer contents when the region is entered
variable (V : (c : Dev nD) → (b : Ref sig .tc) → Buf (Elt Ideal) ((c : Thread nD τ).loc b))

/-! ## The output array, index by index -/

/-- Head `h`'s attention at (s, d), from the three head arrays and the two rotary tables: the queries and keys of
    the head rotated by the tables, then softmax attention against the head's values. -/
def headAttn (Q K W : S64x2048x80.Idx → EReal) (C S : S2048x80.Idx → EReal) (h : Fin 64) (s : Fin 2048) (d : Fin 80) : EReal :=
  Cert.Spec.coreR
    (Cert.Spec.ropeK (fun s d => Q (ix3 h s d)) (fun s d => C (ix2 s d)) (fun s d => S (ix2 s d)))
    (Cert.Spec.ropeK (fun s d => K (ix3 h s d)) (fun s d => C (ix2 s d)) (fun s d => S (ix2 s d)))
    (fun s d => W (ix3 h s d)) s d

/-- The output array: every head's attention, index by index. -/
def attnArr (Q K W : S64x2048x80.Idx → EReal) (C S : S2048x80.Idx → EReal) : S64x2048x80.Idx → EReal :=
  fun i => headAttn Q K W C S (i 0) (i 1) (i 2)

/-! ## Where each window's block sits at a point -/

/-- The query window's block index at point t is (t / 8, t % 8, 0). -/
theorem idx_q : ∀ t : Fin cfg1.N,
    win1_0.index t (0 : Fin 3) = t.val / 8 ∧ win1_0.index t (1 : Fin 3) = t.val % 8 ∧ win1_0.index t (2 : Fin 3) = 0 :=
  (by decide +kernel : ∀ t : Fin grid1.N, _)

/-- The key window's block index at point t is (t / 8, 0, 0). -/
theorem idx_k : ∀ t : Fin cfg1.N,
    win1_1.index t (0 : Fin 3) = t.val / 8 ∧ win1_1.index t (1 : Fin 3) = 0 ∧ win1_1.index t (2 : Fin 3) = 0 :=
  (by decide +kernel : ∀ t : Fin grid1.N, _)

/-- The value window's block index at point t is (t / 8, 0, 0). -/
theorem idx_v : ∀ t : Fin cfg1.N,
    win1_2.index t (0 : Fin 3) = t.val / 8 ∧ win1_2.index t (1 : Fin 3) = 0 ∧ win1_2.index t (2 : Fin 3) = 0 :=
  (by decide +kernel : ∀ t : Fin grid1.N, _)

/-- The query cosine table's block index at point t is (t % 8, 0). -/
theorem idx_cq : ∀ t : Fin cfg1.N, win1_3.index t (0 : Fin 2) = t.val % 8 ∧ win1_3.index t (1 : Fin 2) = 0 :=
  (by decide +kernel : ∀ t : Fin grid1.N, _)

/-- The query sine table's block index at point t is (t % 8, 0). -/
theorem idx_sq : ∀ t : Fin cfg1.N, win1_4.index t (0 : Fin 2) = t.val % 8 ∧ win1_4.index t (1 : Fin 2) = 0 :=
  (by decide +kernel : ∀ t : Fin grid1.N, _)

/-- The key cosine table's block is the whole table at every point. -/
theorem idx_ck : ∀ t : Fin cfg1.N, win1_5.index t (0 : Fin 2) = 0 ∧ win1_5.index t (1 : Fin 2) = 0 :=
  (by decide +kernel : ∀ t : Fin grid1.N, _)

/-- The key sine table's block is the whole table at every point. -/
theorem idx_sk : ∀ t : Fin cfg1.N, win1_6.index t (0 : Fin 2) = 0 ∧ win1_6.index t (1 : Fin 2) = 0 :=
  (by decide +kernel : ∀ t : Fin grid1.N, _)

/-- The output window's block index at point t is (t / 8, t % 8, 0). -/
theorem idx_o : ∀ t : Fin cfg1.N,
    win1_7.index t (0 : Fin 3) = t.val / 8 ∧ win1_7.index t (1 : Fin 3) = t.val % 8 ∧ win1_7.index t (2 : Fin 3) = 0 :=
  (by decide +kernel : ∀ t : Fin grid1.N, _)

/-! ## Each window's block read off its array

An element of a block sits in the array, on each axis, at the block index times the block's size plus its own
coordinate. -/

/-- The query block at point t: rows 256 (t % 8) + r of heads 2 (t / 8) + b. -/
theorem blk_q (c : Dev nD) (t : Fin cfg1.N) (bb : Fin 2) (r : Fin 256) (d : Fin 80) (i : S64x2048x80.Idx)
    (h0 : (i 0).val = 2 * (t.val / 8) + bb.val) (h1 : (i 1).val = 256 * (t.val % 8) + r.val) (h2 : (i 2).val = d.val) :
    (iblk1 V c 0 t : Vec Ideal S2x256x80 .bf16) (ix3 bb r d) = (V c main_v10 : S64x2048x80.Idx → EReal) i := by
  obtain ⟨e0, e1, e2⟩ := idx_q t
  unfold iblk1
  rw [View.read_apply]
  show V c main_v10 _ = V c main_v10 _
  congr 1
  funext a
  apply Fin.ext
  match a with
  | ⟨0, _⟩ => show win1_0.index t (0 : Fin 3) * 2 + 1 * bb.val = (i 0).val; rw [e0, h0]; omega
  | ⟨1, _⟩ => show win1_0.index t (1 : Fin 3) * 256 + 1 * r.val = (i 1).val; rw [e1, h1]; omega
  | ⟨2, _⟩ => show win1_0.index t (2 : Fin 3) * 80 + 1 * d.val = (i 2).val; rw [e2, h2]; omega

/-- The key block at point t: every row of heads 2 (t / 8) + b. -/
theorem blk_k (c : Dev nD) (t : Fin cfg1.N) (bb : Fin 2) (r : Fin 2048) (d : Fin 80) (i : S64x2048x80.Idx)
    (h0 : (i 0).val = 2 * (t.val / 8) + bb.val) (h1 : (i 1).val = r.val) (h2 : (i 2).val = d.val) :
    (iblk1 V c 1 t : Vec Ideal S2x2048x80 .bf16) (ix3 bb r d) = (V c main_v13 : S64x2048x80.Idx → EReal) i := by
  obtain ⟨e0, e1, e2⟩ := idx_k t
  unfold iblk1
  rw [View.read_apply]
  show V c main_v13 _ = V c main_v13 _
  congr 1
  funext a
  apply Fin.ext
  match a with
  | ⟨0, _⟩ => show win1_1.index t (0 : Fin 3) * 2 + 1 * bb.val = (i 0).val; rw [e0, h0]; omega
  | ⟨1, _⟩ => show win1_1.index t (1 : Fin 3) * 2048 + 1 * r.val = (i 1).val; rw [e1, h1]; omega
  | ⟨2, _⟩ => show win1_1.index t (2 : Fin 3) * 80 + 1 * d.val = (i 2).val; rw [e2, h2]; omega

/-- The value block at point t: every row of heads 2 (t / 8) + b. -/
theorem blk_v (c : Dev nD) (t : Fin cfg1.N) (bb : Fin 2) (r : Fin 2048) (d : Fin 80) (i : S64x2048x80.Idx)
    (h0 : (i 0).val = 2 * (t.val / 8) + bb.val) (h1 : (i 1).val = r.val) (h2 : (i 2).val = d.val) :
    (iblk1 V c 2 t : Vec Ideal S2x2048x80 .bf16) (ix3 bb r d) = (V c main_v16 : S64x2048x80.Idx → EReal) i := by
  obtain ⟨e0, e1, e2⟩ := idx_v t
  unfold iblk1
  rw [View.read_apply]
  show V c main_v16 _ = V c main_v16 _
  congr 1
  funext a
  apply Fin.ext
  match a with
  | ⟨0, _⟩ => show win1_2.index t (0 : Fin 3) * 2 + 1 * bb.val = (i 0).val; rw [e0, h0]; omega
  | ⟨1, _⟩ => show win1_2.index t (1 : Fin 3) * 2048 + 1 * r.val = (i 1).val; rw [e1, h1]; omega
  | ⟨2, _⟩ => show win1_2.index t (2 : Fin 3) * 80 + 1 * d.val = (i 2).val; rw [e2, h2]; omega

/-- The query cosine block at point t: rows 256 (t % 8) + r of the cosine table. -/
theorem blk_cq (c : Dev nD) (t : Fin cfg1.N) (r : Fin 256) (d : Fin 80) (i : S2048x80.Idx)
    (h0 : (i 0).val = 256 * (t.val % 8) + r.val) (h1 : (i 1).val = d.val) :
    (iblk1 V c 3 t : Vec Ideal S256x80 .f32) (ix2 r d) = (V c main_v19 : S2048x80.Idx → EReal) i := by
  obtain ⟨e0, e1⟩ := idx_cq t
  unfold iblk1
  rw [View.read_apply]
  show V c main_v19 _ = V c main_v19 _
  congr 1
  funext a
  apply Fin.ext
  match a with
  | ⟨0, _⟩ => show win1_3.index t (0 : Fin 2) * 256 + 1 * r.val = (i 0).val; rw [e0, h0]; omega
  | ⟨1, _⟩ => show win1_3.index t (1 : Fin 2) * 80 + 1 * d.val = (i 1).val; rw [e1, h1]; omega

/-- The query sine block at point t: rows 256 (t % 8) + r of the signed sine table. -/
theorem blk_sq (c : Dev nD) (t : Fin cfg1.N) (r : Fin 256) (d : Fin 80) (i : S2048x80.Idx)
    (h0 : (i 0).val = 256 * (t.val % 8) + r.val) (h1 : (i 1).val = d.val) :
    (iblk1 V c 4 t : Vec Ideal S256x80 .f32) (ix2 r d) = (V c main_v21 : S2048x80.Idx → EReal) i := by
  obtain ⟨e0, e1⟩ := idx_sq t
  unfold iblk1
  rw [View.read_apply]
  show V c main_v21 _ = V c main_v21 _
  congr 1
  funext a
  apply Fin.ext
  match a with
  | ⟨0, _⟩ => show win1_4.index t (0 : Fin 2) * 256 + 1 * r.val = (i 0).val; rw [e0, h0]; omega
  | ⟨1, _⟩ => show win1_4.index t (1 : Fin 2) * 80 + 1 * d.val = (i 1).val; rw [e1, h1]; omega

/-- The key cosine block at every point: the cosine table whole. -/
theorem blk_ck (c : Dev nD) (t : Fin cfg1.N) (r : Fin 2048) (d : Fin 80) (i : S2048x80.Idx)
    (h0 : (i 0).val = r.val) (h1 : (i 1).val = d.val) :
    (iblk1 V c 5 t : Vec Ideal S2048x80 .f32) (ix2 r d) = (V c main_v19 : S2048x80.Idx → EReal) i := by
  obtain ⟨e0, e1⟩ := idx_ck t
  unfold iblk1
  rw [View.read_apply]
  show V c main_v19 _ = V c main_v19 _
  congr 1
  funext a
  apply Fin.ext
  match a with
  | ⟨0, _⟩ => show win1_5.index t (0 : Fin 2) * 2048 + 1 * r.val = (i 0).val; rw [e0, h0]; omega
  | ⟨1, _⟩ => show win1_5.index t (1 : Fin 2) * 80 + 1 * d.val = (i 1).val; rw [e1, h1]; omega

/-- The key sine block at every point: the signed sine table whole. -/
theorem blk_sk (c : Dev nD) (t : Fin cfg1.N) (r : Fin 2048) (d : Fin 80) (i : S2048x80.Idx)
    (h0 : (i 0).val = r.val) (h1 : (i 1).val = d.val) :
    (iblk1 V c 6 t : Vec Ideal S2048x80 .f32) (ix2 r d) = (V c main_v21 : S2048x80.Idx → EReal) i := by
  obtain ⟨e0, e1⟩ := idx_sk t
  unfold iblk1
  rw [View.read_apply]
  show V c main_v21 _ = V c main_v21 _
  congr 1
  funext a
  apply Fin.ext
  match a with
  | ⟨0, _⟩ => show win1_6.index t (0 : Fin 2) * 2048 + 1 * r.val = (i 0).val; rw [e0, h0]; omega
  | ⟨1, _⟩ => show win1_6.index t (1 : Fin 2) * 80 + 1 * d.val = (i 1).val; rw [e1, h1]; omega

/-! ## What a point writes back -/

theorem hz3 : (![0, 0, 0] : Fin 3 → Nat) = fun _ => 0 := funext fun a => by fin_cases a <;> rfl
theorem hz2 : (![0, 0] : Fin 2 → Nat) = fun _ => 0 := funext fun a => by fin_cases a <;> rfl

/-- The stored block at (b, r, d), when the seven blocks are read off the arrays where head `h` and row `s` say:
    head `h`'s attention at (s, d). -/
theorem point_eq (Q K W : S64x2048x80.Idx → EReal) (C S : S2048x80.Idx → EReal)
    (q : Vec Ideal S2x256x80 .bf16) (k v : Vec Ideal S2x2048x80 .bf16) (cq sq : Vec Ideal S256x80 .f32) (ck sk : Vec Ideal S2048x80 .f32)
    (h : Fin 64) (s : Fin 2048) (bb : Fin 2) (r : Fin 256)
    (hq : ∀ d, q (ix3 bb r d) = Q (ix3 h s d))
    (hk : ∀ j d, k (ix3 bb j d) = K (ix3 h j d))
    (hv : ∀ j d, v (ix3 bb j d) = W (ix3 h j d))
    (hcq : ∀ d, cq (ix2 r d) = C (ix2 s d)) (hsq : ∀ d, sq (ix2 r d) = S (ix2 s d))
    (hck : ∀ j d, ck (ix2 j d) = C (ix2 j d)) (hsk : ∀ j d, sk (ix2 j d) = S (ix2 j d)) (d : Fin 80) :
    Gen.k1_pay1 (Gen.k1_pay3 q cq sq (Gen.k1_pay2 k ck sk) v) (ix3 bb r d) = headAttn Q K W C S h s d := by
  rw [pay_apply]
  simp only [hq, hk, hv, hcq, hsq, hck, hsk]
  rfl

set_option maxHeartbeats 400000 in
/-- WHAT POINT t WRITES BACK is block t of the output array. -/
theorem flushed1_eq (c : Dev nD) (t : Fin cfg1.N) :
    (dat1 V c).flushed 7 t = ((cfg1.win 7).blk t).view.read (Elt Ideal)
      (attnArr (V c main_v10) (V c main_v13) (V c main_v16) (V c main_v19) (V c main_v21)) := by
  show (cfg1.win 7).cut (grid1.coords t) ((dat1 V c).after 7 t) = _
  rw [after1_7]
  unfold out1_7
  rw [View.canon_unit_zero hz3]
  simp only [View.ld_unit_zero (S := S2x256x80) hz3, View.ld_unit_zero (S := S2x2048x80) hz3,
    View.ld_unit_zero (S := S256x80) hz2, View.ld_unit_zero (S := S2048x80) hz2]
  have ht : t.val < 256 := lt_of_lt_of_eq t.isLt N_1
  obtain ⟨o0, o1, o2⟩ := idx_o t
  funext j
  obtain ⟨bb, r, d, rfl⟩ : ∃ (bb : Fin 2) (r : Fin 256) (d : Fin 80), j = ix3 bb r d := ⟨j 0, j 1, j 2, eq_ix3 j⟩
  have hb : bb.val < 2 := bb.isLt
  have hr : r.val < 256 := r.isLt
  rw [View.read_apply]
  have he : ((cfg1.win 7).blk t).view.emb (ix3 bb r d)
      = (ix3 (⟨2 * (t.val / 8) + bb.val, by omega⟩ : Fin 64) (⟨256 * (t.val % 8) + r.val, by omega⟩ : Fin 2048) d : S64x2048x80.Idx) := by
    funext a
    apply Fin.ext
    match a with
    | ⟨0, _⟩ => show win1_7.index t (0 : Fin 3) * 2 + 1 * bb.val = 2 * (t.val / 8) + bb.val; rw [o0]; omega
    | ⟨1, _⟩ => show win1_7.index t (1 : Fin 3) * 256 + 1 * r.val = 256 * (t.val % 8) + r.val; rw [o1]; omega
    | ⟨2, _⟩ => show win1_7.index t (2 : Fin 3) * 80 + 1 * d.val = d.val; rw [o2]; omega
  rw [he]
  exact point_eq (V c main_v10) (V c main_v13) (V c main_v16) (V c main_v19) (V c main_v21)
    (iblk1 V c 0 t) (iblk1 V c 1 t) (iblk1 V c 2 t) (iblk1 V c 3 t) (iblk1 V c 4 t) (iblk1 V c 5 t) (iblk1 V c 6 t)
    ⟨2 * (t.val / 8) + bb.val, by omega⟩ ⟨256 * (t.val % 8) + r.val, by omega⟩ bb r
    (fun d' => blk_q V c t bb r d' _ rfl rfl rfl)
    (fun j d' => blk_k V c t bb j d' _ rfl rfl rfl)
    (fun j d' => blk_v V c t bb j d' _ rfl rfl rfl)
    (fun d' => blk_cq V c t r d' _ rfl rfl)
    (fun d' => blk_sq V c t r d' _ rfl rfl)
    (fun j d' => blk_ck V c t j d' _ rfl rfl)
    (fun j d' => blk_sk V c t j d' _ rfl rfl) d

/-! ## The blocks cover the array -/

/-- An index of the array is in point t's block iff each coordinate is in the block's range on its axis. -/
theorem mem_blk1 (t : Fin cfg1.N) (i : S64x2048x80.Idx) :
    i ∈ ((cfg1.win 7).blk t).view.set ↔ ∀ a : Fin 3, win1_7.index t a * S2x256x80.size a ≤ (i a).val
      ∧ (i a).val < win1_7.index t a * S2x256x80.size a + S2x256x80.size a := by
  show i ∈ ((View.whole main_v22).slice (win1_7.rect t)).set ↔ _
  rw [View.set_slice_whole, Rect.mem_set_unit]
  exact Iff.rfl

/-- Element (h, s, d) is in the block of the point 8 (h / 2) + s / 256, which writes its block back. -/
theorem cover1 (i : S64x2048x80.Idx) :
    ∃ t : Fin cfg1.N, (cfg1.win 7).flush t = true ∧ i ∈ ((cfg1.win 7).blk t).view.set := by
  have hi0 : (i 0).val < 64 := (i 0).isLt
  have hi1 : (i 1).val < 2048 := (i 1).isLt
  have hi2 : (i 2).val < 80 := (i 2).isLt
  have hN : cfg1.N = 256 := N_1
  obtain ⟨t, htv⟩ : ∃ t : Fin cfg1.N, t.val = 8 * ((i 0).val / 2) + (i 1).val / 256 :=
    ⟨⟨8 * ((i 0).val / 2) + (i 1).val / 256, by rw [hN]; omega⟩, rfl⟩
  obtain ⟨o0, o1, o2⟩ := idx_o t
  refine ⟨t, flush1_7 t, ?_⟩
  rw [mem_blk1]
  intro a
  match a with
  | ⟨0, _⟩ => show win1_7.index t (0 : Fin 3) * 2 ≤ (i 0).val ∧ (i 0).val < win1_7.index t (0 : Fin 3) * 2 + 2; rw [o0, htv]; omega
  | ⟨1, _⟩ => show win1_7.index t (1 : Fin 3) * 256 ≤ (i 1).val ∧ (i 1).val < win1_7.index t (1 : Fin 3) * 256 + 256; rw [o1, htv]; omega
  | ⟨2, _⟩ => show win1_7.index t (2 : Fin 3) * 80 ≤ (i 2).val ∧ (i 2).val < win1_7.index t (2 : Fin 3) * 80 + 80; rw [o2]; omega

/-! ## The array after the run -/

/-- The region's output array after the run is every head's attention of the arrays the region is entered with. -/
theorem arr1_eq (c : Dev nD) :
    (dat1 V c).arrAt 7 cfg1.N = attnArr (V c main_v10) (V c main_v13) (V c main_v16) (V c main_v19) (V c main_v21) :=
  (dat1 V c).arrAt_eq_of_cover 7 (attnArr (V c main_v10) (V c main_v13) (V c main_v16) (V c main_v19) (V c main_v21))
    (fun t _ => flushed1_eq V c t) cover1

/-- The region's output array after the run, element by element: head `h`'s attention at (s, d) of the arrays the
    region is entered with. -/
theorem final1 (c : Dev nD) (bh : Fin 64) (s : Fin 2048) (d : Fin 80) :
    (dat1 V c).arrAt 7 cfg1.N (ix3 bh s d)
      = Cert.Spec.coreR
          (Cert.Spec.ropeK (fun s d => (V c main_v10 : S64x2048x80.Idx → EReal) (ix3 bh s d))
            (fun s d => (V c main_v19 : S2048x80.Idx → EReal) (ix2 s d)) (fun s d => (V c main_v21 : S2048x80.Idx → EReal) (ix2 s d)))
          (Cert.Spec.ropeK (fun s d => (V c main_v13 : S64x2048x80.Idx → EReal) (ix3 bh s d))
            (fun s d => (V c main_v19 : S2048x80.Idx → EReal) (ix2 s d)) (fun s d => (V c main_v21 : S2048x80.Idx → EReal) (ix2 s d)))
          (fun s d => (V c main_v16 : S64x2048x80.Idx → EReal) (ix3 bh s d)) s d := by
  rw [arr1_eq V c]
  rfl

end Cert.KernelIdeal.Val

end
-- ==== Proof.Val.Layout.lean ====
/-
  The host operations around the three grid regions of the attention layer that only move entries, each read
  at an index given by its coordinates. None of them computes: they say where an entry comes from.

  * Flattening (position s, batch b) into one row axis puts the pair at row 4·s + b, and back.
  * A weight matrix stored output-feature first is used transposed: entry (d, e) is the stored (e, d); the
    change of float format that follows is the identity on the extended reals.
  * A bias vector laid as a one-row matrix reads at (0, e) its entry e.
  * The rotary tables lay the 40 angles of a position side by side twice: feature d uses angle d mod 40; the
    cosines twice, and the sines with the sign minus on the first 40 features.
-/
import proofs.«402768_j2499670966342_3_alg».proof.Proof.Spec
import Idealize.ShloMosaic.Lib.ValueLayout
import Idealize.ShloMosaic.Lib.ValueIdx
import Idealize.ShloMosaic.PureOps.Ideal

noncomputable section

namespace Cert.KernelIdeal.Val

open Idealize.ShloMosaic Idealize.ShloMosaic.ValueIdx

variable {α : Type}

/-! ## Positions and batches flattened into rows, and back -/

/-- The hidden states with (s, b) flattened: row 4·s + b, column d is entry (s, b, d). -/
theorem rows_of_tokens_apply (x : (⟨3, ![2048, 4, 1280]⟩ : Shape).Idx → α)
    (h : (⟨3, ![2048, 4, 1280]⟩ : Shape).ShapeCasts ⟨2, ![8192, 1280]⟩)
    (s : Fin 2048) (b : Fin 4) (d : Fin 1280) (r : Fin 8192) (hr : r.val = 4 * s.val + b.val) :
    shapeCast ⟨2, ![8192, 1280]⟩ x h (ix2 r d) = x (ix3 s b d) :=
  shapeCast_apply x h _ _ (by
    rw [Shape.rowMajor_val_three, Shape.rowMajor_val_two]
    show (s.val * 4 + b.val) * 1280 + d.val = r.val * 1280 + d.val
    omega)

/-- The rows unfolded into (s, b) again: entry (s, b, d) is row 4·s + b, column d. -/
theorem tokens_of_rows_apply (x : (⟨2, ![8192, 1280]⟩ : Shape).Idx → α)
    (h : (⟨2, ![8192, 1280]⟩ : Shape).ShapeCasts ⟨3, ![2048, 4, 1280]⟩)
    (s : Fin 2048) (b : Fin 4) (d : Fin 1280) (r : Fin 8192) (hr : r.val = 4 * s.val + b.val) :
    shapeCast ⟨3, ![2048, 4, 1280]⟩ x h (ix3 s b d) = x (ix2 r d) :=
  shapeCast_apply x h _ _ (by
    rw [Shape.rowMajor_val_three, Shape.rowMajor_val_two]
    show r.val * 1280 + d.val = (s.val * 4 + b.val) * 1280 + d.val
    omega)

/-! ## A weight matrix used transposed -/

/-- A weight matrix stored output-feature first, transposed and then changed of float format, reads at (d, e)
    the stored entry (e, d). -/
theorem weight_T_apply {n m : ℕ} (w : FVec Ideal ⟨2, ![n, m]⟩ .f32)
    (h : (⟨2, ![n, m]⟩ : Shape).Transposes [1, 0] ⟨2, ![m, n]⟩) (hb : FTy.bits .bf16 < FTy.bits .f32)
    (d : Fin m) (e : Fin n) :
    (truncf .bf16 (transpose ⟨2, ![m, n]⟩ [1, 0] w h) hb : FVec Ideal ⟨2, ![m, n]⟩ .bf16) (ix2 d e) = w (ix2 e d) :=
  (truncf_apply _ hb _).trans (transpose_ix2_apply w h d e)

/-! ## A bias as a one-row matrix -/

/-- A bias vector laid as one row reads at (0, e) its entry e. -/
theorem bias_row_apply {n : ℕ} (x : (⟨1, ![n]⟩ : Shape).Idx → α) (h : (⟨1, ![n]⟩ : Shape).ShapeCasts ⟨2, ![1, n]⟩)
    (e : Fin n) : shapeCast ⟨2, ![1, n]⟩ x h (ix2 (0 : Fin 1) e) = x (ix1 e) :=
  shapeCast_a_1a_apply x h 0 e

/-! ## The rotary tables -/

/-- Two arrays of 40 columns laid side by side: feature d reads the first at d when d < 40, else the second at
    d - 40; in both cases that is column d mod 40. -/
theorem halves_apply (a b : (⟨2, ![2048, 40]⟩ : Shape).Idx → α)
    (h : Shape.Concatenates [(⟨2, ![2048, 40]⟩ : Shape), ⟨2, ![2048, 40]⟩] ⟨2, ![2048, 80]⟩ 1)
    (s : Fin 2048) (d : Fin 80) :
    concatenate ⟨2, ![2048, 80]⟩ 1 [⟨⟨2, ![2048, 40]⟩, a⟩, ⟨⟨2, ![2048, 40]⟩, b⟩] h (ix2 s d)
      = if d.val < 40 then a (ix2 s (Cert.Spec.half d)) else b (ix2 s (Cert.Spec.half d)) := by
  by_cases hd : d.val < 40
  · rw [if_pos hd]
    refine concatenate_pair_apply_left 1 a b h (ix2 s d) rfl (ix2 s (Cert.Spec.half d)) fun c => ?_
    match c with
    | ⟨0, _⟩ => rfl
    | ⟨1, _⟩ => show d.val % 40 = d.val; omega
  · rw [if_neg hd]
    refine concatenate_pair_apply_right 1 a b h (ix2 s d) rfl rfl (ix2 s (Cert.Spec.half d)) (fun c hc => ?_) ?_
    · match c, hc with
      | ⟨0, _⟩, _ => rfl
      | ⟨1, _⟩, hc => exact absurd rfl hc
    · have := d.isLt
      show d.val % 40 + 40 = d.val
      omega

/-- The cosine table: the cosines of a position's 40 angles, twice. -/
theorem cos_table_apply (θ : FVec Ideal ⟨2, ![2048, 40]⟩ .f32)
    (h : Shape.Concatenates [(⟨2, ![2048, 40]⟩ : Shape), ⟨2, ![2048, 40]⟩] ⟨2, ![2048, 80]⟩ 1)
    (s : Fin 2048) (d : Fin 80) :
    concatenate ⟨2, ![2048, 80]⟩ 1
        [⟨⟨2, ![2048, 40]⟩, (Host.cos θ : FVec Ideal ⟨2, ![2048, 40]⟩ .f32)⟩,
         ⟨⟨2, ![2048, 40]⟩, (Host.cos θ : FVec Ideal ⟨2, ![2048, 40]⟩ .f32)⟩] h (ix2 s d)
      = Cert.Spec.cosT (fun s j => θ (ix2 s j)) s d := by
  refine (halves_apply _ _ h s d).trans ?_
  rw [ite_self]
  rfl

/-- The signed sine table: minus the sines of the 40 angles, then the sines. -/
theorem sin_table_apply (θ : FVec Ideal ⟨2, ![2048, 40]⟩ .f32)
    (h : Shape.Concatenates [(⟨2, ![2048, 40]⟩ : Shape), ⟨2, ![2048, 40]⟩] ⟨2, ![2048, 80]⟩ 1)
    (s : Fin 2048) (d : Fin 80) :
    concatenate ⟨2, ![2048, 80]⟩ 1
        [⟨⟨2, ![2048, 40]⟩, (Host.negf (Host.sin θ) : FVec Ideal ⟨2, ![2048, 40]⟩ .f32)⟩,
         ⟨⟨2, ![2048, 40]⟩, (Host.sin θ : FVec Ideal ⟨2, ![2048, 40]⟩ .f32)⟩] h (ix2 s d)
      = Cert.Spec.sinS (fun s j => θ (ix2 s j)) s d := by
  refine (halves_apply _ _ h s d).trans ?_
  unfold Cert.Spec.sinS
  by_cases hd : d.val < 40
  · rw [if_pos hd, if_pos hd]; rfl
  · rw [if_neg hd, if_neg hd]; rfl

end Cert.KernelIdeal.Val

end
-- ==== Proof.Val.Host.lean ====
/-
  The four stretches of host operations of the attention layer's program, read at an index, from whatever
  contents V the stretch starts with. A stretch only re-lays arrays (and, for the rotary tables, takes cosines and
  sines of the angles), so each of its results at an index is one entry of an array it started with:

  * before the input projection: the hidden states with (position, batch) flattened into rows; the projection's
    weights used transposed; its bias as a one-row matrix;
  * before the attention region: the cosine table and the signed sine table of the angles;
  * before the output projection: its weights used transposed and its bias as a one-row matrix;
  * at the end: the rows unfolded into (position, batch) again.

  The arrays a stretch does not write keep their contents.
-/
import proofs.«402768_j2499670966342_3_alg».proof.Proof.Gen.KernelIdeal.Launch
import proofs.«402768_j2499670966342_3_alg».proof.Proof.Val.Layout
import Idealize.ShloMosaic.Lib.StableHlo.Run

noncomputable section

namespace Cert.KernelIdeal.Val

open Cert.KernelIdeal Cert.KernelIdeal.Gen
open Idealize.ShloMosaic Idealize.ShloMosaic.TcCoe Idealize.ShloMosaic.ValueIdx

-- the contents a stretch starts with
variable (V : Valuation τ sig (Elt Ideal))

/-! ## Before the input projection -/

/-- The hidden states flattened: row 4·s + b, column d is the hidden state (s, b, d). -/
theorem host0_v0 (s : Fin 2048) (b : Fin 4) (d : Fin 1280) (r : Fin 8192) (hr : r.val = 4 * s.val + b.val) :
    (StableHlo.after (hostOps0 (F := Ideal)) V (Proc.devRef .tc main_v0) : S8192x1280.Idx → EReal) (ix2 r d)
      = (V (Proc.devRef .tc main_arg0) : S2048x4x1280.Idx → EReal) (ix3 s b d) := by
  have e : (StableHlo.after (hostOps0 (F := Ideal)) V (Proc.devRef .tc main_v0) : S8192x1280.Idx → EReal)
      = shapeCast S8192x1280 (V (Proc.devRef .tc main_arg0) : S2048x4x1280.Idx → EReal)
          Facts₀.shapeCasts_S2048x4x1280_S8192x1280 := by
    show StableHlo.after hostOps0 V (Proc.devRef .tc main_v0) = _
    after_results
    rfl
  rw [e]
  exact rows_of_tokens_apply _ _ s b d r hr

/-- The input projection's weights as the region uses them: entry (d, e) is the stored weight (e, d). -/
theorem host0_v2 (d : Fin 1280) (e : Fin 3840) :
    (StableHlo.after (hostOps0 (F := Ideal)) V (Proc.devRef .tc main_v2) : S1280x3840.Idx → EReal) (ix2 d e)
      = (V (Proc.devRef .tc main_arg2) : S3840x1280.Idx → EReal) (ix2 e d) := by
  have e' : (StableHlo.after (hostOps0 (F := Ideal)) V (Proc.devRef .tc main_v2) : S1280x3840.Idx → EReal)
      = (truncf .bf16 (transpose S1280x3840 [1, 0] (V (Proc.devRef .tc main_arg2) : FVec Ideal S3840x1280 .f32)
          Facts₀.transposes_S3840x1280_S1280x3840_1_0) Facts₀.bitsLt_bf16_f32 : FVec Ideal S1280x3840 .bf16) := by
    show StableHlo.after hostOps0 V (Proc.devRef .tc main_v2) = _
    after_results
  rw [e']
  exact weight_T_apply _ _ _ d e

/-- The input projection's bias as a one-row matrix: entry (0, e) is the bias e. -/
theorem host0_v3 (e : Fin 3840) :
    (StableHlo.after (hostOps0 (F := Ideal)) V (Proc.devRef .tc main_v3) : S1x3840.Idx → EReal) (ix2 (0 : Fin 1) e)
      = (V (Proc.devRef .tc main_arg3) : S3840.Idx → EReal) (ix1 e) := by
  have e' : (StableHlo.after (hostOps0 (F := Ideal)) V (Proc.devRef .tc main_v3) : S1x3840.Idx → EReal)
      = shapeCast S1x3840 (V (Proc.devRef .tc main_arg3) : S3840.Idx → EReal) Facts₀.shapeCasts_S3840_S1x3840 := by
    show StableHlo.after hostOps0 V (Proc.devRef .tc main_v3) = _
    after_results
    rfl
  rw [e']
  exact bias_row_apply _ _ e

/-- The angles, the output projection's weights and its bias are not written before the input projection. -/
theorem host0_arg1 : StableHlo.after (hostOps0 (F := Ideal)) V (Proc.devRef .tc main_arg1) = V (Proc.devRef .tc main_arg1) := by
  after_results
theorem host0_arg4 : StableHlo.after (hostOps0 (F := Ideal)) V (Proc.devRef .tc main_arg4) = V (Proc.devRef .tc main_arg4) := by
  after_results
theorem host0_arg5 : StableHlo.after (hostOps0 (F := Ideal)) V (Proc.devRef .tc main_arg5) = V (Proc.devRef .tc main_arg5) := by
  after_results

/-! ## Before the attention region: the rotary tables -/

/-- The cosine table: at position s, feature d, the cosine of the angle d mod 40 of position s. -/
theorem host1_v19 (s : Fin 2048) (d : Fin 80) :
    (StableHlo.after (hostOps1 (F := Ideal)) V (Proc.devRef .tc main_v19) : S2048x80.Idx → EReal) (ix2 s d)
      = Cert.Spec.cosT (fun s j => (V (Proc.devRef .tc main_arg1) : S2048x40.Idx → EReal) (ix2 s j)) s d := by
  have e : (StableHlo.after (hostOps1 (F := Ideal)) V (Proc.devRef .tc main_v19) : S2048x80.Idx → EReal)
      = concatenate S2048x80 1
          [⟨S2048x40, (Host.cos (V (Proc.devRef .tc main_arg1) : FVec Ideal S2048x40 .f32) : FVec Ideal S2048x40 .f32)⟩,
           ⟨S2048x40, (Host.cos (V (Proc.devRef .tc main_arg1) : FVec Ideal S2048x40 .f32) : FVec Ideal S2048x40 .f32)⟩]
          Facts₀.concatenates_S2048x40_S2048x40_S2048x80_d1 := by
    show StableHlo.after hostOps1 V (Proc.devRef .tc main_v19) = _
    after_results
  rw [e]
  exact cos_table_apply _ _ s d

/-- The signed sine table: minus the sine of the angle on the first 40 features, the sine on the rest. -/
theorem host1_v21 (s : Fin 2048) (d : Fin 80) :
    (StableHlo.after (hostOps1 (F := Ideal)) V (Proc.devRef .tc main_v21) : S2048x80.Idx → EReal) (ix2 s d)
      = Cert.Spec.sinS (fun s j => (V (Proc.devRef .tc main_arg1) : S2048x40.Idx → EReal) (ix2 s j)) s d := by
  have e : (StableHlo.after (hostOps1 (F := Ideal)) V (Proc.devRef .tc main_v21) : S2048x80.Idx → EReal)
      = concatenate S2048x80 1
          [⟨S2048x40, (Host.negf (Host.sin (V (Proc.devRef .tc main_arg1) : FVec Ideal S2048x40 .f32)) : FVec Ideal S2048x40 .f32)⟩,
           ⟨S2048x40, (Host.sin (V (Proc.devRef .tc main_arg1) : FVec Ideal S2048x40 .f32) : FVec Ideal S2048x40 .f32)⟩]
          Facts₀.concatenates_S2048x40_S2048x40_S2048x80_d1 := by
    show StableHlo.after hostOps1 V (Proc.devRef .tc main_v21) = _
    after_results
  rw [e]
  exact sin_table_apply _ _ s d

/-- The output projection's weights and bias are not written before the attention region. -/
theorem host1_arg4 : StableHlo.after (hostOps1 (F := Ideal)) V (Proc.devRef .tc main_arg4) = V (Proc.devRef .tc main_arg4) := by
  after_results
theorem host1_arg5 : StableHlo.after (hostOps1 (F := Ideal)) V (Proc.devRef .tc main_arg5) = V (Proc.devRef .tc main_arg5) := by
  after_results

/-! ## Before the output projection -/

/-- The output projection's weights as the region uses them: entry (d, e) is the stored weight (e, d). -/
theorem host2_v27 (d : Fin 1280) (e : Fin 1280) :
    (StableHlo.after (hostOps2 (F := Ideal)) V (Proc.devRef .tc main_v27) : S1280x1280.Idx → EReal) (ix2 d e)
      = (V (Proc.devRef .tc main_arg4) : S1280x1280.Idx → EReal) (ix2 e d) := by
  have e' : (StableHlo.after (hostOps2 (F := Ideal)) V (Proc.devRef .tc main_v27) : S1280x1280.Idx → EReal)
      = (truncf .bf16 (transpose S1280x1280 [1, 0] (V (Proc.devRef .tc main_arg4) : FVec Ideal S1280x1280 .f32)
          Facts₀.transposes_S1280x1280_S1280x1280_1_0) Facts₀.bitsLt_bf16_f32 : FVec Ideal S1280x1280 .bf16) := by
    show StableHlo.after hostOps2 V (Proc.devRef .tc main_v27) = _
    after_results
  rw [e']
  exact weight_T_apply _ _ _ d e

/-- The output projection's bias as a one-row matrix: entry (0, e) is the bias e. -/
theorem host2_v28 (e : Fin 1280) :
    (StableHlo.after (hostOps2 (F := Ideal)) V (Proc.devRef .tc main_v28) : S1x1280.Idx → EReal) (ix2 (0 : Fin 1) e)
      = (V (Proc.devRef .tc main_arg5) : S1280.Idx → EReal) (ix1 e) := by
  have e' : (StableHlo.after (hostOps2 (F := Ideal)) V (Proc.devRef .tc main_v28) : S1x1280.Idx → EReal)
      = shapeCast S1x1280 (V (Proc.devRef .tc main_arg5) : S1280.Idx → EReal) Facts₀.shapeCasts_S1280_S1x1280 := by
    show StableHlo.after hostOps2 V (Proc.devRef .tc main_v28) = _
    after_results
    rfl
  rw [e']
  exact bias_row_apply _ _ e

/-! ## At the end -/

/-- The result: entry (s, b, e) is row 4·s + b, column e of the output projection. -/
theorem host3_v30 (s : Fin 2048) (b : Fin 4) (e : Fin 1280) (r : Fin 8192) (hr : r.val = 4 * s.val + b.val) :
    (StableHlo.after (hostOps3 (F := Ideal)) V (Proc.devRef .tc main_v30) : S2048x4x1280.Idx → EReal) (ix3 s b e)
      = (V (Proc.devRef .tc main_v29) : S8192x1280.Idx → EReal) (ix2 r e) := by
  have e' : (StableHlo.after (hostOps3 (F := Ideal)) V (Proc.devRef .tc main_v30) : S2048x4x1280.Idx → EReal)
      = shapeCast S2048x4x1280 (V (Proc.devRef .tc main_v29) : S8192x1280.Idx → EReal)
          Facts₀.shapeCasts_S8192x1280_S2048x4x1280 := by
    show StableHlo.after hostOps3 V (Proc.devRef .tc main_v30) = _
    after_results
    rfl
  rw [e']
  exact tokens_of_rows_apply _ _ s b e r hr

end Cert.KernelIdeal.Val

end
-- ==== Proof.Val.Heads.lean ====
/-
  The kernel's host glue between its three regions, read at an index.

  Head split. The projection region leaves an array of 8192 rows (row `4 · position + batch`) by 3840 columns.
  A part (queries, keys or values) is the 1280 columns from an offset on; it is reshaped to
  (position, batch, head, feature), column `80 · head + feature`; transposed to (batch, head, position, feature);
  and flattened to (`16 · batch + head`, position, feature). So the attention region's operand at
  (`16 · batch + head`, position, feature) is the projection's element at row `4 · position + batch`, column
  `offset + 80 · head + feature`.

  Head merge. The attention region's result (`16 · batch + head`, position, feature) is reshaped to
  (batch, head, position, feature), transposed to (position, batch, head, feature) and flattened to 8192 rows by
  1280 columns: row `4 · position + batch`, column `80 · head + feature`.

  Each step is a layout operation reading its operand at a computed index; the reshapes are identified by
  row-major arithmetic. The general statements are over any element type and literal shapes; the last section
  states them at this program's named shapes.
-/
import proofs.«402768_j2499670966342_3_alg».proof.Proof.Gen.KernelIdeal
import Idealize.ShloMosaic.Lib.ValueLayout
import Idealize.ShloMosaic.Lib.ValueIdx

noncomputable section

namespace Cert.KernelIdeal.Val

open Cert.KernelIdeal Cert.KernelIdeal.Gen Idealize.ShloMosaic Idealize.ShloMosaic.ValueIdx

section General

variable {α : Type}

/-- The transposition (position, batch, head, feature) → (batch, head, position, feature), read backwards. -/
theorem heads_front_apply (x : (⟨4, ![2048, 4, 16, 80]⟩ : Shape).Idx → α)
    (h : (⟨4, ![2048, 4, 16, 80]⟩ : Shape).Transposes [1, 2, 0, 3] ⟨4, ![4, 16, 2048, 80]⟩)
    (b : Fin 4) (hd : Fin 16) (s : Fin 2048) (d : Fin 80) :
    transpose ⟨4, ![4, 16, 2048, 80]⟩ [1, 2, 0, 3] x h (ix4 b hd s d) = x (ix4 s b hd d) :=
  transpose_apply _ x h _ _ fun c => match c with | ⟨0, _⟩ => rfl | ⟨1, _⟩ => rfl | ⟨2, _⟩ => rfl | ⟨3, _⟩ => rfl

/-- The head split at an index: with `bh = 16 · b + hd`, `r = 4 · s + b`, `c = 80 · hd + d` and `k = off + c`,
    the split array at `(bh, s, d)` is the source at `(r, k)`. -/
theorem head_split_apply (off : Nat) (x : (⟨2, ![8192, 3840]⟩ : Shape).Idx → α)
    (h1 : (⟨2, ![8192, 3840]⟩ : Shape).Slices ![0, off] ⟨2, ![8192, 1280]⟩)
    (h2 : (⟨2, ![8192, 1280]⟩ : Shape).ShapeCasts ⟨4, ![2048, 4, 16, 80]⟩)
    (h3 : (⟨4, ![2048, 4, 16, 80]⟩ : Shape).Transposes [1, 2, 0, 3] ⟨4, ![4, 16, 2048, 80]⟩)
    (h4 : (⟨4, ![4, 16, 2048, 80]⟩ : Shape).ShapeCasts ⟨3, ![64, 2048, 80]⟩)
    (b : Fin 4) (hd : Fin 16) (s : Fin 2048) (d : Fin 80) (bh : Fin 64) (r : Fin 8192) (c : Fin 1280) (k : Fin 3840)
    (hbh : bh.val = 16 * b.val + hd.val) (hr : r.val = 4 * s.val + b.val) (hc : c.val = 80 * hd.val + d.val)
    (hk : k.val = off + c.val) :
    shapeCast ⟨3, ![64, 2048, 80]⟩
        (transpose ⟨4, ![4, 16, 2048, 80]⟩ [1, 2, 0, 3]
          (shapeCast ⟨4, ![2048, 4, 16, 80]⟩ (extractStridedSlice ⟨2, ![8192, 1280]⟩ ![0, off] x h1) h2) h3) h4
        (ix3 bh s d)
      = x (ix2 r k) := by
  refine (shapeCast_apply _ h4 (ix3 bh s d) (ix4 b hd s d) ?_).trans ?_
  · rw [Shape.rowMajor_val_four, Shape.rowMajor_val_three]
    show ((b.val * 16 + hd.val) * 2048 + s.val) * 80 + d.val = (bh.val * 2048 + s.val) * 80 + d.val
    omega
  refine (heads_front_apply _ h3 b hd s d).trans ?_
  refine (shapeCast_apply _ h2 (ix4 s b hd d) (ix2 r c) ?_).trans ?_
  · rw [Shape.rowMajor_val_two, Shape.rowMajor_val_four]
    show r.val * 1280 + c.val = ((s.val * 4 + b.val) * 16 + hd.val) * 80 + d.val
    omega
  exact slice2_axis1_apply off x h1 r c k hk

/-- The transposition (batch, head, position, feature) → (position, batch, head, feature), read backwards. -/
theorem heads_back_apply (x : (⟨4, ![4, 16, 2048, 80]⟩ : Shape).Idx → α)
    (h : (⟨4, ![4, 16, 2048, 80]⟩ : Shape).Transposes [2, 0, 1, 3] ⟨4, ![2048, 4, 16, 80]⟩)
    (s : Fin 2048) (b : Fin 4) (hd : Fin 16) (d : Fin 80) :
    transpose ⟨4, ![2048, 4, 16, 80]⟩ [2, 0, 1, 3] x h (ix4 s b hd d) = x (ix4 b hd s d) :=
  transpose_apply _ x h _ _ fun c => match c with | ⟨0, _⟩ => rfl | ⟨1, _⟩ => rfl | ⟨2, _⟩ => rfl | ⟨3, _⟩ => rfl

/-- The head merge at an index: with `bh = 16 · b + hd`, `r = 4 · s + b` and `c = 80 · hd + d`, the merged array
    at `(r, c)` is the source at `(bh, s, d)`. -/
theorem head_merge_apply (x : (⟨3, ![64, 2048, 80]⟩ : Shape).Idx → α)
    (h1 : (⟨3, ![64, 2048, 80]⟩ : Shape).ShapeCasts ⟨4, ![4, 16, 2048, 80]⟩)
    (h2 : (⟨4, ![4, 16, 2048, 80]⟩ : Shape).Transposes [2, 0, 1, 3] ⟨4, ![2048, 4, 16, 80]⟩)
    (h3 : (⟨4, ![2048, 4, 16, 80]⟩ : Shape).ShapeCasts ⟨2, ![8192, 1280]⟩)
    (b : Fin 4) (hd : Fin 16) (s : Fin 2048) (d : Fin 80) (bh : Fin 64) (r : Fin 8192) (c : Fin 1280)
    (hbh : bh.val = 16 * b.val + hd.val) (hr : r.val = 4 * s.val + b.val) (hc : c.val = 80 * hd.val + d.val) :
    shapeCast ⟨2, ![8192, 1280]⟩
        (transpose ⟨4, ![2048, 4, 16, 80]⟩ [2, 0, 1, 3] (shapeCast ⟨4, ![4, 16, 2048, 80]⟩ x h1) h2) h3
        (ix2 r c)
      = x (ix3 bh s d) := by
  refine (shapeCast_apply _ h3 (ix2 r c) (ix4 s b hd d) ?_).trans ?_
  · rw [Shape.rowMajor_val_two, Shape.rowMajor_val_four]
    show ((s.val * 4 + b.val) * 16 + hd.val) * 80 + d.val = r.val * 1280 + c.val
    omega
  refine (heads_back_apply _ h2 s b hd d).trans ?_
  refine shapeCast_apply x h1 (ix4 b hd s d) (ix3 bh s d) ?_
  rw [Shape.rowMajor_val_four, Shape.rowMajor_val_three]
  show (bh.val * 2048 + s.val) * 80 + d.val = ((b.val * 16 + hd.val) * 2048 + s.val) * 80 + d.val
  omega

end General

/-! ## At the program's shapes: the three parts and the merge, exactly as @main's host operations compose them -/

/-- The queries: columns from 0 on. -/
theorem k_headQ (x : FVec Ideal S8192x3840 .bf16) (b : Fin 4) (h : Fin 16) (s : Fin 2048) (d : Fin 80) :
    shapeCast S64x2048x80
        (transpose S4x16x2048x80 [1, 2, 0, 3]
          (shapeCast S2048x4x16x80 (extractStridedSlice S8192x1280 ![0, 0] x slices_S8192x3840_S8192x1280_0_0)
            shapeCasts_S8192x1280_S2048x4x16x80)
          transposes_S2048x4x16x80_S4x16x2048x80_1_2_0_3)
        shapeCasts_S4x16x2048x80_S64x2048x80
        (ix3 (⟨16 * b.val + h.val, by have := b.isLt; have := h.isLt; omega⟩ : Fin 64) s d)
      = x (ix2 (⟨4 * s.val + b.val, by have := s.isLt; have := b.isLt; omega⟩ : Fin 8192)
            (⟨0 + 80 * h.val + d.val, by have := h.isLt; have := d.isLt; omega⟩ : Fin 3840)) :=
  head_split_apply 0 x _ _ _ _ b h s d _ _ (⟨80 * h.val + d.val, by have := h.isLt; have := d.isLt; omega⟩ : Fin 1280) _ rfl rfl rfl
    (by show 0 + 80 * h.val + d.val = 0 + (80 * h.val + d.val); omega)

/-- The keys: columns from 1280 on. -/
theorem k_headK (x : FVec Ideal S8192x3840 .bf16) (b : Fin 4) (h : Fin 16) (s : Fin 2048) (d : Fin 80) :
    shapeCast S64x2048x80
        (transpose S4x16x2048x80 [1, 2, 0, 3]
          (shapeCast S2048x4x16x80 (extractStridedSlice S8192x1280 ![0, 1280] x slices_S8192x3840_S8192x1280_0_1280)
            shapeCasts_S8192x1280_S2048x4x16x80)
          transposes_S2048x4x16x80_S4x16x2048x80_1_2_0_3)
        shapeCasts_S4x16x2048x80_S64x2048x80
        (ix3 (⟨16 * b.val + h.val, by have := b.isLt; have := h.isLt; omega⟩ : Fin 64) s d)
      = x (ix2 (⟨4 * s.val + b.val, by have := s.isLt; have := b.isLt; omega⟩ : Fin 8192)
            (⟨1280 + 80 * h.val + d.val, by have := h.isLt; have := d.isLt; omega⟩ : Fin 3840)) :=
  head_split_apply 1280 x _ _ _ _ b h s d _ _ (⟨80 * h.val + d.val, by have := h.isLt; have := d.isLt; omega⟩ : Fin 1280) _ rfl rfl rfl
    (by show 1280 + 80 * h.val + d.val = 1280 + (80 * h.val + d.val); omega)

/-- The values: columns from 2560 on. -/
theorem k_headV (x : FVec Ideal S8192x3840 .bf16) (b : Fin 4) (h : Fin 16) (s : Fin 2048) (d : Fin 80) :
    shapeCast S64x2048x80
        (transpose S4x16x2048x80 [1, 2, 0, 3]
          (shapeCast S2048x4x16x80 (extractStridedSlice S8192x1280 ![0, 2560] x slices_S8192x3840_S8192x1280_0_2560)
            shapeCasts_S8192x1280_S2048x4x16x80)
          transposes_S2048x4x16x80_S4x16x2048x80_1_2_0_3)
        shapeCasts_S4x16x2048x80_S64x2048x80
        (ix3 (⟨16 * b.val + h.val, by have := b.isLt; have := h.isLt; omega⟩ : Fin 64) s d)
      = x (ix2 (⟨4 * s.val + b.val, by have := s.isLt; have := b.isLt; omega⟩ : Fin 8192)
            (⟨2560 + 80 * h.val + d.val, by have := h.isLt; have := d.isLt; omega⟩ : Fin 3840)) :=
  head_split_apply 2560 x _ _ _ _ b h s d _ _ (⟨80 * h.val + d.val, by have := h.isLt; have := d.isLt; omega⟩ : Fin 1280) _ rfl rfl rfl
    (by show 2560 + 80 * h.val + d.val = 2560 + (80 * h.val + d.val); omega)

/-- The merge: the attention result laid back as 8192 rows by 1280 columns. -/
theorem k_merge (y : FVec Ideal S64x2048x80 .bf16) (s : Fin 2048) (b : Fin 4) (h : Fin 16) (d : Fin 80) :
    shapeCast S8192x1280
        (transpose S2048x4x16x80 [2, 0, 1, 3] (shapeCast S4x16x2048x80 y shapeCasts_S64x2048x80_S4x16x2048x80)
          transposes_S4x16x2048x80_S2048x4x16x80_2_0_1_3)
        shapeCasts_S2048x4x16x80_S8192x1280
        (ix2 (⟨4 * s.val + b.val, by have := s.isLt; have := b.isLt; omega⟩ : Fin 8192) (⟨80 * h.val + d.val, by have := h.isLt; have := d.isLt; omega⟩ : Fin 1280))
      = y (ix3 (⟨16 * b.val + h.val, by have := b.isLt; have := h.isLt; omega⟩ : Fin 64) s d) :=
  head_merge_apply y _ _ _ b h s d _ _ _ rfl rfl rfl

end Cert.KernelIdeal.Val

end
-- ==== Proof.Val.HostHeads.lean ====
/-
  The head split and the head merge as the program's host stretches compose them, read at an index from whatever
  contents V the stretch starts with.

  Before the attention region the projected features (8192 rows, row 4·s + b; 3840 columns) are cut into queries,
  keys and values (1280 columns each, from column 0, 1280, 2560 on) and each is laid out by head: entry
  (16·b + h, s, d) of a part is the projected feature off + 80·h + d of row 4·s + b.

  After it the heads are laid side by side again: column 80·h + d of row 4·s + b is entry (16·b + h, s, d) of the
  attention region's result.
-/
import proofs.«402768_j2499670966342_3_alg».proof.Proof.Gen.KernelIdeal.Launch
import proofs.«402768_j2499670966342_3_alg».proof.Proof.Val.Heads
import Idealize.ShloMosaic.Lib.StableHlo.Run

noncomputable section

namespace Cert.KernelIdeal.Val

open Cert.KernelIdeal Cert.KernelIdeal.Gen
open Idealize.ShloMosaic Idealize.ShloMosaic.TcCoe Idealize.ShloMosaic.ValueIdx

-- the contents a stretch starts with
variable (V : Valuation τ sig (Elt Ideal))

/-- The queries by head: entry (16·b + h, s, d) is the projected feature 80·h + d of row 4·s + b. -/
theorem host1_v10 (b : Fin 4) (hd : Fin 16) (s : Fin 2048) (d : Fin 80) (bh : Fin 64) (r : Fin 8192) (k : Fin 3840)
    (hbh : bh.val = 16 * b.val + hd.val) (hr : r.val = 4 * s.val + b.val) (hk : k.val = 0 + 80 * hd.val + d.val) :
    (StableHlo.after (hostOps1 (F := Ideal)) V (Proc.devRef .tc main_v10) : S64x2048x80.Idx → EReal) (ix3 bh s d)
      = (V (Proc.devRef .tc main_v4) : S8192x3840.Idx → EReal) (ix2 r k) := by
  have e : (StableHlo.after (hostOps1 (F := Ideal)) V (Proc.devRef .tc main_v10) : S64x2048x80.Idx → EReal)
      = shapeCast S64x2048x80
          (transpose S4x16x2048x80 [1, 2, 0, 3]
            (shapeCast S2048x4x16x80
              (extractStridedSlice S8192x1280 ![0, 0] (V (Proc.devRef .tc main_v4) : S8192x3840.Idx → EReal)
                Facts₀.slices_S8192x3840_S8192x1280_0_0)
              Facts₀.shapeCasts_S8192x1280_S2048x4x16x80)
            Facts₀.transposes_S2048x4x16x80_S4x16x2048x80_1_2_0_3)
          Facts₀.shapeCasts_S4x16x2048x80_S64x2048x80 := by
    show StableHlo.after hostOps1 V (Proc.devRef .tc main_v10) = _
    after_results
    rfl
  rw [e]
  exact head_split_apply 0 _ _ _ _ _ b hd s d bh r
    (⟨80 * hd.val + d.val, by have := hd.isLt; have := d.isLt; omega⟩ : Fin 1280) k hbh hr rfl
    (by show k.val = 0 + (80 * hd.val + d.val); omega)

/-- The keys by head: entry (16·b + h, s, d) is the projected feature 1280 + 80·h + d of row 4·s + b. -/
theorem host1_v13 (b : Fin 4) (hd : Fin 16) (s : Fin 2048) (d : Fin 80) (bh : Fin 64) (r : Fin 8192) (k : Fin 3840)
    (hbh : bh.val = 16 * b.val + hd.val) (hr : r.val = 4 * s.val + b.val) (hk : k.val = 1280 + 80 * hd.val + d.val) :
    (StableHlo.after (hostOps1 (F := Ideal)) V (Proc.devRef .tc main_v13) : S64x2048x80.Idx → EReal) (ix3 bh s d)
      = (V (Proc.devRef .tc main_v4) : S8192x3840.Idx → EReal) (ix2 r k) := by
  have e : (StableHlo.after (hostOps1 (F := Ideal)) V (Proc.devRef .tc main_v13) : S64x2048x80.Idx → EReal)
      = shapeCast S64x2048x80
          (transpose S4x16x2048x80 [1, 2, 0, 3]
            (shapeCast S2048x4x16x80
              (extractStridedSlice S8192x1280 ![0, 1280] (V (Proc.devRef .tc main_v4) : S8192x3840.Idx → EReal)
                Facts₀.slices_S8192x3840_S8192x1280_0_1280)
              Facts₀.shapeCasts_S8192x1280_S2048x4x16x80)
            Facts₀.transposes_S2048x4x16x80_S4x16x2048x80_1_2_0_3)
          Facts₀.shapeCasts_S4x16x2048x80_S64x2048x80 := by
    show StableHlo.after hostOps1 V (Proc.devRef .tc main_v13) = _
    after_results
    rfl
  rw [e]
  exact head_split_apply 1280 _ _ _ _ _ b hd s d bh r
    (⟨80 * hd.val + d.val, by have := hd.isLt; have := d.isLt; omega⟩ : Fin 1280) k hbh hr rfl
    (by show k.val = 1280 + (80 * hd.val + d.val); omega)

/-- The values by head: entry (16·b + h, s, d) is the projected feature 2560 + 80·h + d of row 4·s + b. -/
theorem host1_v16 (b : Fin 4) (hd : Fin 16) (s : Fin 2048) (d : Fin 80) (bh : Fin 64) (r : Fin 8192) (k : Fin 3840)
    (hbh : bh.val = 16 * b.val + hd.val) (hr : r.val = 4 * s.val + b.val) (hk : k.val = 2560 + 80 * hd.val + d.val) :
    (StableHlo.after (hostOps1 (F := Ideal)) V (Proc.devRef .tc main_v16) : S64x2048x80.Idx → EReal) (ix3 bh s d)
      = (V (Proc.devRef .tc main_v4) : S8192x3840.Idx → EReal) (ix2 r k) := by
  have e : (StableHlo.after (hostOps1 (F := Ideal)) V (Proc.devRef .tc main_v16) : S64x2048x80.Idx → EReal)
      = shapeCast S64x2048x80
          (transpose S4x16x2048x80 [1, 2, 0, 3]
            (shapeCast S2048x4x16x80
              (extractStridedSlice S8192x1280 ![0, 2560] (V (Proc.devRef .tc main_v4) : S8192x3840.Idx → EReal)
                Facts₀.slices_S8192x3840_S8192x1280_0_2560)
              Facts₀.shapeCasts_S8192x1280_S2048x4x16x80)
            Facts₀.transposes_S2048x4x16x80_S4x16x2048x80_1_2_0_3)
          Facts₀.shapeCasts_S4x16x2048x80_S64x2048x80 := by
    show StableHlo.after hostOps1 V (Proc.devRef .tc main_v16) = _
    after_results
    rfl
  rw [e]
  exact head_split_apply 2560 _ _ _ _ _ b hd s d bh r
    (⟨80 * hd.val + d.val, by have := hd.isLt; have := d.isLt; omega⟩ : Fin 1280) k hbh hr rfl
    (by show k.val = 2560 + (80 * hd.val + d.val); omega)

/-- The heads side by side again: column 80·h + d of row 4·s + b is entry (16·b + h, s, d) of the attention result. -/
theorem host2_v25 (b : Fin 4) (hd : Fin 16) (s : Fin 2048) (d : Fin 80) (bh : Fin 64) (r : Fin 8192) (cl : Fin 1280)
    (hbh : bh.val = 16 * b.val + hd.val) (hr : r.val = 4 * s.val + b.val) (hc : cl.val = 80 * hd.val + d.val) :
    (StableHlo.after (hostOps2 (F := Ideal)) V (Proc.devRef .tc main_v25) : S8192x1280.Idx → EReal) (ix2 r cl)
      = (V (Proc.devRef .tc main_v22) : S64x2048x80.Idx → EReal) (ix3 bh s d) := by
  have e : (StableHlo.after (hostOps2 (F := Ideal)) V (Proc.devRef .tc main_v25) : S8192x1280.Idx → EReal)
      = shapeCast S8192x1280
          (transpose S2048x4x16x80 [2, 0, 1, 3]
            (shapeCast S4x16x2048x80 (V (Proc.devRef .tc main_v22) : S64x2048x80.Idx → EReal)
              Facts₀.shapeCasts_S64x2048x80_S4x16x2048x80)
            Facts₀.transposes_S4x16x2048x80_S2048x4x16x80_2_0_1_3)
          Facts₀.shapeCasts_S2048x4x16x80_S8192x1280 := by
    show StableHlo.after hostOps2 V (Proc.devRef .tc main_v25) = _
    after_results
    rfl
  rw [e]
  exact head_merge_apply _ _ _ _ b hd s d bh r cl hbh hr hc

end Cert.KernelIdeal.Val

end
-- ==== Proof.Val.Kernel.lean ====
/-
  The kernel program's result is the attention layer of its arguments.

  The program is seven steps: host operations, the input projection (a grid region), host operations, attention
  (a grid region), host operations, the output projection (a grid region), host operations. Walking the buffer
  contents at the boundaries from the launch memory:

  * the input projection is entered with the hidden states flattened to rows 4·s + b, its weights transposed and its
    bias as a row, so row 4·s + b, column k of what it leaves is the projected feature k of (s, b);
  * the attention region is entered with the three parts of that array laid out by head and with the rotary tables
    of the angles, so entry (16·b + h, s, d) of what it leaves is head h of batch b's attention at (s, d), its
    queries and keys rotated; the region's rotation by a cyclic shift against the signed sines is the rotation by
    the half turn against the plain sines;
  * the output projection is entered with the heads laid side by side again, its weights transposed and its bias as
    a row, so row 4·s + b, column e of what it leaves is the layer's output (s, b, e);
  * the last reshape unfolds the rows into (s, b).
-/
import proofs.«402768_j2499670966342_3_alg».proof.Proof.KI.Run
import proofs.«402768_j2499670966342_3_alg».proof.Proof.Val.Proj
import proofs.«402768_j2499670966342_3_alg».proof.Proof.Val.Attn
import proofs.«402768_j2499670966342_3_alg».proof.Proof.Val.Host
import proofs.«402768_j2499670966342_3_alg».proof.Proof.Val.HostHeads
import proofs.«402768_j2499670966342_3_alg».proof.Proof.Spec

noncomputable section

namespace Cert.KernelIdeal.Val

open Cert.KernelIdeal Cert.KernelIdeal.Gen Cert.KernelIdeal.Hand
open Idealize.ShloMosaic Idealize.ShloMosaic.TcCoe Idealize.ShloMosaic.ValueIdx Idealize.SL.Sem

/-! ## Two congruences of the mathematics -/

/-- A matrix product with a bias row whose left rows are the rows 4·s + b of an array Y, whose right factor is a
    weight matrix transposed and whose bias row is the bias, is the projection of Y. -/
theorem mm_row_eq_proj {n : Nat} (x : Fin 8192 → Fin 1280 → EReal) (w : Fin 1280 → Fin n → EReal) (bw : Fin n → EReal)
    (Y : Fin 2048 → Fin 4 → Fin 1280 → EReal) (W : Fin n → Fin 1280 → EReal) (bv : Fin n → EReal)
    (s : Fin 2048) (bb : Fin 4) (i : Fin 8192) (e : Fin n)
    (hx : ∀ d, x i d = Y s bb d) (hw : ∀ d, w d e = W e d) (hb : bw e = bv e) :
    Cert.Spec.mm x w bw i e = Cert.Spec.proj Y W bv s bb e := by
  unfold Cert.Spec.mm Cert.Spec.proj
  rw [hb]
  congr 1
  exact Finset.sum_congr rfl fun d _ => by rw [hx d, hw d]

/-- Softmax attention on rotated queries and keys depends only on the entries of its five arrays. -/
theorem coreR_ropeK_congr {q q' k k' v v' C C' S S' : Fin 2048 → Fin 80 → EReal}
    (hq : ∀ s d, q s d = q' s d) (hk : ∀ s d, k s d = k' s d) (hv : ∀ s d, v s d = v' s d)
    (hC : ∀ s d, C s d = C' s d) (hS : ∀ s d, S s d = S' s d) (s : Fin 2048) (d : Fin 80) :
    Cert.Spec.coreR (Cert.Spec.ropeK q C S) (Cert.Spec.ropeK k C S) v s d
      = Cert.Spec.coreR (Cert.Spec.ropeK q' C' S') (Cert.Spec.ropeK k' C' S') v' s d := by
  obtain rfl : q = q' := funext fun s => funext (hq s)
  obtain rfl : k = k' := funext fun s => funext (hk s)
  obtain rfl : v = v' := funext fun s => funext (hv s)
  obtain rfl : C = C' := funext fun s => funext (hC s)
  obtain rfl : S = S' := funext fun s => funext (hS s)
  rfl

/-! ## The arguments as functions of their coordinates -/

variable (m : (ℓ : Loc nD τ sig) → Buf (Elt Ideal) ℓ) (ρ : Dev nD → PrngReg) (c : Dev nD)

/-- The hidden states (position, batch, feature). -/
abbrev argX : Fin 2048 → Fin 4 → Fin 1280 → EReal :=
  fun s b d => (m ((c : Thread nD τ).loc main_arg0) : S2048x4x1280.Idx → EReal) (ix3 s b d)
/-- The angles (position, 40 angles). -/
abbrev argA : Fin 2048 → Fin 40 → EReal :=
  fun s j => (m ((c : Thread nD τ).loc main_arg1) : S2048x40.Idx → EReal) (ix2 s j)
/-- The input projection's weights (output feature, input feature) and bias. -/
abbrev argWin : Fin 3840 → Fin 1280 → EReal :=
  fun e d => (m ((c : Thread nD τ).loc main_arg2) : S3840x1280.Idx → EReal) (ix2 e d)
abbrev argBin : Fin 3840 → EReal :=
  fun e => (m ((c : Thread nD τ).loc main_arg3) : S3840.Idx → EReal) (ix1 e)
/-- The output projection's weights and bias. -/
abbrev argWout : Fin 1280 → Fin 1280 → EReal :=
  fun e d => (m ((c : Thread nD τ).loc main_arg4) : S1280x1280.Idx → EReal) (ix2 e d)
abbrev argBout : Fin 1280 → EReal :=
  fun e => (m ((c : Thread nD τ).loc main_arg5) : S1280.Idx → EReal) (ix1 e)

/-- The projected features of the arguments. -/
abbrev argP : Fin 2048 → Fin 4 → Fin 3840 → EReal := Cert.Spec.proj (argX m c) (argWin m c) (argBin m c)

/-! ## The arguments, unchanged up to where they are read -/

theorem W2_arg1 : W2 m ρ c (Proc.devRef .tc main_arg1) = m ((c : Thread nD τ).loc main_arg1) :=
  (W2_of_ne m ρ c main_arg1 (by decide)).trans <| (W1_of m ρ c main_arg1 (by decide)).trans rfl
theorem W4_arg4 : W4 m ρ c (Proc.devRef .tc main_arg4) = m ((c : Thread nD τ).loc main_arg4) :=
  (W4_of_ne m ρ c main_arg4 (by decide)).trans <| (W3_of m ρ c main_arg4 (by decide)).trans <|
  (W2_of_ne m ρ c main_arg4 (by decide)).trans <| (W1_of m ρ c main_arg4 (by decide)).trans rfl
theorem W4_arg5 : W4 m ρ c (Proc.devRef .tc main_arg5) = m ((c : Thread nD τ).loc main_arg5) :=
  (W4_of_ne m ρ c main_arg5 (by decide)).trans <| (W3_of m ρ c main_arg5 (by decide)).trans <|
  (W2_of_ne m ρ c main_arg5 (by decide)).trans <| (W1_of m ρ c main_arg5 (by decide)).trans rfl

/-! ## The input projection -/

theorem entry0_x (s : Fin 2048) (b : Fin 4) (d : Fin 1280) (r : Fin 8192) (hr : r.val = 4 * s.val + b.val) :
    (V1 m ρ c main_v0 : S8192x1280.Idx → EReal) (ix2 r d) = argX m c s b d :=
  host0_v0 (W0 m ρ c) s b d r hr
theorem entry0_w (d : Fin 1280) (e : Fin 3840) :
    (V1 m ρ c main_v2 : S1280x3840.Idx → EReal) (ix2 d e) = argWin m c e d :=
  host0_v2 (W0 m ρ c) d e
theorem entry0_b (e : Fin 3840) :
    (V1 m ρ c main_v3 : S1x3840.Idx → EReal) (ix2 (0 : Fin 1) e) = argBin m c e :=
  host0_v3 (W0 m ρ c) e

/-- What the input projection leaves: row 4·s + b, column k is the projected feature k of (s, b). -/
theorem proj_rows (s : Fin 2048) (b : Fin 4) (k : Fin 3840) (r : Fin 8192) (hr : r.val = 4 * s.val + b.val) :
    (W2 m ρ c (Proc.devRef .tc main_v4) : S8192x3840.Idx → EReal) (ix2 r k) = argP m c s b k := by
  rw [show W2 m ρ c (Proc.devRef .tc main_v4) = (dat0 (V1 m ρ) c).arrAt 3 cfg0.N from W2_arr m ρ c 3]
  refine (final0 (V1 m ρ) c r k).trans ?_
  exact mm_row_eq_proj _ _ _ _ _ _ s b r k (fun d => entry0_x m ρ c s b d r hr) (fun d => entry0_w m ρ c d k)
    (entry0_b m ρ c k)

/-! ## Attention -/

theorem entry1_q (b : Fin 4) (hd : Fin 16) (s : Fin 2048) (d : Fin 80) (bh : Fin 64) (hbh : bh.val = 16 * b.val + hd.val) :
    (V3 m ρ c main_v10 : S64x2048x80.Idx → EReal) (ix3 bh s d) = Cert.Spec.headOf (argP m c) 0 (by decide) b hd s d :=
  (host1_v10 (W2 m ρ c) b hd s d bh (⟨4 * s.val + b.val, by have := s.isLt; have := b.isLt; omega⟩ : Fin 8192)
      (⟨0 + 80 * hd.val + d.val, by have := hd.isLt; have := d.isLt; omega⟩ : Fin 3840) hbh rfl rfl).trans
    (proj_rows m ρ c s b _ _ rfl)
theorem entry1_k (b : Fin 4) (hd : Fin 16) (s : Fin 2048) (d : Fin 80) (bh : Fin 64) (hbh : bh.val = 16 * b.val + hd.val) :
    (V3 m ρ c main_v13 : S64x2048x80.Idx → EReal) (ix3 bh s d) = Cert.Spec.headOf (argP m c) 1280 (by decide) b hd s d :=
  (host1_v13 (W2 m ρ c) b hd s d bh (⟨4 * s.val + b.val, by have := s.isLt; have := b.isLt; omega⟩ : Fin 8192)
      (⟨1280 + 80 * hd.val + d.val, by have := hd.isLt; have := d.isLt; omega⟩ : Fin 3840) hbh rfl rfl).trans
    (proj_rows m ρ c s b _ _ rfl)
theorem entry1_v (b : Fin 4) (hd : Fin 16) (s : Fin 2048) (d : Fin 80) (bh : Fin 64) (hbh : bh.val = 16 * b.val + hd.val) :
    (V3 m ρ c main_v16 : S64x2048x80.Idx → EReal) (ix3 bh s d) = Cert.Spec.headOf (argP m c) 2560 (by decide) b hd s d :=
  (host1_v16 (W2 m ρ c) b hd s d bh (⟨4 * s.val + b.val, by have := s.isLt; have := b.isLt; omega⟩ : Fin 8192)
      (⟨2560 + 80 * hd.val + d.val, by have := hd.isLt; have := d.isLt; omega⟩ : Fin 3840) hbh rfl rfl).trans
    (proj_rows m ρ c s b _ _ rfl)

theorem entry1_cos (s : Fin 2048) (d : Fin 80) :
    (V3 m ρ c main_v19 : S2048x80.Idx → EReal) (ix2 s d) = Cert.Spec.cosT (argA m c) s d := by
  refine (host1_v19 (W2 m ρ c) s d).trans ?_
  rw [W2_arg1 m ρ c]
theorem entry1_sin (s : Fin 2048) (d : Fin 80) :
    (V3 m ρ c main_v21 : S2048x80.Idx → EReal) (ix2 s d) = Cert.Spec.sinS (argA m c) s d := by
  refine (host1_v21 (W2 m ρ c) s d).trans ?_
  rw [W2_arg1 m ρ c]

/-- What the attention region leaves: entry (16·b + h, s, d) is head h of batch b's attention at (s, d). The
    region rotates by the cyclic shift against the signed sines, which is the half rotation against the sines. -/
theorem attn_heads (b : Fin 4) (hd : Fin 16) (s : Fin 2048) (d : Fin 80) (bh : Fin 64) (hbh : bh.val = 16 * b.val + hd.val) :
    (W4 m ρ c (Proc.devRef .tc main_v22) : S64x2048x80.Idx → EReal) (ix3 bh s d)
      = Cert.Spec.attnAll (argP m c) (argA m c) b hd s d := by
  rw [show W4 m ρ c (Proc.devRef .tc main_v22) = (dat1 (V3 m ρ) c).arrAt 7 cfg1.N from W4_out m ρ c]
  refine (final1 (V3 m ρ) c bh s d).trans ?_
  refine (coreR_ropeK_congr (fun s d => entry1_q m ρ c b hd s d bh hbh) (fun s d => entry1_k m ρ c b hd s d bh hbh)
    (fun s d => entry1_v m ρ c b hd s d bh hbh) (fun s d => entry1_cos m ρ c s d) (fun s d => entry1_sin m ρ c s d) s d).trans ?_
  rw [Cert.Spec.ropeK_eq_rope, Cert.Spec.ropeK_eq_rope]
  rfl

/-! ## The output projection -/

/-- The output projection's left factor: row 4·s + b, column e' is the merged heads' feature e' of (s, b). -/
theorem merged_rows (s : Fin 2048) (b : Fin 4) (e' : Fin 1280) (r : Fin 8192) (hr : r.val = 4 * s.val + b.val) :
    (V5 m ρ c main_v25 : S8192x1280.Idx → EReal) (ix2 r e')
      = Cert.Spec.merged (Cert.Spec.attnAll (argP m c) (argA m c)) s b e' :=
  (host2_v25 (W4 m ρ c) b (⟨e'.val / 80, by have := e'.isLt; omega⟩ : Fin 16) s (⟨e'.val % 80, Nat.mod_lt _ (by decide)⟩ : Fin 80)
      (⟨16 * b.val + e'.val / 80, by have := b.isLt; have := e'.isLt; omega⟩ : Fin 64) r e' rfl hr
      (by show e'.val = 80 * (e'.val / 80) + e'.val % 80; omega)).trans
    (attn_heads m ρ c b _ s _ _ rfl)
theorem entry2_w (d : Fin 1280) (e : Fin 1280) :
    (V5 m ρ c main_v27 : S1280x1280.Idx → EReal) (ix2 d e) = argWout m c e d := by
  refine (host2_v27 (W4 m ρ c) d e).trans ?_
  rw [W4_arg4 m ρ c]
theorem entry2_b (e : Fin 1280) :
    (V5 m ρ c main_v28 : S1x1280.Idx → EReal) (ix2 (0 : Fin 1) e) = argBout m c e := by
  refine (host2_v28 (W4 m ρ c) e).trans ?_
  rw [W4_arg5 m ρ c]

/-- What the output projection leaves: row 4·s + b, column e is the layer's output (s, b, e). -/
theorem out_rows (s : Fin 2048) (b : Fin 4) (e : Fin 1280) (r : Fin 8192) (hr : r.val = 4 * s.val + b.val) :
    (W6 m ρ c (Proc.devRef .tc main_v29) : S8192x1280.Idx → EReal) (ix2 r e)
      = Cert.Spec.final (argX m c) (argA m c) (argWin m c) (argBin m c) (argWout m c) (argBout m c) s b e := by
  rw [show W6 m ρ c (Proc.devRef .tc main_v29) = (dat2 (V5 m ρ) c).arrAt 3 cfg2.N from W6_arr m ρ c 3]
  refine (final2 (V5 m ρ) c r e).trans ?_
  exact mm_row_eq_proj _ _ _ _ _ _ s b r e (fun d => merged_rows m ρ c s b d r hr) (fun d => entry2_w m ρ c d e)
    (entry2_b m ρ c e)

/-! ## The result -/

/-- The kernel program's result buffer at the return, entry by entry: the attention layer of the arguments. -/
theorem kernel_result (m : (ℓ : Loc nD τ sig) → Buf (Elt Ideal) ℓ) (ρ : Dev nD → PrngReg) (c : Dev nD)
    (s : Fin 2048) (b : Fin 4) (e : Fin 1280) :
    (W7 m ρ c (Proc.devRef .tc main_v30) : S2048x4x1280.Idx → EReal) (ix3 s b e)
      = Cert.Spec.final
          (fun s b d => (m ((c : Thread nD τ).loc main_arg0) : S2048x4x1280.Idx → EReal) (ix3 s b d))
          (fun s j => (m ((c : Thread nD τ).loc main_arg1) : S2048x40.Idx → EReal) (ix2 s j))
          (fun e d => (m ((c : Thread nD τ).loc main_arg2) : S3840x1280.Idx → EReal) (ix2 e d))
          (fun e => (m ((c : Thread nD τ).loc main_arg3) : S3840.Idx → EReal) (ix1 e))
          (fun e d => (m ((c : Thread nD τ).loc main_arg4) : S1280x1280.Idx → EReal) (ix2 e d))
          (fun e => (m ((c : Thread nD τ).loc main_arg5) : S1280.Idx → EReal) (ix1 e)) s b e :=
  (host3_v30 (W6 m ρ c) s b e (⟨4 * s.val + b.val, by have := s.isLt; have := b.isLt; omega⟩ : Fin 8192) rfl).trans
    (out_rows m ρ c s b e _ rfl)

end Cert.KernelIdeal.Val

end
-- ==== Proof.Ref.Layout.lean ====
/-
  The reference program's projections and rotary tables, read index by index over the extended reals.

  * The input projection: entry `(s, b, e)` of the projected features is `(∑ d, X s b d · W e d) + bias e`.
  * The rotary tables: the 40 angles of a position are laid out twice over the 80 features, so feature `d`
    reads the cosine (sine) of angle `d mod 40`.
  * The output projection is the same matrix product with a bias row, taken of the merged heads.
-/
import proofs.«402768_j2499670966342_3_alg».proof.Proof.Gen.ReferenceIdeal.Read
import proofs.«402768_j2499670966342_3_alg».proof.Proof.Spec
import Idealize.ShloMosaic.Lib.ValueIdx
import Idealize.ShloMosaic.PureOps.Ideal

noncomputable section

namespace Cert.ReferenceIdeal.RefValue

open Cert.ReferenceIdeal Cert.ReferenceIdeal.Gen Idealize.ShloMosaic Idealize.ShloMosaic.ValueIdx

/-! ### The input projection

The contraction pairs hidden feature `k` of position `s`, batch `b` with column `k` of weight row `e`; the bias
is spread over positions and batches, so entry `(s, b, e)` reads bias `e`. -/

theorem proj_in_lhs (s : Fin 2048) (b : Fin 4) (e : Fin 3840) (k : Fin 1280) :
    Read.lidx_main_v0 (ix3 s b e) k = ix3 s b k :=
  funext fun a => Fin.ext (by match a with | ⟨0, _⟩ => rfl | ⟨1, _⟩ => rfl | ⟨2, _⟩ => rfl)

theorem proj_in_rhs (s : Fin 2048) (b : Fin 4) (e : Fin 3840) (k : Fin 1280) :
    Read.ridx_main_v0 (ix3 s b e) k = ix2 e k :=
  funext fun a => Fin.ext (by match a with | ⟨0, _⟩ => rfl | ⟨1, _⟩ => rfl)

theorem proj_in_bias_spread (s : Fin 2048) (b : Fin 4) (e : Fin 3840) :
    Read.idx_main_v2 (ix3 s b e) = ix3 (0 : Fin 1) (0 : Fin 1) e :=
  funext fun a => Fin.ext (by match a with | ⟨0, _⟩ => rfl | ⟨1, _⟩ => rfl | ⟨2, _⟩ => rfl)

theorem proj_in_bias_row (e : Fin 3840) : Read.idx_main_v1 (ix3 (0 : Fin 1) (0 : Fin 1) e) = ix1 e :=
  funext fun a => Fin.ext (by match a with | ⟨0, _⟩ => rfl)

/-- The input projection at an index. -/
theorem ref_proj_in (x0 : (⟨S2048x4x1280, .f32⟩ : BufTy).Contents (Elt Ideal)) (x2 : (⟨S3840x1280, .f32⟩ : BufTy).Contents (Elt Ideal)) (x3 : (⟨S3840, .f32⟩ : BufTy).Contents (Elt Ideal)) (s : Fin 2048) (b : Fin 4) (e : Fin 3840) :
    Read.val_main_v3 (F := Ideal) x0 x2 x3 (ix3 s b e)
      = Cert.Spec.proj (fun s b d => x0 (ix3 s b d)) (fun e d => x2 (ix2 e d)) (fun e => x3 (ix1 e)) s b e := by
  rw [Read.val_main_v3_apply, Read.val_main_v0_apply, Read.val_main_v2_apply, proj_in_bias_spread,
    Read.val_main_v1_apply, proj_in_bias_row, Ideal.addf_def]
  simp only [proj_in_lhs, proj_in_rhs]
  rfl

/-! ### The rotary tables

Four layout steps: the angles `(s, j)` are given unit axes, repeated along a new axis of length two, flattened so
that feature `d = 40·r + j` reads angle `j`, and given unit axes again. Composed, table entry `(0, s, 0, d)`
reads the angle array at `(s, d mod 40)`. -/

theorem table_unit_axes (s : Fin 2048) (d : Fin 80) :
    Read.idx_main_v16 (ix4 (0 : Fin 1) s (0 : Fin 1) d) = ix2 s d :=
  funext fun a => Fin.ext (by match a with | ⟨0, _⟩ => rfl | ⟨1, _⟩ => rfl)

theorem table_flatten (s : Fin 2048) (d : Fin 80) :
    Read.idx_main_v15 (ix2 s d)
      = ix4 (0 : Fin 1) s (⟨d.val / 40, by have := d.isLt; omega⟩ : Fin 2) (⟨d.val % 40, Nat.mod_lt _ (by decide)⟩ : Fin 40) :=
  funext fun a => Fin.ext (by
    have hs := s.isLt; have hd := d.isLt
    match a with
    | ⟨0, _⟩ => rfl
    | ⟨1, _⟩ => show (s.val * 80 + d.val) / 80 % 2048 = s.val; omega
    | ⟨2, _⟩ => show (s.val * 80 + d.val) / 40 % 2 = d.val / 40; omega
    | ⟨3, _⟩ => show (s.val * 80 + d.val) % 40 = d.val % 40; omega)

theorem table_repeat (s : Fin 2048) (r : Fin 2) (j : Fin 40) :
    Read.idx_main_v14 (ix4 (0 : Fin 1) s r j) = ix4 (0 : Fin 1) s (0 : Fin 1) j :=
  funext fun a => Fin.ext (by match a with | ⟨0, _⟩ => rfl | ⟨1, _⟩ => rfl | ⟨2, _⟩ => rfl | ⟨3, _⟩ => rfl)

theorem table_angles (s : Fin 2048) (j : Fin 40) :
    Read.idx_main_v13 (ix4 (0 : Fin 1) s (0 : Fin 1) j) = ix2 s j :=
  funext fun a => Fin.ext (by
    have hs := s.isLt; have hj := j.isLt
    match a with
    | ⟨0, _⟩ => show (((0 * 2048 + s.val) * 1 + 0) * 40 + j.val) / 40 = s.val; omega
    | ⟨1, _⟩ => show (((0 * 2048 + s.val) * 1 + 0) * 40 + j.val) % 40 = j.val; omega)

/-- The sine table goes through the same four layout steps. -/
theorem table_unit_axes' (s : Fin 2048) (d : Fin 80) :
    Read.idx_main_v21 (ix4 (0 : Fin 1) s (0 : Fin 1) d) = ix2 s d :=
  funext fun a => Fin.ext (by match a with | ⟨0, _⟩ => rfl | ⟨1, _⟩ => rfl)

theorem table_flatten' (s : Fin 2048) (d : Fin 80) :
    Read.idx_main_v20 (ix2 s d)
      = ix4 (0 : Fin 1) s (⟨d.val / 40, by have := d.isLt; omega⟩ : Fin 2) (⟨d.val % 40, Nat.mod_lt _ (by decide)⟩ : Fin 40) :=
  funext fun a => Fin.ext (by
    have hs := s.isLt; have hd := d.isLt
    match a with
    | ⟨0, _⟩ => rfl
    | ⟨1, _⟩ => show (s.val * 80 + d.val) / 80 % 2048 = s.val; omega
    | ⟨2, _⟩ => show (s.val * 80 + d.val) / 40 % 2 = d.val / 40; omega
    | ⟨3, _⟩ => show (s.val * 80 + d.val) % 40 = d.val % 40; omega)

theorem table_repeat' (s : Fin 2048) (r : Fin 2) (j : Fin 40) :
    Read.idx_main_v19 (ix4 (0 : Fin 1) s r j) = ix4 (0 : Fin 1) s (0 : Fin 1) j :=
  funext fun a => Fin.ext (by match a with | ⟨0, _⟩ => rfl | ⟨1, _⟩ => rfl | ⟨2, _⟩ => rfl | ⟨3, _⟩ => rfl)

theorem table_angles' (s : Fin 2048) (j : Fin 40) :
    Read.idx_main_v18 (ix4 (0 : Fin 1) s (0 : Fin 1) j) = ix2 s j :=
  funext fun a => Fin.ext (by
    have hs := s.isLt; have hj := j.isLt
    match a with
    | ⟨0, _⟩ => show (((0 * 2048 + s.val) * 1 + 0) * 40 + j.val) / 40 = s.val; omega
    | ⟨1, _⟩ => show (((0 * 2048 + s.val) * 1 + 0) * 40 + j.val) % 40 = j.val; omega)

/-- The cosine table: feature `d` of position `s` is the cosine of angle `d mod 40`. -/
theorem ref_cos (x1 : (⟨S2048x40, .f32⟩ : BufTy).Contents (Elt Ideal)) (s : Fin 2048) (d : Fin 80) :
    Read.val_main_v16 (F := Ideal) x1 (ix4 (0 : Fin 1) s (0 : Fin 1) d) = Cert.Spec.cosT (fun s j => x1 (ix2 s j)) s d := by
  rw [Read.val_main_v16_apply, table_unit_axes, Read.val_main_v15_apply, table_flatten, Read.val_main_v14_apply,
    table_repeat, Read.val_main_v13_apply, table_angles, Read.val_main_v12_apply, Ideal.hostUnary_cos_def]
  rfl

/-- The sine table: feature `d` of position `s` is the sine of angle `d mod 40`. -/
theorem ref_sin (x1 : (⟨S2048x40, .f32⟩ : BufTy).Contents (Elt Ideal)) (s : Fin 2048) (d : Fin 80) :
    Read.val_main_v21 (F := Ideal) x1 (ix4 (0 : Fin 1) s (0 : Fin 1) d) = Cert.Spec.sinT (fun s j => x1 (ix2 s j)) s d := by
  rw [Read.val_main_v21_apply, table_unit_axes', Read.val_main_v20_apply, table_flatten', Read.val_main_v19_apply,
    table_repeat', Read.val_main_v18_apply, table_angles', Read.val_main_v17_apply, Ideal.hostUnary_sin_def]
  rfl

/-! ### The output projection

The same contraction and bias row as the input projection, with the merged heads on the left. -/

theorem proj_out_lhs (s : Fin 2048) (b : Fin 4) (e : Fin 1280) (k : Fin 1280) :
    Read.lidx_main_v60 (ix3 s b e) k = ix3 s b k :=
  funext fun a => Fin.ext (by match a with | ⟨0, _⟩ => rfl | ⟨1, _⟩ => rfl | ⟨2, _⟩ => rfl)

theorem proj_out_rhs (s : Fin 2048) (b : Fin 4) (e : Fin 1280) (k : Fin 1280) :
    Read.ridx_main_v60 (ix3 s b e) k = ix2 e k :=
  funext fun a => Fin.ext (by match a with | ⟨0, _⟩ => rfl | ⟨1, _⟩ => rfl)

theorem proj_out_bias_spread (s : Fin 2048) (b : Fin 4) (e : Fin 1280) :
    Read.idx_main_v62 (ix3 s b e) = ix3 (0 : Fin 1) (0 : Fin 1) e :=
  funext fun a => Fin.ext (by match a with | ⟨0, _⟩ => rfl | ⟨1, _⟩ => rfl | ⟨2, _⟩ => rfl)

theorem proj_out_bias_row (e : Fin 1280) : Read.idx_main_v61 (ix3 (0 : Fin 1) (0 : Fin 1) e) = ix1 e :=
  funext fun a => Fin.ext (by match a with | ⟨0, _⟩ => rfl)

/-- The output projection at an index. -/
theorem ref_proj_out (x0 : (⟨S2048x4x1280, .f32⟩ : BufTy).Contents (Elt Ideal)) (x1 : (⟨S2048x40, .f32⟩ : BufTy).Contents (Elt Ideal)) (x2 : (⟨S3840x1280, .f32⟩ : BufTy).Contents (Elt Ideal)) (x3 : (⟨S3840, .f32⟩ : BufTy).Contents (Elt Ideal)) (x4 : (⟨S1280x1280, .f32⟩ : BufTy).Contents (Elt Ideal)) (x5 : (⟨S1280, .f32⟩ : BufTy).Contents (Elt Ideal)) (s : Fin 2048) (b : Fin 4) (e : Fin 1280) :
    Read.val_main_v63 (F := Ideal) x0 x1 x2 x3 x4 x5 (ix3 s b e)
      = Cert.Spec.proj (fun s b d => Read.val_main_v59 (F := Ideal) x0 x1 x2 x3 (ix3 s b d)) (fun e d => x4 (ix2 e d)) (fun e => x5 (ix1 e)) s b e := by
  rw [Read.val_main_v63_apply, Read.val_main_v60_apply, Read.val_main_v62_apply, proj_out_bias_spread,
    Read.val_main_v61_apply, proj_out_bias_row, Ideal.addf_def]
  simp only [proj_out_lhs, proj_out_rhs]
  rfl

end Cert.ReferenceIdeal.RefValue

end
-- ==== Proof.Ref.Heads.lean ====
/-
  The reference's head split and head merge, read at an index.

  The projected features `P s b e` (position, batch, 3840 columns) are reshaped to (position, batch, part, head,
  feature) with `e = 1280 · part + 80 · head + feature`, the part axis is brought to the front, the three parts
  (queries, keys, values) are sliced off it and the unit axis is dropped. So an element of a part at
  (batch, position, head, feature) is the projected feature at column `1280 · part + 80 · head + feature`:
  the head's slice `Spec.headOf`. After attention the heads (batch, head, position, feature) are transposed to
  (position, batch, head, feature) and the last two axes are flattened, `e = 80 · head + feature`: `Spec.merged`.
  Each step is a layout operation that reads its operand at a computed index; the composed index is identified
  coordinate by coordinate, by row-major arithmetic.
-/
import proofs.«402768_j2499670966342_3_alg».proof.Proof.Gen.ReferenceIdeal.Read
import proofs.«402768_j2499670966342_3_alg».proof.Proof.Spec
import Idealize.ShloMosaic.Lib.ValueIdx

noncomputable section

namespace Cert.ReferenceIdeal.RefValue

open Cert.ReferenceIdeal Cert.ReferenceIdeal.Gen Idealize.ShloMosaic Idealize.ShloMosaic.ValueIdx

/-! ## The index maps of the split, coordinate by coordinate -/

/-- Dropping the unit axis: (batch, position, head, feature) is read at (0, batch, position, head, feature). -/
theorem idx7_ix (b : Fin 4) (s : Fin 2048) (h : Fin 16) (d : Fin 80) :
    Read.idx_main_v7 (ix4 b s h d) = ix5 (0 : Fin 1) b s h d := by
  funext a; apply Fin.ext
  have hb := b.isLt; have hs := s.isLt; have hh := h.isLt; have hd := d.isLt
  match a with
  | ⟨0, _⟩ => rfl
  | ⟨1, _⟩ => show (((b.val * 2048 + s.val) * 16 + h.val) * 80 + d.val) / 2621440 % 4 = b.val; omega
  | ⟨2, _⟩ => show (((b.val * 2048 + s.val) * 16 + h.val) * 80 + d.val) / 1280 % 2048 = s.val; omega
  | ⟨3, _⟩ => show (((b.val * 2048 + s.val) * 16 + h.val) * 80 + d.val) / 80 % 16 = h.val; omega
  | ⟨4, _⟩ => show (((b.val * 2048 + s.val) * 16 + h.val) * 80 + d.val) % 80 = d.val; omega

theorem idx9_ix (b : Fin 4) (s : Fin 2048) (h : Fin 16) (d : Fin 80) :
    Read.idx_main_v9 (ix4 b s h d) = ix5 (0 : Fin 1) b s h d := idx7_ix b s h d

theorem idx11_ix (b : Fin 4) (s : Fin 2048) (h : Fin 16) (d : Fin 80) :
    Read.idx_main_v11 (ix4 b s h d) = ix5 (0 : Fin 1) b s h d := idx7_ix b s h d

/-- The slice of part 0 of the leading axis. -/
theorem idx6_ix (b : Fin 4) (s : Fin 2048) (h : Fin 16) (d : Fin 80) :
    Read.idx_main_v6 (ix5 (0 : Fin 1) b s h d) = ix5 (0 : Fin 3) b s h d := by
  funext a; apply Fin.ext
  match a with
  | ⟨0, _⟩ => rfl
  | ⟨1, _⟩ => rfl
  | ⟨2, _⟩ => rfl
  | ⟨3, _⟩ => rfl
  | ⟨4, _⟩ => rfl

/-- The slice of part 1. -/
theorem idx8_ix (b : Fin 4) (s : Fin 2048) (h : Fin 16) (d : Fin 80) :
    Read.idx_main_v8 (ix5 (0 : Fin 1) b s h d) = ix5 (1 : Fin 3) b s h d := by
  funext a; apply Fin.ext
  match a with
  | ⟨0, _⟩ => rfl
  | ⟨1, _⟩ => rfl
  | ⟨2, _⟩ => rfl
  | ⟨3, _⟩ => rfl
  | ⟨4, _⟩ => rfl

/-- The slice of part 2. -/
theorem idx10_ix (b : Fin 4) (s : Fin 2048) (h : Fin 16) (d : Fin 80) :
    Read.idx_main_v10 (ix5 (0 : Fin 1) b s h d) = ix5 (2 : Fin 3) b s h d := by
  funext a; apply Fin.ext
  match a with
  | ⟨0, _⟩ => rfl
  | ⟨1, _⟩ => rfl
  | ⟨2, _⟩ => rfl
  | ⟨3, _⟩ => rfl
  | ⟨4, _⟩ => rfl

/-- The transposition that brings the part axis to the front, read backwards. -/
theorem idx5_ix (p : Fin 3) (b : Fin 4) (s : Fin 2048) (h : Fin 16) (d : Fin 80) :
    Read.idx_main_v5 (ix5 p b s h d) = ix5 s b p h d := by
  funext a; apply Fin.ext
  match a with
  | ⟨0, _⟩ => rfl
  | ⟨1, _⟩ => rfl
  | ⟨2, _⟩ => rfl
  | ⟨3, _⟩ => rfl
  | ⟨4, _⟩ => rfl

/-- The reshape of the 3840 columns into (part, head, feature): column `1280 · part + 80 · head + feature`. -/
theorem idx4_ix (s : Fin 2048) (b : Fin 4) (p : Fin 3) (h : Fin 16) (d : Fin 80) :
    Read.idx_main_v4 (ix5 s b p h d)
      = ix3 s b (⟨1280 * p.val + 80 * h.val + d.val, by have := p.isLt; have := h.isLt; have := d.isLt; omega⟩ : Fin 3840) := by
  funext a; apply Fin.ext
  have hp := p.isLt
  have hb := b.isLt; have hs := s.isLt; have hh := h.isLt; have hd := d.isLt
  match a with
  | ⟨0, _⟩ => show ((((s.val * 4 + b.val) * 3 + p.val) * 16 + h.val) * 80 + d.val) / 15360 = s.val; omega
  | ⟨1, _⟩ => show ((((s.val * 4 + b.val) * 3 + p.val) * 16 + h.val) * 80 + d.val) / 3840 % 4 = b.val; omega
  | ⟨2, _⟩ => show ((((s.val * 4 + b.val) * 3 + p.val) * 16 + h.val) * 80 + d.val) % 3840 = 1280 * p.val + 80 * h.val + d.val; omega

/-! ## The three parts as head slices of the projected features -/

/-- The queries: part 0, columns from 0 on. -/
theorem ref_headQ (x0 : (⟨S2048x4x1280, .f32⟩ : BufTy).Contents (Elt Ideal)) (x2 : (⟨S3840x1280, .f32⟩ : BufTy).Contents (Elt Ideal)) (x3 : (⟨S3840, .f32⟩ : BufTy).Contents (Elt Ideal))
    (b : Fin 4) (s : Fin 2048) (h : Fin 16) (d : Fin 80) :
    Read.val_main_v7 (F := Ideal) x0 x2 x3 (ix4 b s h d)
      = Cert.Spec.headOf (fun s b e => Read.val_main_v3 (F := Ideal) x0 x2 x3 (ix3 s b e)) 0 (by decide) b h s d := by
  rw [Read.val_main_v7_apply, idx7_ix, Read.val_main_v6_apply, idx6_ix, Read.val_main_v5_apply, idx5_ix, Read.val_main_v4_apply, idx4_ix]
  rfl

/-- The keys: part 1, columns from 1280 on. -/
theorem ref_headK (x0 : (⟨S2048x4x1280, .f32⟩ : BufTy).Contents (Elt Ideal)) (x2 : (⟨S3840x1280, .f32⟩ : BufTy).Contents (Elt Ideal)) (x3 : (⟨S3840, .f32⟩ : BufTy).Contents (Elt Ideal))
    (b : Fin 4) (s : Fin 2048) (h : Fin 16) (d : Fin 80) :
    Read.val_main_v9 (F := Ideal) x0 x2 x3 (ix4 b s h d)
      = Cert.Spec.headOf (fun s b e => Read.val_main_v3 (F := Ideal) x0 x2 x3 (ix3 s b e)) 1280 (by decide) b h s d := by
  rw [Read.val_main_v9_apply, idx9_ix, Read.val_main_v8_apply, idx8_ix, Read.val_main_v5_apply, idx5_ix, Read.val_main_v4_apply, idx4_ix]
  rfl

/-- The values: part 2, columns from 2560 on. -/
theorem ref_headV (x0 : (⟨S2048x4x1280, .f32⟩ : BufTy).Contents (Elt Ideal)) (x2 : (⟨S3840x1280, .f32⟩ : BufTy).Contents (Elt Ideal)) (x3 : (⟨S3840, .f32⟩ : BufTy).Contents (Elt Ideal))
    (b : Fin 4) (s : Fin 2048) (h : Fin 16) (d : Fin 80) :
    Read.val_main_v11 (F := Ideal) x0 x2 x3 (ix4 b s h d)
      = Cert.Spec.headOf (fun s b e => Read.val_main_v3 (F := Ideal) x0 x2 x3 (ix3 s b e)) 2560 (by decide) b h s d := by
  rw [Read.val_main_v11_apply, idx11_ix, Read.val_main_v10_apply, idx10_ix, Read.val_main_v5_apply, idx5_ix, Read.val_main_v4_apply, idx4_ix]
  rfl

/-! ## The merge -/

/-- Flattening (head, feature) into 1280 columns: column `e` is feature `e % 80` of head `e / 80`. -/
theorem idx59_ix (s : Fin 2048) (b : Fin 4) (e : Fin 1280) :
    Read.idx_main_v59 (ix3 s b e)
      = ix4 s b (⟨e.val / 80, by have := e.isLt; omega⟩ : Fin 16) (⟨e.val % 80, Nat.mod_lt _ (by decide)⟩ : Fin 80) := by
  funext a; apply Fin.ext
  have hs := s.isLt; have hb := b.isLt; have he := e.isLt
  match a with
  | ⟨0, _⟩ => show ((s.val * 4 + b.val) * 1280 + e.val) / 5120 = s.val; omega
  | ⟨1, _⟩ => show ((s.val * 4 + b.val) * 1280 + e.val) / 1280 % 4 = b.val; omega
  | ⟨2, _⟩ => show ((s.val * 4 + b.val) * 1280 + e.val) / 80 % 16 = e.val / 80; omega
  | ⟨3, _⟩ => show ((s.val * 4 + b.val) * 1280 + e.val) % 80 = e.val % 80; omega

/-- The transposition (batch, head, position, feature) → (position, batch, head, feature), read backwards. -/
theorem idx58_ix (s : Fin 2048) (b : Fin 4) (h : Fin 16) (d : Fin 80) :
    Read.idx_main_v58 (ix4 s b h d) = ix4 b h s d := by
  funext a; apply Fin.ext
  match a with
  | ⟨0, _⟩ => rfl
  | ⟨1, _⟩ => rfl
  | ⟨2, _⟩ => rfl
  | ⟨3, _⟩ => rfl

/-- The merged heads: the reference's array before the output projection is `Spec.merged` of its attention output. -/
theorem ref_merge (x0 : (⟨S2048x4x1280, .f32⟩ : BufTy).Contents (Elt Ideal)) (x1 : (⟨S2048x40, .f32⟩ : BufTy).Contents (Elt Ideal)) (x2 : (⟨S3840x1280, .f32⟩ : BufTy).Contents (Elt Ideal)) (x3 : (⟨S3840, .f32⟩ : BufTy).Contents (Elt Ideal))
    (s : Fin 2048) (b : Fin 4) (e : Fin 1280) :
    Read.val_main_v59 (F := Ideal) x0 x1 x2 x3 (ix3 s b e)
      = Cert.Spec.merged (fun b h s d => Read.val_main_v57 (F := Ideal) x0 x1 x2 x3 (ix4 b h s d)) s b e := by
  rw [Read.val_main_v59_apply, idx59_ix, Read.val_main_v58_apply, idx58_ix]
  rfl

end Cert.ReferenceIdeal.RefValue

end
-- ==== Proof.Ref.Attn.lean ====
/-
  The reference program's attention core, read at an index over the extended reals: the rotary embedding of the
  queries and keys by the half rotation, the scaled scores, the row maximum folded from -∞, the exponentials of the
  differences, their sum, the quotient, and the weighted sum of the values, are the attention of one head as the
  mathematics states it.
-/
import proofs.«402768_j2499670966342_3_alg».proof.Proof.Gen.ReferenceIdeal.Read
import proofs.«402768_j2499670966342_3_alg».proof.Proof.Spec
import Idealize.ShloMosaic.Lib.Pipeline.Value
import Idealize.ShloMosaic.Lib.ValueIdx
import Idealize.ShloMosaic.Lib.ValueLayout
import Idealize.ShloMosaic.PureOps.Reduce
import Idealize.ShloMosaic.PureOps.Ideal.Laws

noncomputable section

namespace Cert.ReferenceIdeal.RefValue

open Cert.ReferenceIdeal Cert.ReferenceIdeal.Gen Idealize.ShloMosaic Idealize.ShloMosaic.ValueIdx

variable (x0 : (⟨S2048x4x1280, .f32⟩ : BufTy).Contents (Elt Ideal)) (x1 : (⟨S2048x40, .f32⟩ : BufTy).Contents (Elt Ideal))
  (x2 : (⟨S3840x1280, .f32⟩ : BufTy).Contents (Elt Ideal)) (x3 : (⟨S3840, .f32⟩ : BufTy).Contents (Elt Ideal))

/-! ## The rotary tables, broadcast over batches and heads

The cosine and sine tables have one row per position; every batch and head reads the row of its position. -/

theorem v22_at (b : Fin 4) (s : Fin 2048) (h : Fin 16) (d : Fin 80) :
    Read.val_main_v22 (F := Ideal) x1 (ix4 b s h d) = Read.val_main_v16 (F := Ideal) x1 (ix4 (0 : Fin 1) s (0 : Fin 1) d) :=
  (Read.val_main_v22_apply x1 _).trans (congrArg (Read.val_main_v16 (F := Ideal) x1)
    (funext fun a => Fin.ext (by match a with | ⟨0, _⟩ => rfl | ⟨1, _⟩ => rfl | ⟨2, _⟩ => rfl | ⟨3, _⟩ => rfl)))

theorem v28_at (b : Fin 4) (s : Fin 2048) (h : Fin 16) (d : Fin 80) :
    Read.val_main_v28 (F := Ideal) x1 (ix4 b s h d) = Read.val_main_v21 (F := Ideal) x1 (ix4 (0 : Fin 1) s (0 : Fin 1) d) :=
  (Read.val_main_v28_apply x1 _).trans (congrArg (Read.val_main_v21 (F := Ideal) x1)
    (funext fun a => Fin.ext (by match a with | ⟨0, _⟩ => rfl | ⟨1, _⟩ => rfl | ⟨2, _⟩ => rfl | ⟨3, _⟩ => rfl)))

theorem v31_at (b : Fin 4) (s : Fin 2048) (h : Fin 16) (d : Fin 80) :
    Read.val_main_v31 (F := Ideal) x1 (ix4 b s h d) = Read.val_main_v16 (F := Ideal) x1 (ix4 (0 : Fin 1) s (0 : Fin 1) d) :=
  (Read.val_main_v31_apply x1 _).trans (congrArg (Read.val_main_v16 (F := Ideal) x1)
    (funext fun a => Fin.ext (by match a with | ⟨0, _⟩ => rfl | ⟨1, _⟩ => rfl | ⟨2, _⟩ => rfl | ⟨3, _⟩ => rfl)))

theorem v37_at (b : Fin 4) (s : Fin 2048) (h : Fin 16) (d : Fin 80) :
    Read.val_main_v37 (F := Ideal) x1 (ix4 b s h d) = Read.val_main_v21 (F := Ideal) x1 (ix4 (0 : Fin 1) s (0 : Fin 1) d) :=
  (Read.val_main_v37_apply x1 _).trans (congrArg (Read.val_main_v21 (F := Ideal) x1)
    (funext fun a => Fin.ext (by match a with | ⟨0, _⟩ => rfl | ⟨1, _⟩ => rfl | ⟨2, _⟩ => rfl | ⟨3, _⟩ => rfl)))

/-! ## The half rotation

The concatenation of the negated upper half of the features with their lower half is the half rotation
`(-t[40..80], t[0..40])` of the position's features. -/

theorem v27_at (b : Fin 4) (s : Fin 2048) (h : Fin 16) (d : Fin 80) :
    Read.val_main_v27 (F := Ideal) x0 x2 x3 (ix4 b s h d)
      = Cert.Spec.rot (fun d' => Read.val_main_v7 (F := Ideal) x0 x2 x3 (ix4 b s h d')) d := by
  unfold Read.val_main_v27 Cert.Spec.rot
  by_cases hd : d.val < 40
  · rw [dif_pos hd]
    refine (concatenate_pair_apply_left (t := S4x2048x16x80) (s₁ := S4x2048x16x40) (s₂ := S4x2048x16x40) 3 _ _ _ (ix4 b s h d) rfl (ix4 b s h (⟨d.val, hd⟩ : Fin 40))
      (fun c => by match c with | ⟨0, _⟩ => rfl | ⟨1, _⟩ => rfl | ⟨2, _⟩ => rfl | ⟨3, _⟩ => rfl)).trans ?_
    refine (Read.val_main_v25_apply x0 x2 x3 _).trans ?_
    refine (congrArg FloatOps.hostNegf (Read.val_main_v24_apply x0 x2 x3 _)).trans ?_
    exact congrArg (fun z : EReal => -z) (congrArg (Read.val_main_v7 (F := Ideal) x0 x2 x3)
      (funext fun a => Fin.ext (by
        match a with
        | ⟨0, _⟩ => rfl
        | ⟨1, _⟩ => rfl
        | ⟨2, _⟩ => rfl
        | ⟨3, _⟩ => exact Nat.add_comm 40 d.val)))
  · rw [dif_neg hd]
    have hd' : d.val - 40 < 40 := by have := d.isLt; omega
    refine (concatenate_pair_apply_right (t := S4x2048x16x80) (s₁ := S4x2048x16x40) (s₂ := S4x2048x16x40) 3 _ _ _ (ix4 b s h d) rfl rfl (ix4 b s h (⟨d.val - 40, hd'⟩ : Fin 40))
      (fun c hc => by
        match c with
        | ⟨0, _⟩ => rfl
        | ⟨1, _⟩ => rfl
        | ⟨2, _⟩ => rfl
        | ⟨3, _⟩ => exact absurd rfl hc)
      (by show d.val - 40 + 40 = d.val; omega)).trans ?_
    refine (Read.val_main_v26_apply x0 x2 x3 _).trans ?_
    exact congrArg (Read.val_main_v7 (F := Ideal) x0 x2 x3)
      (funext fun a => Fin.ext (by match a with | ⟨0, _⟩ => rfl | ⟨1, _⟩ => rfl | ⟨2, _⟩ => rfl | ⟨3, _⟩ => rfl))

theorem v36_at (b : Fin 4) (s : Fin 2048) (h : Fin 16) (d : Fin 80) :
    Read.val_main_v36 (F := Ideal) x0 x2 x3 (ix4 b s h d)
      = Cert.Spec.rot (fun d' => Read.val_main_v9 (F := Ideal) x0 x2 x3 (ix4 b s h d')) d := by
  unfold Read.val_main_v36 Cert.Spec.rot
  by_cases hd : d.val < 40
  · rw [dif_pos hd]
    refine (concatenate_pair_apply_left (t := S4x2048x16x80) (s₁ := S4x2048x16x40) (s₂ := S4x2048x16x40) 3 _ _ _ (ix4 b s h d) rfl (ix4 b s h (⟨d.val, hd⟩ : Fin 40))
      (fun c => by match c with | ⟨0, _⟩ => rfl | ⟨1, _⟩ => rfl | ⟨2, _⟩ => rfl | ⟨3, _⟩ => rfl)).trans ?_
    refine (Read.val_main_v34_apply x0 x2 x3 _).trans ?_
    refine (congrArg FloatOps.hostNegf (Read.val_main_v33_apply x0 x2 x3 _)).trans ?_
    exact congrArg (fun z : EReal => -z) (congrArg (Read.val_main_v9 (F := Ideal) x0 x2 x3)
      (funext fun a => Fin.ext (by
        match a with
        | ⟨0, _⟩ => rfl
        | ⟨1, _⟩ => rfl
        | ⟨2, _⟩ => rfl
        | ⟨3, _⟩ => exact Nat.add_comm 40 d.val)))
  · rw [dif_neg hd]
    have hd' : d.val - 40 < 40 := by have := d.isLt; omega
    refine (concatenate_pair_apply_right (t := S4x2048x16x80) (s₁ := S4x2048x16x40) (s₂ := S4x2048x16x40) 3 _ _ _ (ix4 b s h d) rfl rfl (ix4 b s h (⟨d.val - 40, hd'⟩ : Fin 40))
      (fun c hc => by
        match c with
        | ⟨0, _⟩ => rfl
        | ⟨1, _⟩ => rfl
        | ⟨2, _⟩ => rfl
        | ⟨3, _⟩ => exact absurd rfl hc)
      (by show d.val - 40 + 40 = d.val; omega)).trans ?_
    refine (Read.val_main_v35_apply x0 x2 x3 _).trans ?_
    exact congrArg (Read.val_main_v9 (F := Ideal) x0 x2 x3)
      (funext fun a => Fin.ext (by match a with | ⟨0, _⟩ => rfl | ⟨1, _⟩ => rfl | ⟨2, _⟩ => rfl | ⟨3, _⟩ => rfl))

/-! ## The rotary embedding of the queries and keys

`t · cos + rot t · sin` at every position, batch and head. -/

theorem v30_at (b : Fin 4) (s : Fin 2048) (h : Fin 16) (d : Fin 80) :
    Read.val_main_v30 (F := Ideal) x0 x1 x2 x3 (ix4 b s h d)
      = Cert.Spec.ropeRow (fun d' => Read.val_main_v7 (F := Ideal) x0 x2 x3 (ix4 b s h d'))
          (fun d' => Read.val_main_v16 (F := Ideal) x1 (ix4 (0 : Fin 1) s (0 : Fin 1) d'))
          (fun d' => Read.val_main_v21 (F := Ideal) x1 (ix4 (0 : Fin 1) s (0 : Fin 1) d')) d := by
  rw [Read.val_main_v30_apply, Read.val_main_v23_apply, Read.val_main_v29_apply, v22_at, v28_at, v27_at]
  rfl

theorem v39_at (b : Fin 4) (s : Fin 2048) (h : Fin 16) (d : Fin 80) :
    Read.val_main_v39 (F := Ideal) x0 x1 x2 x3 (ix4 b s h d)
      = Cert.Spec.ropeRow (fun d' => Read.val_main_v9 (F := Ideal) x0 x2 x3 (ix4 b s h d'))
          (fun d' => Read.val_main_v16 (F := Ideal) x1 (ix4 (0 : Fin 1) s (0 : Fin 1) d'))
          (fun d' => Read.val_main_v21 (F := Ideal) x1 (ix4 (0 : Fin 1) s (0 : Fin 1) d')) d := by
  rw [Read.val_main_v39_apply, Read.val_main_v32_apply, Read.val_main_v38_apply, v31_at, v37_at, v36_at]
  rfl

/-! ## Heads before positions

The three transposes exchange the position and head axes. -/

theorem v40_at (b : Fin 4) (h : Fin 16) (s : Fin 2048) (d : Fin 80) :
    Read.val_main_v40 (F := Ideal) x0 x1 x2 x3 (ix4 b h s d) = Read.val_main_v30 (F := Ideal) x0 x1 x2 x3 (ix4 b s h d) :=
  (Read.val_main_v40_apply x0 x1 x2 x3 _).trans (congrArg (Read.val_main_v30 (F := Ideal) x0 x1 x2 x3)
    (funext fun a => Fin.ext (by match a with | ⟨0, _⟩ => rfl | ⟨1, _⟩ => rfl | ⟨2, _⟩ => rfl | ⟨3, _⟩ => rfl)))

theorem v41_at (b : Fin 4) (h : Fin 16) (s : Fin 2048) (d : Fin 80) :
    Read.val_main_v41 (F := Ideal) x0 x1 x2 x3 (ix4 b h s d) = Read.val_main_v39 (F := Ideal) x0 x1 x2 x3 (ix4 b s h d) :=
  (Read.val_main_v41_apply x0 x1 x2 x3 _).trans (congrArg (Read.val_main_v39 (F := Ideal) x0 x1 x2 x3)
    (funext fun a => Fin.ext (by match a with | ⟨0, _⟩ => rfl | ⟨1, _⟩ => rfl | ⟨2, _⟩ => rfl | ⟨3, _⟩ => rfl)))

theorem v42_at (b : Fin 4) (h : Fin 16) (s : Fin 2048) (d : Fin 80) :
    Read.val_main_v42 (F := Ideal) x0 x2 x3 (ix4 b h s d) = Read.val_main_v11 (F := Ideal) x0 x2 x3 (ix4 b s h d) :=
  (Read.val_main_v42_apply x0 x2 x3 _).trans (congrArg (Read.val_main_v11 (F := Ideal) x0 x2 x3)
    (funext fun a => Fin.ext (by match a with | ⟨0, _⟩ => rfl | ⟨1, _⟩ => rfl | ⟨2, _⟩ => rfl | ⟨3, _⟩ => rfl)))

/-! ## The scaled scores

A query row against every key row, summed over the 80 features, times the scale word. -/

theorem v43_at (b : Fin 4) (h : Fin 16) (s k : Fin 2048) :
    Read.val_main_v43 (F := Ideal) x0 x1 x2 x3 (ix4 b h s k)
      = ∑ d' : Fin 80, Read.val_main_v40 (F := Ideal) x0 x1 x2 x3 (ix4 b h s d') * Read.val_main_v41 (F := Ideal) x0 x1 x2 x3 (ix4 b h k d') := by
  refine (Read.val_main_v43_apply x0 x1 x2 x3 _).trans (Finset.sum_congr rfl fun d' _ => ?_)
  exact congrArg₂ (· * ·)
    (congrArg (Read.val_main_v40 (F := Ideal) x0 x1 x2 x3)
      (funext fun a => Fin.ext (by match a with | ⟨0, _⟩ => rfl | ⟨1, _⟩ => rfl | ⟨2, _⟩ => rfl | ⟨3, _⟩ => rfl)))
    (congrArg (Read.val_main_v41 (F := Ideal) x0 x1 x2 x3)
      (funext fun a => Fin.ext (by match a with | ⟨0, _⟩ => rfl | ⟨1, _⟩ => rfl | ⟨2, _⟩ => rfl | ⟨3, _⟩ => rfl)))

/-- Head `h` of batch `b`: the unrotated queries, keys, values, and the two rotary tables, by position and feature. -/
abbrev qh (b : Fin 4) (h : Fin 16) : Fin 2048 → Fin 80 → EReal := fun s d => Read.val_main_v7 (F := Ideal) x0 x2 x3 (ix4 b s h d)
abbrev kh (b : Fin 4) (h : Fin 16) : Fin 2048 → Fin 80 → EReal := fun s d => Read.val_main_v9 (F := Ideal) x0 x2 x3 (ix4 b s h d)
abbrev vh (b : Fin 4) (h : Fin 16) : Fin 2048 → Fin 80 → EReal := fun s d => Read.val_main_v11 (F := Ideal) x0 x2 x3 (ix4 b s h d)
abbrev cT : Fin 2048 → Fin 80 → EReal := fun s d => Read.val_main_v16 (F := Ideal) x1 (ix4 (0 : Fin 1) s (0 : Fin 1) d)
abbrev sT : Fin 2048 → Fin 80 → EReal := fun s d => Read.val_main_v21 (F := Ideal) x1 (ix4 (0 : Fin 1) s (0 : Fin 1) d)

/-- The row of scaled scores of query position `s`, as the mathematics states it. -/
abbrev scoreOf (b : Fin 4) (h : Fin 16) (s : Fin 2048) : Fin 2048 → EReal :=
  Cert.Spec.scoreRow (Cert.Spec.rope (qh x0 x2 x3 b h) (cT x1) (sT x1) s) (Cert.Spec.rope (kh x0 x2 x3 b h) (cT x1) (sT x1))

theorem v45_at (b : Fin 4) (h : Fin 16) (s k : Fin 2048) :
    Read.val_main_v45 (F := Ideal) x0 x1 x2 x3 (ix4 b h s k) = scoreOf x0 x1 x2 x3 b h s k := by
  rw [Read.val_main_v45_apply, v43_at, Read.val_main_v44_apply, Read.val_main_cst_apply]
  unfold scoreOf Cert.Spec.scoreRow Cert.Spec.scale
  refine congrArg₂ (· * ·) (Finset.sum_congr rfl fun d' _ => ?_) rfl
  rw [v40_at, v41_at, v30_at, v39_at]
  rfl

/-! ## The row maximum

The maximum of a row of scores is folded from -∞; the further maximum with -∞ changes nothing, because the fold
already starts there. -/

/-- The scores' index over `(b, h, s)` with key position `k` put back on the last axis. -/
theorem lift_bhs (hR : Shape.Reduces S4x16x2048x2048 [3] S4x16x2048) (b : Fin 4) (h : Fin 16) (s : Fin 2048)
    (k : Fin (S4x16x2048x2048.size 3)) : hR.lift (ix3 b h s) k = ix4 b h s (⟨k.val, k.isLt⟩ : Fin 2048) := by
  funext c; apply Fin.ext
  fin_cases c <;> rfl

theorem v46_at (b : Fin 4) (h : Fin 16) (s : Fin 2048) :
    Read.val_main_v46 (F := Ideal) x0 x1 x2 x3 (ix3 b h s)
      = Cert.Spec.rowMax (fun k => Read.val_main_v45 (F := Ideal) x0 x1 x2 x3 (ix4 b h s k)) := by
  unfold Read.val_main_v46
  generalize Read.val_main_v45 (F := Ideal) x0 x1 x2 x3 = y
  have hR : Shape.Reduces S4x16x2048x2048 [3] S4x16x2048 := by decide
  refine (Host.reduce_eq_fold_single (FloatOps.maximumf (F := Ideal) (φ := .f32)) y _ reducesTo_S4x16x2048x2048_S4x16x2048_d3 hR h_S_ (ix3 b h s)).trans ?_
  unfold Cert.Spec.rowMax Cert.Spec.negInf
  exact congrArg (fun f => Finset.fold max (Ideal.ofBits .f32 0xFF800000#32) f (Finset.univ : Finset (Fin 2048)))
    (funext fun k => congrArg y (lift_bhs hR b h s k))

theorem v48_at (b : Fin 4) (h : Fin 16) (s : Fin 2048) :
    Read.val_main_v48 (F := Ideal) x0 x1 x2 x3 (ix3 b h s)
      = Cert.Spec.rowMax (fun k => Read.val_main_v45 (F := Ideal) x0 x1 x2 x3 (ix4 b h s k)) := by
  rw [Read.val_main_v48_apply, Read.val_main_v47_apply, Read.val_main_cst_1_apply, v46_at]
  unfold Cert.Spec.rowMax Cert.Spec.negInf
  exact max_eq_right ((Finset.le_fold_max _).2 (Or.inl le_rfl))

/-! ## The exponentials, their sum, and the softmax weights -/

theorem v50_at (b : Fin 4) (h : Fin 16) (s k : Fin 2048) :
    Read.val_main_v50 (F := Ideal) x0 x1 x2 x3 (ix4 b h s k) = Read.val_main_v48 (F := Ideal) x0 x1 x2 x3 (ix3 b h s) := by
  rw [Read.val_main_v50_apply, Read.val_main_v49_apply]
  exact congrArg (Read.val_main_v48 (F := Ideal) x0 x1 x2 x3)
    (funext fun a => Fin.ext (by match a with | ⟨0, _⟩ => rfl | ⟨1, _⟩ => rfl | ⟨2, _⟩ => rfl))

theorem v52_at (b : Fin 4) (h : Fin 16) (s k : Fin 2048) :
    Read.val_main_v52 (F := Ideal) x0 x1 x2 x3 (ix4 b h s k)
      = Cert.Spec.expRow (fun k' => Read.val_main_v45 (F := Ideal) x0 x1 x2 x3 (ix4 b h s k')) k := by
  rw [Read.val_main_v52_apply, Read.val_main_v51_apply, v50_at, v48_at]
  rfl

theorem v53_at (b : Fin 4) (h : Fin 16) (s : Fin 2048) :
    Read.val_main_v53 (F := Ideal) x0 x1 x2 x3 (ix3 b h s)
      = ∑ k : Fin 2048, Cert.Spec.expRow (fun k' => Read.val_main_v45 (F := Ideal) x0 x1 x2 x3 (ix4 b h s k')) k := by
  rw [Read.val_main_v53_apply, Read.val_main_cst_2_apply]
  show Ideal.ofBits .f32 0x00000000#32 + _ = _
  rw [Ideal.ofBits_zero_f32, zero_add]
  refine Finset.sum_congr rfl fun k _ => ?_
  refine Eq.trans (congrArg (Read.val_main_v52 (F := Ideal) x0 x1 x2 x3)
    (funext fun a => Fin.ext (by match a with | ⟨0, _⟩ => rfl | ⟨1, _⟩ => rfl | ⟨2, _⟩ => rfl | ⟨3, _⟩ => rfl))) (v52_at x0 x1 x2 x3 b h s k)

theorem v55_at (b : Fin 4) (h : Fin 16) (s k : Fin 2048) :
    Read.val_main_v55 (F := Ideal) x0 x1 x2 x3 (ix4 b h s k) = Read.val_main_v53 (F := Ideal) x0 x1 x2 x3 (ix3 b h s) := by
  rw [Read.val_main_v55_apply, Read.val_main_v54_apply]
  exact congrArg (Read.val_main_v53 (F := Ideal) x0 x1 x2 x3)
    (funext fun a => Fin.ext (by match a with | ⟨0, _⟩ => rfl | ⟨1, _⟩ => rfl | ⟨2, _⟩ => rfl))

theorem v56_at (b : Fin 4) (h : Fin 16) (s k : Fin 2048) :
    Read.val_main_v56 (F := Ideal) x0 x1 x2 x3 (ix4 b h s k)
      = Cert.Spec.weightRow (fun k' => Read.val_main_v45 (F := Ideal) x0 x1 x2 x3 (ix4 b h s k')) k := by
  rw [Read.val_main_v56_apply, v52_at, v55_at, v53_at]
  rfl

/-! ## One head's attention -/

/-- One head's attention in the reference: element `(b, h, s, d)` of the weighted values is the attention of head
    `h` of batch `b` on its unrotated queries, keys and values and the rotary tables. -/
theorem ref_core (b : Fin 4) (h : Fin 16) (s : Fin 2048) (d : Fin 80) :
    Read.val_main_v57 (F := Ideal) x0 x1 x2 x3 (ix4 b h s d)
      = Cert.Spec.core
          (fun s d => Read.val_main_v7 (F := Ideal) x0 x2 x3 (ix4 b s h d))
          (fun s d => Read.val_main_v9 (F := Ideal) x0 x2 x3 (ix4 b s h d))
          (fun s d => Read.val_main_v11 (F := Ideal) x0 x2 x3 (ix4 b s h d))
          (fun s d => Read.val_main_v16 (F := Ideal) x1 (ix4 (0 : Fin 1) s (0 : Fin 1) d))
          (fun s d => Read.val_main_v21 (F := Ideal) x1 (ix4 (0 : Fin 1) s (0 : Fin 1) d)) s d := by
  have hrow : (fun k' => Read.val_main_v45 (F := Ideal) x0 x1 x2 x3 (ix4 b h s k')) = scoreOf x0 x1 x2 x3 b h s :=
    funext fun k' => v45_at x0 x1 x2 x3 b h s k'
  refine (Read.val_main_v57_apply x0 x1 x2 x3 _).trans ?_
  unfold Cert.Spec.core Cert.Spec.coreR Cert.Spec.attnRow
  refine Finset.sum_congr rfl fun k _ => ?_
  have e1 : Read.lidx_main_v57 (ix4 b h s d) k = ix4 b h s k :=
    funext fun a => Fin.ext (by match a with | ⟨0, _⟩ => rfl | ⟨1, _⟩ => rfl | ⟨2, _⟩ => rfl | ⟨3, _⟩ => rfl)
  have e2 : Read.ridx_main_v57 (ix4 b h s d) k = ix4 b h k d :=
    funext fun a => Fin.ext (by match a with | ⟨0, _⟩ => rfl | ⟨1, _⟩ => rfl | ⟨2, _⟩ => rfl | ⟨3, _⟩ => rfl)
  refine congrArg₂ (· * ·) ?_ ?_
  · exact (congrArg (Read.val_main_v56 (F := Ideal) x0 x1 x2 x3) e1).trans
      ((v56_at x0 x1 x2 x3 b h s k).trans (congrArg (fun r => Cert.Spec.weightRow r k) hrow))
  · exact (congrArg (Read.val_main_v42 (F := Ideal) x0 x2 x3) e2).trans (v42_at x0 x2 x3 b h k d)

end Cert.ReferenceIdeal.RefValue

end
-- ==== Proof.Ref.Result.lean ====
/-
  The reference's result is the attention layer of its arguments.

  Each stage outside the attention core is a coordinate function of the stage before it: the projected features are
  the projection of the hidden states; the queries, keys and values of a head are that head's slices of the projected
  features; the rotary tables repeat a position's angles twice; the heads' outputs are the attention core on those; the
  merged heads lay the outputs side by side; the result is the output projection of the merged heads. Composing these
  equations between coordinate functions gives the whole layer.
-/
import proofs.«402768_j2499670966342_3_alg».proof.Proof.Ref.Layout
import proofs.«402768_j2499670966342_3_alg».proof.Proof.Ref.Heads
import proofs.«402768_j2499670966342_3_alg».proof.Proof.Ref.Attn

noncomputable section

namespace Cert.ReferenceIdeal.RefValue

open Cert.ReferenceIdeal Cert.ReferenceIdeal.Gen Idealize.ShloMosaic Idealize.ShloMosaic.ValueIdx

/-! The pointwise readings, lifted to equations between coordinate functions. -/

/-- The projected features, as a function of position, batch and feature. -/
theorem projected_eq (x0 : (⟨S2048x4x1280, .f32⟩ : BufTy).Contents (Elt Ideal)) (x2 : (⟨S3840x1280, .f32⟩ : BufTy).Contents (Elt Ideal)) (x3 : (⟨S3840, .f32⟩ : BufTy).Contents (Elt Ideal)) :
    (fun (s : Fin 2048) (b : Fin 4) (e : Fin 3840) => Read.val_main_v3 (F := Ideal) x0 x2 x3 (ix3 s b e))
      = Cert.Spec.proj (fun s b d => x0 (ix3 s b d)) (fun e d => x2 (ix2 e d)) (fun e => x3 (ix1 e)) :=
  funext fun s => funext fun b => funext fun e => ref_proj_in x0 x2 x3 s b e

/-- The queries of head `h`, batch `b`: that head's slice of the projected features from column `0`. -/
theorem queries_eq (x0 : (⟨S2048x4x1280, .f32⟩ : BufTy).Contents (Elt Ideal)) (x2 : (⟨S3840x1280, .f32⟩ : BufTy).Contents (Elt Ideal)) (x3 : (⟨S3840, .f32⟩ : BufTy).Contents (Elt Ideal)) (b : Fin 4) (h : Fin 16) :
    (fun (s : Fin 2048) (d : Fin 80) => Read.val_main_v7 (F := Ideal) x0 x2 x3 (ix4 b s h d))
      = Cert.Spec.headOf (Cert.Spec.proj (fun s b d => x0 (ix3 s b d)) (fun e d => x2 (ix2 e d)) (fun e => x3 (ix1 e))) 0 (by decide) b h :=
  funext fun s => funext fun d => (ref_headQ x0 x2 x3 b s h d).trans
    (congrArg (fun P => Cert.Spec.headOf P 0 (by decide) b h s d) (projected_eq x0 x2 x3))

/-- The keys: from column `1280`. -/
theorem keys_eq (x0 : (⟨S2048x4x1280, .f32⟩ : BufTy).Contents (Elt Ideal)) (x2 : (⟨S3840x1280, .f32⟩ : BufTy).Contents (Elt Ideal)) (x3 : (⟨S3840, .f32⟩ : BufTy).Contents (Elt Ideal)) (b : Fin 4) (h : Fin 16) :
    (fun (s : Fin 2048) (d : Fin 80) => Read.val_main_v9 (F := Ideal) x0 x2 x3 (ix4 b s h d))
      = Cert.Spec.headOf (Cert.Spec.proj (fun s b d => x0 (ix3 s b d)) (fun e d => x2 (ix2 e d)) (fun e => x3 (ix1 e))) 1280 (by decide) b h :=
  funext fun s => funext fun d => (ref_headK x0 x2 x3 b s h d).trans
    (congrArg (fun P => Cert.Spec.headOf P 1280 (by decide) b h s d) (projected_eq x0 x2 x3))

/-- The values: from column `2560`. -/
theorem values_eq (x0 : (⟨S2048x4x1280, .f32⟩ : BufTy).Contents (Elt Ideal)) (x2 : (⟨S3840x1280, .f32⟩ : BufTy).Contents (Elt Ideal)) (x3 : (⟨S3840, .f32⟩ : BufTy).Contents (Elt Ideal)) (b : Fin 4) (h : Fin 16) :
    (fun (s : Fin 2048) (d : Fin 80) => Read.val_main_v11 (F := Ideal) x0 x2 x3 (ix4 b s h d))
      = Cert.Spec.headOf (Cert.Spec.proj (fun s b d => x0 (ix3 s b d)) (fun e d => x2 (ix2 e d)) (fun e => x3 (ix1 e))) 2560 (by decide) b h :=
  funext fun s => funext fun d => (ref_headV x0 x2 x3 b s h d).trans
    (congrArg (fun P => Cert.Spec.headOf P 2560 (by decide) b h s d) (projected_eq x0 x2 x3))

/-- The cosine table as a function of position and feature. -/
theorem cos_table_eq (x1 : (⟨S2048x40, .f32⟩ : BufTy).Contents (Elt Ideal)) :
    (fun (s : Fin 2048) (d : Fin 80) => Read.val_main_v16 (F := Ideal) x1 (ix4 (0 : Fin 1) s (0 : Fin 1) d))
      = Cert.Spec.cosT (fun s j => x1 (ix2 s j)) :=
  funext fun s => funext fun d => ref_cos x1 s d

/-- The sine table as a function of position and feature. -/
theorem sin_table_eq (x1 : (⟨S2048x40, .f32⟩ : BufTy).Contents (Elt Ideal)) :
    (fun (s : Fin 2048) (d : Fin 80) => Read.val_main_v21 (F := Ideal) x1 (ix4 (0 : Fin 1) s (0 : Fin 1) d))
      = Cert.Spec.sinT (fun s j => x1 (ix2 s j)) :=
  funext fun s => funext fun d => ref_sin x1 s d

/-- Every head's attention output: the attention core on that head's queries, keys and values and the two tables. -/
theorem heads_eq (x0 : (⟨S2048x4x1280, .f32⟩ : BufTy).Contents (Elt Ideal)) (x1 : (⟨S2048x40, .f32⟩ : BufTy).Contents (Elt Ideal)) (x2 : (⟨S3840x1280, .f32⟩ : BufTy).Contents (Elt Ideal)) (x3 : (⟨S3840, .f32⟩ : BufTy).Contents (Elt Ideal)) :
    (fun (b : Fin 4) (h : Fin 16) (s : Fin 2048) (d : Fin 80) => Read.val_main_v57 (F := Ideal) x0 x1 x2 x3 (ix4 b h s d))
      = Cert.Spec.attnAll (Cert.Spec.proj (fun s b d => x0 (ix3 s b d)) (fun e d => x2 (ix2 e d)) (fun e => x3 (ix1 e)))
          (fun s j => x1 (ix2 s j)) := by
  funext b h s d
  rw [ref_core, queries_eq, keys_eq, values_eq, cos_table_eq, sin_table_eq]
  rfl

/-- The merged heads as a function of position, batch and feature. -/
theorem merged_eq (x0 : (⟨S2048x4x1280, .f32⟩ : BufTy).Contents (Elt Ideal)) (x1 : (⟨S2048x40, .f32⟩ : BufTy).Contents (Elt Ideal)) (x2 : (⟨S3840x1280, .f32⟩ : BufTy).Contents (Elt Ideal)) (x3 : (⟨S3840, .f32⟩ : BufTy).Contents (Elt Ideal)) :
    (fun (s : Fin 2048) (b : Fin 4) (e : Fin 1280) => Read.val_main_v59 (F := Ideal) x0 x1 x2 x3 (ix3 s b e))
      = Cert.Spec.merged (Cert.Spec.attnAll (Cert.Spec.proj (fun s b d => x0 (ix3 s b d)) (fun e d => x2 (ix2 e d)) (fun e => x3 (ix1 e)))
          (fun s j => x1 (ix2 s j))) :=
  funext fun s => funext fun b => funext fun e => (ref_merge x0 x1 x2 x3 s b e).trans
    (congrArg (fun O => Cert.Spec.merged O s b e) (heads_eq x0 x1 x2 x3))

/-- The reference's result is the whole layer of its six arguments: the output projection of the merged heads of the
attention of the projected hidden states. -/
theorem ref_result (x0 : (⟨S2048x4x1280, .f32⟩ : BufTy).Contents (Elt Ideal)) (x1 : (⟨S2048x40, .f32⟩ : BufTy).Contents (Elt Ideal)) (x2 : (⟨S3840x1280, .f32⟩ : BufTy).Contents (Elt Ideal)) (x3 : (⟨S3840, .f32⟩ : BufTy).Contents (Elt Ideal)) (x4 : (⟨S1280x1280, .f32⟩ : BufTy).Contents (Elt Ideal)) (x5 : (⟨S1280, .f32⟩ : BufTy).Contents (Elt Ideal)) (s : Fin 2048) (b : Fin 4) (e : Fin 1280) :
    Read.val_main_v63 (F := Ideal) x0 x1 x2 x3 x4 x5 (ix3 s b e)
      = Cert.Spec.final (fun s b d => x0 (ix3 s b d)) (fun s j => x1 (ix2 s j)) (fun e d => x2 (ix2 e d)) (fun e => x3 (ix1 e))
          (fun e d => x4 (ix2 e d)) (fun e => x5 (ix1 e)) s b e := by
  rw [ref_proj_out, merged_eq]
  rfl

end Cert.ReferenceIdeal.RefValue

end
-- ==== Proof.lean ====
/-
  The five claims of the attention layer's certificate.

  Both printed kernel programs (the word-level one and its idealization: the same text, no rewrite applied) run their
  three pallas regions between stretches of host operations; the run of Proof/KI/Run.lean (and its word-level twin under
  Proof/K/) ends with every unscoped buffer at the last boundary's contents, from which the argument arrays read back as
  launched (the two frames) and the result array reads as a function of the arguments. The reference is a host
  program: its frame and its result are its generated run's.

  At the exact instance the kernel's result, index by index, is `Cert.Spec.final` of the arguments' coordinates
  (Proof/Val/Kernel.lean) and so is the reference's (Proof/Ref/Result.lean): projection, rotary embedding (the kernel's
  cyclic shift against signed sines is the reference's half rotation against plain sines, `(-a) · b = a · (-b)`), softmax
  attention head by head with the one scale word both programs carry, and the output projection. Changes of float
  format are the identity at this instance, and a matrix product block by block is the same sum as one whole product.
-/
import proofs.«402768_j2499670966342_3_alg».proof.Defs
import proofs.«402768_j2499670966342_3_alg».proof.Proof.Gen.Kernel
import proofs.«402768_j2499670966342_3_alg».proof.Proof.Gen.KernelIdeal
import proofs.«402768_j2499670966342_3_alg».proof.Proof.Gen.ReferenceIdeal
import proofs.«402768_j2499670966342_3_alg».proof.Proof.Gen.Pre_finite_inputs
import proofs.«402768_j2499670966342_3_alg».proof.Proof.Gen.ReferenceIdeal.Run
import proofs.«402768_j2499670966342_3_alg».proof.Proof.Gen.ReferenceIdeal.Read
import proofs.«402768_j2499670966342_3_alg».proof.Proof.K.Run
import proofs.«402768_j2499670966342_3_alg».proof.Proof.KI.Run
import proofs.«402768_j2499670966342_3_alg».proof.Proof.Val.Kernel
import proofs.«402768_j2499670966342_3_alg».proof.Proof.Ref.Result
import Idealize.ShloMosaic.Adequacy
import Idealize.ShloMosaic.Init

noncomputable section

namespace Cert.Proof

open Idealize.ShloMosaic Idealize.ShloMosaic.TcCoe Idealize.SL.Sem Idealize.ShloMosaic.ValueIdx

/-- The word-level kernel program runs to the end and leaves its arguments as launched. -/
theorem frame_k : Cert.frame_Kernel := fun m ρ _ => Cert.Kernel.Hand.frame_all (F := Bits) m ρ

/-- So does its idealization. -/
theorem frame_ki : Cert.frame_KernelIdeal := fun m ρ _ => Cert.KernelIdeal.Hand.frame_all (F := Ideal) m ρ

/-- The reference is a host program: its generated run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- From memories agreeing on the arguments both idealized programs end with the same result array: each is
    `Cert.Spec.final` of the arguments, coordinate by coordinate. -/
theorem algebraic : Cert.algebraic_KernelIdeal_ReferenceIdeal := by
  intro m ρ m' ρ' _ hagree
  refine ⟨fun c => Cert.KernelIdeal.Hand.W7 (F := Ideal) m ρ c (Proc.devRef .tc Cert.KernelIdeal.main_v30), ?_, ?_⟩
  · refine (θ_run Cert.KernelIdeal.defs _ _).mono (fun r h c => ⟨?_, ?_, ?_, ?_, ?_, ?_, ?_⟩) (Cert.KernelIdeal.Hand.run_all (F := Ideal) m ρ)
    · exact h c _ (Cert.KernelIdeal.Hand.mem_uc Cert.KernelIdeal.main_v30 (by decide))
    · exact (h c _ (Cert.KernelIdeal.Hand.mem_uc Cert.KernelIdeal.main_arg0 (by decide))).trans (Cert.KernelIdeal.Hand.W7_main_arg0 m ρ c)
    · exact (h c _ (Cert.KernelIdeal.Hand.mem_uc Cert.KernelIdeal.main_arg1 (by decide))).trans (Cert.KernelIdeal.Hand.W7_main_arg1 m ρ c)
    · exact (h c _ (Cert.KernelIdeal.Hand.mem_uc Cert.KernelIdeal.main_arg2 (by decide))).trans (Cert.KernelIdeal.Hand.W7_main_arg2 m ρ c)
    · exact (h c _ (Cert.KernelIdeal.Hand.mem_uc Cert.KernelIdeal.main_arg3 (by decide))).trans (Cert.KernelIdeal.Hand.W7_main_arg3 m ρ c)
    · exact (h c _ (Cert.KernelIdeal.Hand.mem_uc Cert.KernelIdeal.main_arg4 (by decide))).trans (Cert.KernelIdeal.Hand.W7_main_arg4 m ρ c)
    · exact (h c _ (Cert.KernelIdeal.Hand.mem_uc Cert.KernelIdeal.main_arg5 (by decide))).trans (Cert.KernelIdeal.Hand.W7_main_arg5 m ρ c)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v63_eq]
    funext i
    obtain ⟨s, b, e, rfl⟩ : ∃ (s : Fin 2048) (b : Fin 4) (e : Fin 1280), i = ix3 s b e := ⟨i 0, i 1, i 2, eq_ix3 i⟩
    rw [Cert.ReferenceIdeal.RefValue.ref_result]
    show _ = Cert.KernelIdeal.Hand.W7 (F := Ideal) m ρ c (Proc.devRef .tc Cert.KernelIdeal.main_v30) (ix3 s b e)
    rw [Cert.KernelIdeal.Val.kernel_result,
      (hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
